-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x256 : Shape := ⟨2, ![128, 256]⟩
abbrev S256 : Shape := ⟨1, ![256]⟩
abbrev S256x64 : Shape := ⟨2, ![256, 64]⟩
abbrev S64x1 : Shape := ⟨2, ![64, 1]⟩
abbrev S2x261657 : Shape := ⟨2, ![2, 261657]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64x1 : S_.BroadcastsInDim S64x1 (![] : Fin 0 → Fin S64x1.rank)
  reducesTo_S64x1_S_d0_1 : S64x1.ReducesTo [0, 1] S_
  bcast_S_S2x261657 : S_.BroadcastsInDim S2x261657 (![] : Fin 0 → Fin S2x261657.rank)
  reducesTo_S2x261657_S_d0_1 : S2x261657.ReducesTo [0, 1] S_

variable [Facts]

def fn_part2 {F : FTy → Type} [FloatOps F] (main_arg6 : IVec S2x261657 32) (main_v32 : IVec S_ 1) (main_c_12 : IVec S_ 32) : IVec S_ 1 :=
  let main_v33 : IVec S2x261657 32 := broadcastInDim S2x261657 ![] bcast_S_S2x261657 main_c_12
  let main_v34 : IVec S2x261657 1 := cmpi .slt main_arg6 main_v33
  let main_c_13 : IVec S_ 1 := constantI S_ 1 1#1
  let main_v35 : IVec S_ 1 := (fun x v => Host.reduce IntOp.andi x v reducesTo_S2x261657_S_d0_1 h_S_) main_v34 main_c_13
  let main_v36 : IVec S_ 1 := andi main_v32 main_v35
  main_v36

def fn_part1 {F : FTy → Type} [FloatOps F] (main_arg4 : FVec F S256x64 .f32) (main_arg5 : FVec F S64x1 .f32) (main_arg6 : IVec S2x261657 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_c_10 : IVec S_ 32 := constantI S_ 32 0#32
  let main_v29 : IVec S2x261657 32 := broadcastInDim S2x261657 ![] bcast_S_S2x261657 main_c_10
  let main_v30 : IVec S2x261657 1 := cmpi .sge main_arg6 main_v29
  let main_c_11 : IVec S_ 1 := constantI S_ 1 1#1
  let main_v31 : IVec S_ 1 := (fun x v => Host.reduce IntOp.andi x v reducesTo_S2x261657_S_d0_1 h_S_) main_v30 main_c_11
  let main_v32 : IVec S_ 1 := andi main_v28 main_v31
  let main_c_12 : IVec S_ 32 := constantI S_ 32 8192#32
  fn_part2 (F := F) main_arg6 main_v32 main_c_12

def fn {F : FTy → Type} [FloatOps F] (main_arg0 : FVec F S8192x128 .f32) (main_arg1 : FVec F S8192x8192 .f32) (main_arg2 : FVec F S128x256 .f32) (main_arg3 : FVec F S256 .f32) (main_arg4 : FVec F S256x64 .f32) (main_arg5 : FVec F S64x1 .f32) (main_arg6 : IVec S2x261657 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S8192x128 : Shape := ⟨2, ![8192, 128]⟩
abbrev S8192x8192 : Shape := ⟨2, ![8192, 8192]⟩
abbrev S128x256 : Shape := ⟨2, ![128, 256]⟩
abbrev S256 : Shape := ⟨1, ![256]⟩
abbrev S256x64 : Shape := ⟨2, ![256, 64]⟩
abbrev S64x1 : Shape := ⟨2, ![64, 1]⟩
abbrev S2x261657 : Shape := ⟨2, ![2, 261657]⟩
abbrev S128x64 : Shape := ⟨2, ![128, 64]⟩
abbrev S_ : Shape := ⟨0, ![]⟩
abbrev S128x128 : Shape := ⟨2, ![128, 128]⟩
abbrev S256x128 : Shape := ⟨2, ![256, 128]⟩
abbrev S64x2 : Shape := ⟨2, ![64, 2]⟩
abbrev S128x2 : Shape := ⟨2, ![128, 2]⟩
abbrev S8192x256 : Shape := ⟨2, ![8192, 256]⟩
abbrev S1024x128 : Shape := ⟨2, ![1024, 128]⟩
abbrev S1024x256 : Shape := ⟨2, ![1024, 256]⟩
abbrev S1x256 : Shape := ⟨2, ![1, 256]⟩
abbrev S1x261657 : Shape := ⟨2, ![1, 261657]⟩
abbrev S261657 : Shape := ⟨1, ![261657]⟩
abbrev S262144 : Shape := ⟨1, ![262144]⟩
abbrev S262144x1 : Shape := ⟨2, ![262144, 1]⟩
abbrev S262144x2 : Shape := ⟨2, ![262144, 2]⟩
abbrev S262144x256 : Shape := ⟨2, ![262144, 256]⟩
abbrev S512x1 : Shape := ⟨2, ![512, 1]⟩
abbrev S512x2 : Shape := ⟨2, ![512, 2]⟩
abbrev S512x256 : Shape := ⟨2, ![512, 256]⟩
abbrev S1x8192 : Shape := ⟨2, ![1, 8192]⟩
abbrev S512x8192 : Shape := ⟨2, ![512, 8192]⟩
abbrev S512x128 : Shape := ⟨2, ![512, 128]⟩
abbrev S2 : Shape := ⟨1, ![2]⟩
abbrev S1x2 : Shape := ⟨2, ![1, 2]⟩
abbrev S2x8192x256 : Shape := ⟨3, ![2, 8192, 256]⟩
abbrev S1x8192x256 : Shape := ⟨3, ![1, 8192, 256]⟩

abbrev nBuf : Space → Nat
  | .hbm => 74
  | .vmem => 29
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64x1, .f32⟩
  | .hbm, ⟨6, _⟩ => ⟨S2x261657, .i32⟩
  | .hbm, ⟨7, _⟩ => ⟨S128x64, .f32⟩
  | .hbm, ⟨8, _⟩ => ⟨S128x64, .f32⟩
  | .hbm, ⟨9, _⟩ => ⟨S_, .f32⟩
  | .hbm, ⟨10, _⟩ => ⟨S128x64, .f32⟩
  | .hbm, ⟨11, _⟩ => ⟨S128x128, .f32⟩
  | .hbm, ⟨12, _⟩ => ⟨S128x128, .f32⟩
  | .hbm, ⟨13, _⟩ => ⟨S256x128, .f32⟩
  | .hbm, ⟨14, _⟩ => ⟨S128x128, .f32⟩
  | .hbm, ⟨15, _⟩ => ⟨S128x128, .f32⟩
  | .hbm, ⟨16, _⟩ => ⟨S256x128, .f32⟩
  | .hbm, ⟨17, _⟩ => ⟨S_, .f32⟩
  | .hbm, ⟨18, _⟩ => ⟨S64x1, .f32⟩
  | .hbm, ⟨19, _⟩ => ⟨S64x2, .f32⟩
  | .hbm, ⟨20, _⟩ => ⟨S64x2, .f32⟩
  | .hbm, ⟨21, _⟩ => ⟨S128x2, .f32⟩
  | .hbm, ⟨22, _⟩ => ⟨S8192x256, .bf16⟩
  | .hbm, ⟨23, _⟩ => ⟨S8192x128, .bf16⟩
  | .hbm, ⟨24, _⟩ => ⟨S1x261657, .i32⟩
  | .hbm, ⟨25, _⟩ => ⟨S261657, .i32⟩
  | .hbm, ⟨26, _⟩ => ⟨S1x261657, .i32⟩
  | .hbm, ⟨27, _⟩ => ⟨S261657, .i32⟩
  | .hbm, ⟨28, _⟩ => ⟨S_, .i32⟩
  | .hbm, ⟨29, _⟩ => ⟨S_, .i32⟩
  | .hbm, ⟨30, _⟩ => ⟨S262144, .i32⟩
  | .hbm, ⟨31, _⟩ => ⟨S_, .i32⟩
  | .hbm, ⟨32, _⟩ => ⟨S_, .i32⟩
  | .hbm, ⟨33, _⟩ => ⟨S262144, .i32⟩
  | .hbm, ⟨34, _⟩ => ⟨S262144x1, .i32⟩
  | .hbm, ⟨35, _⟩ => ⟨S262144x1, .i32⟩
  | .hbm, ⟨36, _⟩ => ⟨S262144x2, .f32⟩
  | .hbm, ⟨37, _⟩ => ⟨S262144x256, .bf16⟩
  | .hbm, ⟨38, _⟩ => ⟨S262144, .i32⟩
  | .hbm, ⟨39, _⟩ => ⟨S_, .i32⟩
  | .hbm, ⟨40, _⟩ => ⟨S262144, .i32⟩
  | .hbm, ⟨41, _⟩ => ⟨S262144, .i1⟩
  | .hbm, ⟨42, _⟩ => ⟨S262144x1, .i1⟩
  | .hbm, ⟨43, _⟩ => ⟨S_, .f32⟩
  | .hbm, ⟨44, _⟩ => ⟨S_, .f32⟩
  | .hbm, ⟨45, _⟩ => ⟨S262144x2, .i1⟩
  | .hbm, ⟨46, _⟩ => ⟨S262144x2, .f32⟩
  | .hbm, ⟨47, _⟩ => ⟨S262144x2, .f32⟩
  | .hbm, ⟨48, _⟩ => ⟨S_, .f32⟩
  | .hbm, ⟨49, _⟩ => ⟨S2, .f32⟩
  | .hbm, ⟨50, _⟩ => ⟨S_, .f32⟩
  | .hbm, ⟨51, _⟩ => ⟨S2, .f32⟩
  | .hbm, ⟨52, _⟩ => ⟨S2, .f32⟩
  | .hbm, ⟨53, _⟩ => ⟨S1x2, .f32⟩
  | .hbm, ⟨54, _⟩ => ⟨S262144x2, .f32⟩
  | .hbm, ⟨55, _⟩ => ⟨S262144x2, .f32⟩
  | .hbm, ⟨56, _⟩ => ⟨S262144x2, .f32⟩
  | .hbm, ⟨57, _⟩ => ⟨S_, .f32⟩
  | .hbm, ⟨58, _⟩ => ⟨S2, .f32⟩
  | .hbm, ⟨59, _⟩ => ⟨S1x2, .f32⟩
  | .hbm, ⟨60, _⟩ => ⟨S262144x2, .f32⟩
  | .hbm, ⟨61, _⟩ => ⟨S262144x2, .f32⟩
  | .hbm, ⟨62, _⟩ => ⟨S2x8192x256, .f32⟩
  | .hbm, ⟨63, _⟩ => ⟨S1x8192x256, .f32⟩
  | .hbm, ⟨64, _⟩ => ⟨S8192x256, .f32⟩
  | .hbm, ⟨65, _⟩ => ⟨S1x8192x256, .f32⟩
  | .hbm, ⟨66, _⟩ => ⟨S8192x256, .f32⟩
  | .hbm, ⟨67, _⟩ => ⟨S8192x256, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S_, .f32⟩
  | .hbm, ⟨72, _⟩ => ⟨S8192x128, .f32⟩
  | .hbm, ⟨73, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S128x256, .f32⟩
  | .local _ .vmem, ⟨3, _⟩ => ⟨S256, .f32⟩
  | .local _ .vmem, ⟨4, _⟩ => ⟨S256x128, .f32⟩
  | .local _ .vmem, ⟨5, _⟩ => ⟨S1024x256, .bf16⟩
  | .local _ .vmem, ⟨6, _⟩ => ⟨S1024x256, .bf16⟩
  | .local _ .vmem, ⟨7, _⟩ => ⟨S1024x128, .bf16⟩
  | .local _ .vmem, ⟨8, _⟩ => ⟨S1024x128, .bf16⟩
  | .local _ .vmem, ⟨9, _⟩ => ⟨S512x1, .i32⟩
  | .local _ .vmem, ⟨10, _⟩ => ⟨S512x1, .i32⟩
  | .local _ .vmem, ⟨11, _⟩ => ⟨S512x1, .i32⟩
  | .local _ .vmem, ⟨12, _⟩ => ⟨S512x1, .i32⟩
  | .local _ .vmem, ⟨13, _⟩ => ⟨S8192x128, .bf16⟩
  | .local _ .vmem, ⟨14, _⟩ => ⟨S8192x256, .bf16⟩
  | .local _ .vmem, ⟨15, _⟩ => ⟨S128x2, .f32⟩
  | .local _ .vmem, ⟨16, _⟩ => ⟨S256x128, .f32⟩
  | .local _ .vmem, ⟨17, _⟩ => ⟨S512x2, .f32⟩
  | .local _ .vmem, ⟨18, _⟩ => ⟨S512x2, .f32⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x2, .f32⟩
  | .local _ .vmem, ⟨24, _⟩ => ⟨S512x2, .f32⟩
  | .local _ .vmem, ⟨25, _⟩ => ⟨S512x1, .i32⟩
  | .local _ .vmem, ⟨26, _⟩ => ⟨S512x1, .i32⟩
  | .local _ .vmem, ⟨27, _⟩ => ⟨S1x8192x256, .f32⟩
  | .local _ .vmem, ⟨28, _⟩ => ⟨S1x8192x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_c_1 : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v23 : Ref sig .tc := ⟨.hbm, 38, rfl⟩
abbrev main_c_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![512], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![2, 256], ![false, false]⟩

def cc2_transform_0 (i : grid2.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x8192x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S256x64_S128x64_0_0 : S256x64.Slices ![0, 0] S128x64
  slices_S256x64_S128x64_128_0 : S256x64.Slices ![128, 0] S128x64
  bcast_S_S128x64 : S_.BroadcastsInDim S128x64 (![] : Fin 0 → Fin S128x64.rank)
  concatenates_S128x64_S128x64_S128x128_d1 : Shape.Concatenates [S128x64, S128x64] S128x128 1
  concatenates_S128x128_S128x128_S256x128_d0 : Shape.Concatenates [S128x128, S128x128] S256x128 0
  bcast_S_S64x1 : S_.BroadcastsInDim S64x1 (![] : Fin 0 → Fin S64x1.rank)
  concatenates_S64x1_S64x1_S64x2_d1 : Shape.Concatenates [S64x1, S64x1] S64x2 1
  concatenates_S64x2_S64x2_S128x2_d0 : Shape.Concatenates [S64x2, S64x2] S128x2 0
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S1024x128_S1024x128_0_0 : (Rect.unit (s := S1024x128) ![0, 0] S1024x128.size inb_S1024x128_S1024x128_0_0).PackedRows (EltTy.packing .bf16)
  slices_S2x261657_S1x261657_0_0 : S2x261657.Slices ![0, 0] S1x261657
  shapeCasts_S1x261657_S261657 : S1x261657.ShapeCasts S261657
  slices_S2x261657_S1x261657_1_0 : S2x261657.Slices ![1, 0] S1x261657
  pads_S261657_S262144_04870 : S261657.Pads (![0] : Fin 1 → Nat) ![487] ![0] S262144
  h_S_ : 0 < S_.numel
  shapeCasts_S262144_S262144x1 : S262144.ShapeCasts S262144x1
  iota_S1x8192_d1_w32 : S1x8192.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x8192 : S512x1.Broadcasts S512x8192
  broadcasts_S1x8192_S512x8192 : S1x8192.Broadcasts S512x8192
  natLt_1_32 : 1 < 32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S512x2_S512x2_0_0 : ∀ a, (![0, 0] : Fin 2 → Nat) a + S512x2.size a ≤ S512x2.size a
  h_S512x2 : 0 < S512x2.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x2_0_1 : S262144x1.BroadcastsInDim S262144x2 (![0, 1] : Fin 2 → Fin S262144x2.rank)
  bcast_S_S262144x2 : S_.BroadcastsInDim S262144x2 (![] : Fin 0 → Fin S262144x2.rank)
  reducesTo_S262144x2_S2_d0 : S262144x2.ReducesTo [0] S2
  bcast_S_S2 : S_.BroadcastsInDim S2 (![] : Fin 0 → Fin S2.rank)
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  shapeCasts_S8192x256_S1x8192x256 : S8192x256.ShapeCasts S1x8192x256
  shapeCasts_S512x2_S512x2 : S512x2.ShapeCasts S512x2
  slices_S512x2_o0_0_S512x1 : S512x2.Slices ![0, 0] S512x1
  broadcasts_S512x1_S512x128 : S512x1.Broadcasts S512x128
  slices_S512x2_o0_1_S512x1 : S512x2.Slices ![0, 1] S512x1
  concatenates_S512x128_S512x128_S512x256_d1 : Shape.Concatenates [S512x128, S512x128] S512x256 1
  shapeCasts_S512x256_S512x256 : S512x256.ShapeCasts S512x256
  slices_S2x8192x256_S1x8192x256_0_0_0 : S2x8192x256.Slices ![0, 0, 0] S1x8192x256
  slices_S2x8192x256_S1x8192x256_1_0_0 : S2x8192x256.Slices ![1, 0, 0] S1x8192x256
  slices_S8192x256_S8192x128_0_0 : S8192x256.Slices ![0, 0] S8192x128
  slices_S8192x256_S8192x128_0_128 : S8192x256.Slices ![0, 128] S8192x128
  bcast_S_S8192x128 : S_.BroadcastsInDim S8192x128 (![] : Fin 0 → Fin S8192x128.rank)
  dot_S1024x128_S128x256_S1024x256_1_0_0_1_n_n_wf : DotDims.WF S1024x128 S128x256 S1024x256 [1] [0] [0] [1] [] []
  dot_S1024x256_S256x128_S1024x128_1_0_0_1_n_n_wf : DotDims.WF S1024x256 S256x128 S1024x128 [1] [0] [0] [1] [] []
  dot_S512x8192_S8192x128_S512x128_1_0_0_1_n_n_wf : DotDims.WF S512x8192 S8192x128 S512x128 [1] [0] [0] [1] [] []
  dot_S512x8192_S8192x256_S512x256_1_0_0_1_n_n_wf : DotDims.WF S512x8192 S8192x256 S512x256 [1] [0] [0] [1] [] []
  dot_S512x256_S256x128_S512x128_1_0_0_1_n_n_wf : DotDims.WF S512x256 S256x128 S512x128 [1] [0] [0] [1] [] []
  dot_S512x128_S128x2_S512x2_1_0_0_1_n_n_wf : DotDims.WF S512x128 S128x2 S512x2 [1] [0] [0] [1] [] []
  dot_S512x8192_S512x256_S8192x256_0_0_1_1_n_n_wf : DotDims.WF S512x8192 S512x256 S8192x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .bf16 = 32 ∨ (Rect.block (s := S8192x128) S1024x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S262144x1.size a
  hwx1_0 : ∀ i : grid1.Coords, EltTy.bits .i32 = 32 ∨ (Rect.block (s := S262144x1) S512x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S262144x1.size a
  hwx1_1 : ∀ i : grid1.Coords, EltTy.bits .i32 = 32 ∨ (Rect.block (s := S262144x1) S512x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x128.size a
  hwx1_2 : ∀ i : grid1.Coords, EltTy.bits .bf16 = 32 ∨ (Rect.block (s := S8192x128) S8192x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x256.size a ≤ S8192x256.size a
  hwx1_3 : ∀ i : grid1.Coords, EltTy.bits .bf16 = 32 ∨ (Rect.block (s := S8192x256) S8192x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x2.size a ≤ S128x2.size a
  hwx1_4 : ∀ i : grid1.Coords, EltTy.bits .f32 = 32 ∨ (Rect.block (s := S128x2) S128x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x2.size a ≤ S262144x2.size a
  hwx1_6 : ∀ i : grid1.Coords, EltTy.bits .f32 = 32 ∨ (Rect.block (s := S262144x2) S512x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x256.size a ≤ S262144x256.size a
  hwx1_7 : ∀ i : grid1.Coords, EltTy.bits .bf16 = 32 ∨ (Rect.block (s := S262144x256) S512x256.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S262144x256.size a
  hwx2_0 : ∀ i : grid2.Coords, EltTy.bits .bf16 = 32 ∨ (Rect.block (s := S262144x256) S512x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2.size a ≤ S262144x2.size a
  hwx2_1 : ∀ i : grid2.Coords, EltTy.bits .f32 = 32 ∨ (Rect.block (s := S262144x2) S512x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S262144x1.size a
  hwx2_2 : ∀ i : grid2.Coords, EltTy.bits .i32 = 32 ∨ (Rect.block (s := S262144x1) S512x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x8192x256.size a ≤ S2x8192x256.size a
  hwx2_3 : ∀ i : grid2.Coords, EltTy.bits .f32 = 32 ∨ (Rect.block (s := S2x8192x256) S1x8192x256.size (cc2_transform_3 i) (hinb2_3 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf
def dot_S512x8192_S512x256_S8192x256_0_0_1_1_n_n : DotDims S512x8192 S512x256 S8192x256 where
  lhsContracting := [0]
  rhsContracting := [0]
  lhsNonContracting := [1]
  rhsNonContracting := [1]
  lhsBatch := []
  rhsBatch := []
  wf := dot_S512x8192_S512x256_S8192x256_0_0_1_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_1) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13_0) S8192x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S128x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22_0) S512x2.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v22_1) S512x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v22_1) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S512x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x8192x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x256 : Shape := ⟨2, ![128, 256]⟩
abbrev S256 : Shape := ⟨1, ![256]⟩
abbrev S256x64 : Shape := ⟨2, ![256, 64]⟩
abbrev S64x1 : Shape := ⟨2, ![64, 1]⟩
abbrev S2x261657 : Shape := ⟨2, ![2, 261657]⟩
abbrev S8192x256 : Shape := ⟨2, ![8192, 256]⟩
abbrev S1x256 : Shape := ⟨2, ![1, 256]⟩
abbrev S8192x2x128 : Shape := ⟨3, ![8192, 2, 128]⟩
abbrev S1x261657 : Shape := ⟨2, ![1, 261657]⟩
abbrev S261657 : Shape := ⟨1, ![261657]⟩
abbrev S128x64 : Shape := ⟨2, ![128, 64]⟩
abbrev S8192x2x64 : Shape := ⟨3, ![8192, 2, 64]⟩
abbrev S_ : Shape := ⟨0, ![]⟩
abbrev S261657x1 : Shape := ⟨2, ![261657, 1]⟩
abbrev S261657x2x64 : Shape := ⟨3, ![261657, 2, 64]⟩
abbrev S261657x2x1 : Shape := ⟨3, ![261657, 2, 1]⟩
abbrev S261657x2 : Shape := ⟨2, ![261657, 2]⟩
abbrev S2 : Shape := ⟨1, ![2]⟩
abbrev S1x2 : Shape := ⟨2, ![1, 2]⟩
abbrev S261657x2x128 : Shape := ⟨3, ![261657, 2, 128]⟩

abbrev nBuf : Space → Nat
  | .hbm => 90
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64x1, .f32⟩
  | .hbm, ⟨6, _⟩ => ⟨S2x261657, .i32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S8192x2x128, .f32⟩
  | .hbm, ⟨12, _⟩ => ⟨S1x261657, .i32⟩
  | .hbm, ⟨13, _⟩ => ⟨S261657, .i32⟩
  | .hbm, ⟨14, _⟩ => ⟨S1x261657, .i32⟩
  | .hbm, ⟨15, _⟩ => ⟨S261657, .i32⟩
  | .hbm, ⟨16, _⟩ => ⟨S128x64, .f32⟩
  | .hbm, ⟨17, _⟩ => ⟨S8192x2x64, .f32⟩
  | .hbm, ⟨18, _⟩ => ⟨S128x64, .f32⟩
  | .hbm, ⟨19, _⟩ => ⟨S8192x2x64, .f32⟩
  | .hbm, ⟨20, _⟩ => ⟨S_, .i32⟩
  | .hbm, ⟨21, _⟩ => ⟨S261657, .i32⟩
  | .hbm, ⟨22, _⟩ => ⟨S261657, .i1⟩
  | .hbm, ⟨23, _⟩ => ⟨S_, .i32⟩
  | .hbm, ⟨24, _⟩ => ⟨S261657, .i32⟩
  | .hbm, ⟨25, _⟩ => ⟨S261657, .i32⟩
  | .hbm, ⟨26, _⟩ => ⟨S261657, .i32⟩
  | .hbm, ⟨27, _⟩ => ⟨S261657x1, .i32⟩
  | .hbm, ⟨28, _⟩ => ⟨S261657x2x64, .f32⟩
  | .hbm, ⟨29, _⟩ => ⟨S_, .i32⟩
  | .hbm, ⟨30, _⟩ => ⟨S261657, .i32⟩
  | .hbm, ⟨31, _⟩ => ⟨S261657, .i1⟩
  | .hbm, ⟨32, _⟩ => ⟨S_, .i32⟩
  | .hbm, ⟨33, _⟩ => ⟨S261657, .i32⟩
  | .hbm, ⟨34, _⟩ => ⟨S261657, .i32⟩
  | .hbm, ⟨35, _⟩ => ⟨S261657, .i32⟩
  | .hbm, ⟨36, _⟩ => ⟨S261657x1, .i32⟩
  | .hbm, ⟨37, _⟩ => ⟨S261657x2x64, .f32⟩
  | .hbm, ⟨38, _⟩ => ⟨S261657x2x64, .f32⟩
  | .hbm, ⟨39, _⟩ => ⟨S_, .f32⟩
  | .hbm, ⟨40, _⟩ => ⟨S261657x2x64, .f32⟩
  | .hbm, ⟨41, _⟩ => ⟨S261657x2x64, .i1⟩
  | .hbm, ⟨42, _⟩ => ⟨S_, .f32⟩
  | .hbm, ⟨43, _⟩ => ⟨S261657x2x64, .f32⟩
  | .hbm, ⟨44, _⟩ => ⟨S261657x2x64, .f32⟩
  | .hbm, ⟨45, _⟩ => ⟨S261657x2x64, .f32⟩
  | .hbm, ⟨46, _⟩ => ⟨S261657x2x1, .f32⟩
  | .hbm, ⟨47, _⟩ => ⟨S261657x2, .f32⟩
  | .hbm, ⟨48, _⟩ => ⟨S_, .f32⟩
  | .hbm, ⟨49, _⟩ => ⟨S2, .f32⟩
  | .hbm, ⟨50, _⟩ => ⟨S_, .f32⟩
  | .hbm, ⟨51, _⟩ => ⟨S2, .f32⟩
  | .hbm, ⟨52, _⟩ => ⟨S2, .f32⟩
  | .hbm, ⟨53, _⟩ => ⟨S1x2, .f32⟩
  | .hbm, ⟨54, _⟩ => ⟨S261657x2, .f32⟩
  | .hbm, ⟨55, _⟩ => ⟨S261657x2, .f32⟩
  | .hbm, ⟨56, _⟩ => ⟨S261657x2, .f32⟩
  | .hbm, ⟨57, _⟩ => ⟨S_, .f32⟩
  | .hbm, ⟨58, _⟩ => ⟨S2, .f32⟩
  | .hbm, ⟨59, _⟩ => ⟨S1x2, .f32⟩
  | .hbm, ⟨60, _⟩ => ⟨S261657x2, .f32⟩
  | .hbm, ⟨61, _⟩ => ⟨S261657x2, .f32⟩
  | .hbm, ⟨62, _⟩ => ⟨S261657x2x1, .f32⟩
  | .hbm, ⟨63, _⟩ => ⟨S_, .i32⟩
  | .hbm, ⟨64, _⟩ => ⟨S261657, .i32⟩
  | .hbm, ⟨65, _⟩ => ⟨S261657, .i1⟩
  | .hbm, ⟨66, _⟩ => ⟨S_, .i32⟩
  | .hbm, ⟨67, _⟩ => ⟨S261657, .i32⟩
  | .hbm, ⟨68, _⟩ => ⟨S261657, .i32⟩
  | .hbm, ⟨69, _⟩ => ⟨S261657, .i32⟩
  | .hbm, ⟨70, _⟩ => ⟨S261657x1, .i32⟩
  | .hbm, ⟨71, _⟩ => ⟨S261657x2x128, .f32⟩
  | .hbm, ⟨72, _⟩ => ⟨S261657x2x128, .f32⟩
  | .hbm, ⟨73, _⟩ => ⟨S261657x2x128, .f32⟩
  | .hbm, ⟨74, _⟩ => ⟨S_, .f32⟩
  | .hbm, ⟨75, _⟩ => ⟨S8192x2x128, .f32⟩
  | .hbm, ⟨76, _⟩ => ⟨S_, .i32⟩
  | .hbm, ⟨77, _⟩ => ⟨S261657, .i32⟩
  | .hbm, ⟨78, _⟩ => ⟨S261657, .i1⟩
  | .hbm, ⟨79, _⟩ => ⟨S_, .i32⟩
  | .hbm, ⟨80, _⟩ => ⟨S261657, .i32⟩
  | .hbm, ⟨81, _⟩ => ⟨S261657, .i32⟩
  | .hbm, ⟨82, _⟩ => ⟨S261657, .i32⟩
  | .hbm, ⟨83, _⟩ => ⟨S261657x1, .i32⟩
  | .hbm, ⟨84, _⟩ => ⟨S8192x2x128, .f32⟩
  | .hbm, ⟨85, _⟩ => ⟨S_, .f32⟩
  | .hbm, ⟨86, _⟩ => ⟨S8192x128, .f32⟩
  | .hbm, ⟨87, _⟩ => ⟨S_, .f32⟩
  | .hbm, ⟨88, _⟩ => ⟨S8192x128, .f32⟩
  | .hbm, ⟨89, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S8192x256_S8192x2x128 : S8192x256.ShapeCasts S8192x2x128
  slices_S2x261657_S1x261657_0_0 : S2x261657.Slices ![0, 0] S1x261657
  shapeCasts_S1x261657_S261657 : S1x261657.ShapeCasts S261657
  slices_S2x261657_S1x261657_1_0 : S2x261657.Slices ![1, 0] S1x261657
  slices_S256x64_S128x64_0_0 : S256x64.Slices ![0, 0] S128x64
  slices_S256x64_S128x64_128_0 : S256x64.Slices ![128, 0] S128x64
  bcast_S_S261657 : S_.BroadcastsInDim S261657 (![] : Fin 0 → Fin S261657.rank)
  bcast_S261657_S261657x1_0 : S261657.BroadcastsInDim S261657x1 (![0] : Fin 1 → Fin S261657x1.rank)
  bcast_S_S261657x2x64 : S_.BroadcastsInDim S261657x2x64 (![] : Fin 0 → Fin S261657x2x64.rank)
  shapeCasts_S261657x2x1_S261657x2 : S261657x2x1.ShapeCasts S261657x2
  reducesTo_S261657x2_S2_d0 : S261657x2.ReducesTo [0] S2
  h_S_ : 0 < S_.numel
  bcast_S_S2 : S_.BroadcastsInDim S2 (![] : Fin 0 → Fin S2.rank)
  bcast_S2_S1x2_1 : S2.BroadcastsInDim S1x2 (![1] : Fin 1 → Fin S1x2.rank)
  bcast_S1x2_S261657x2_0_1 : S1x2.BroadcastsInDim S261657x2 (![0, 1] : Fin 2 → Fin S261657x2.rank)
  bcast_S261657x2_S261657x2x1_0_1 : S261657x2.BroadcastsInDim S261657x2x1 (![0, 1] : Fin 2 → Fin S261657x2x1.rank)
  bcast_S261657x2x1_S261657x2x128_0_1_2 : S261657x2x1.BroadcastsInDim S261657x2x128 (![0, 1, 2] : Fin 3 → Fin S261657x2x128.rank)
  bcast_S_S8192x2x128 : S_.BroadcastsInDim S8192x2x128 (![] : Fin 0 → Fin S8192x2x128.rank)
  reducesTo_S8192x2x128_S8192x128_d1 : S8192x2x128.ReducesTo [1] S8192x128
  bcast_S_S8192x128 : S_.BroadcastsInDim S8192x128 (![] : Fin 0 → Fin S8192x128.rank)
  dot_S8192x128_S128x256_S8192x256_1_0_0_1_n_n_wf : DotDims.WF S8192x128 S128x256 S8192x256 [1] [0] [0] [1] [] []
  dot_S8192x2x128_S128x64_S8192x2x64_2_0_01_1_n_n_wf : DotDims.WF S8192x2x128 S128x64 S8192x2x64 [2] [0] [0, 1] [1] [] []
  gather_S8192x2x64_S261657x1_S261657x2x64_12_0_n_n_0_1_1264_wf : GatherDims.WF S8192x2x64 S261657x1 S261657x2x64 [1, 2] [0] [] [0] [] 1 ![1, 2, 64]
  dot_S261657x2x64_S64x1_S261657x2x1_2_0_01_1_n_n_wf : DotDims.WF S261657x2x64 S64x1 S261657x2x1 [2] [0] [0, 1] [1] [] []
  gather_S8192x2x128_S261657x1_S261657x2x128_12_0_n_n_0_1_12128_wf : GatherDims.WF S8192x2x128 S261657x1 S261657x2x128 [1, 2] [0] [] [0] [] 1 ![1, 2, 128]
  scatter_S8192x2x128_S261657x1_S261657x2x128_12_0_0_1_wf : ScatterDims.WF S8192x2x128 S261657x1 S261657x2x128 [1, 2] [0] [0] 1

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x2x128_S128x64_S8192x2x64_2_0_01_1_n_n : DotDims S8192x2x128 S128x64 S8192x2x64 where
  lhsContracting := [2]
  rhsContracting := [0]
  lhsNonContracting := [0, 1]
  rhsNonContracting := [1]
  lhsBatch := []
  rhsBatch := []
  wf := dot_S8192x2x128_S128x64_S8192x2x64_2_0_01_1_n_n_wf
def gather_S8192x2x64_S261657x1_S261657x2x64_12_0_n_n_0_1_1264 : GatherDims S8192x2x64 S261657x1 S261657x2x64 where
  offsetDims := [1, 2]
  collapsedSliceDims := [0]
  operandBatchingDims := []
  startIndicesBatchingDims := []
  startIndexMap := [0]
  indexVectorDim := 1
  sliceSizes := ![1, 2, 64]
  wf := gather_S8192x2x64_S261657x1_S261657x2x64_12_0_n_n_0_1_1264_wf
def dot_S261657x2x64_S64x1_S261657x2x1_2_0_01_1_n_n : DotDims S261657x2x64 S64x1 S261657x2x1 where
  lhsContracting := [2]
  rhsContracting := [0]
  lhsNonContracting := [0, 1]
  rhsNonContracting := [1]
  lhsBatch := []
  rhsBatch := []
  wf := dot_S261657x2x64_S64x1_S261657x2x1_2_0_01_1_n_n_wf
def gather_S8192x2x128_S261657x1_S261657x2x128_12_0_n_n_0_1_12128 : GatherDims S8192x2x128 S261657x1 S261657x2x128 where
  offsetDims := [1, 2]
  collapsedSliceDims := [0]
  operandBatchingDims := []
  startIndicesBatchingDims := []
  startIndexMap := [0]
  indexVectorDim := 1
  sliceSizes := ![1, 2, 128]
  wf := gather_S8192x2x128_S261657x1_S261657x2x128_12_0_n_n_0_1_12128_wf
def scatter_S8192x2x128_S261657x1_S261657x2x128_12_0_0_1 : ScatterDims S8192x2x128 S261657x1 S261657x2x128 where
  updateWindowDims := [1, 2]
  insertedWindowDims := [0]
  scatterDimsToOperandDims := [0]
  indexVectorDim := 1
  wf := scatter_S8192x2x128_S261657x1_S261657x2x128_12_0_0_1_wf

class Facts : Prop extends Facts₀ where

variable [Facts]
-- ==== Proof.Spec.lean ====
/-
  The mathematics both programs compute, written once over the extended reals, index by index.

  A graph of 8192 nodes with 261657 directed edges (source, destination). Every node's 128 input features are projected
  to 2 heads of 128 features: `hv n k` = row `n` of `x · W + b`, the column `k = 128 · head + d`. An edge's score per head is
  `∑_f leaky (p_src[source, head, f] + p_dst[destination, head, f]) · A2[f]` where `p_src`, `p_dst` project a head's 128 features
  by the top and the bottom 128 rows of `A1`. The scores of one head are normalised over ALL edges (a softmax along the
  edge axis), every edge sends `weight · h[destination]` to its source node, the messages a node receives are summed, and
  the two heads are averaged.

  Two spellings of that function live here, each the shape one program has:
  * `R`: gathers read a node's row directly; the scatter is a sum over the edges whose source is the node.
  * `K`: a row is "gathered" as the product of a 0/1 row (1 exactly at the wanted node) with the whole node table; the
    head structure is folded into block-diagonal weight tables; the edge list is padded to 262144 entries whose node
    number 8192 matches no node; padded scores are `-∞` under the softmax; the scatter is the product of the transposed
    0/1 matrix with the messages, accumulated 512 edges at a time over two halves of the edge range.
  `Bridge.lean` proves the two equal.
-/
import Idealize.ShloMosaic.PureOps.Ideal
import Idealize.ShloMosaic.Lib.ValueIdx

noncomputable section

open scoped BigOperators

namespace Cert.Spec

open Idealize.ShloMosaic Idealize.ShloMosaic.ValueIdx

variable (x : (⟨2, ![8192, 128]⟩ : Shape).Idx → EReal) (W : (⟨2, ![128, 256]⟩ : Shape).Idx → EReal)
  (b : (⟨1, ![256]⟩ : Shape).Idx → EReal) (A1 : (⟨2, ![256, 64]⟩ : Shape).Idx → EReal)
  (A2 : (⟨2, ![64, 1]⟩ : Shape).Idx → EReal)

/-- Row `n`, column `k` of `x · W + b`: node `n`'s projected features, both heads side by side. -/
def hv (n : Fin 8192) (k : Fin 256) : EReal := (∑ j : Fin 128, x (ix2 n j) * W (ix2 j k)) + b (ix1 k)

/-- The leaky rectifier as both programs spell it: `v` where `v ≥ 0`, else the slope (the f32 nearest 0.01) times `v`. -/
def leaky (v : EReal) : EReal :=
  Scalar.select (Ideal.cmp .oge v (Ideal.ofBits .f32 0x00000000#32)) v (Ideal.ofBits .f32 0x3C23D70A#32 * v)

/-- The divisor of the mean over the two heads, as both programs carry it: the f32 word of 2. -/
def two : EReal := Ideal.ofBits .f32 0x40000000#32

/-- Column `128 · head + d` of the projected features. -/
def hk (hd : Fin 2) (d : Fin 128) : Fin 256 := ⟨hd.val * 128 + d.val, by have := hd.isLt; have := d.isLt; omega⟩
/-- Row `d` of `A1`'s top half, and of its bottom half. -/
def lo128 (d : Fin 128) : Fin 256 := ⟨d.val, by have := d.isLt; omega⟩
def hi128 (d : Fin 128) : Fin 256 := ⟨128 + d.val, by have := d.isLt; omega⟩
/-- Column `64 · head + f` of a folded 128-column table. -/
def hf (hd : Fin 2) (f : Fin 64) : Fin 128 := ⟨hd.val * 64 + f.val, by have := hd.isLt; have := f.isLt; omega⟩
/-- The head a column of the 256 belongs to. -/
def colHead (col : Fin 256) : Fin 2 := ⟨col.val / 128, by have := col.isLt; omega⟩

/-! ## The reference's spelling: direct reads of node rows -/

namespace R

variable (sN dN : Fin 261657 → Fin 8192)

def psrc (n : Fin 8192) (hd : Fin 2) (f : Fin 64) : EReal := ∑ d : Fin 128, hv x W b n (hk hd d) * A1 (ix2 (lo128 d) f)
def pdst (n : Fin 8192) (hd : Fin 2) (f : Fin 64) : EReal := ∑ d : Fin 128, hv x W b n (hk hd d) * A1 (ix2 (hi128 d) f)

/-! ### The stages, each over the TABLES it reads -/

section Stages
variable (SV : Fin 261657 → Fin 2 → Fin 64 → EReal) (AT : Fin 261657 → Fin 2 → EReal)
  (H3 : Fin 8192 → Fin 2 → Fin 128 → EReal)

/-- An edge's score for a head, from the summed projections `SV` of its two ends. -/
def scoreT (e : Fin 261657) (hd : Fin 2) : EReal := ∑ f : Fin 64, leaky (SV e hd f) * A2 (ix2 f 0)
/-- The largest score of a head over all edges (the fold of `max` from `-∞`). -/
def mxT (hd : Fin 2) : EReal := (Finset.univ : Finset (Fin 261657)).fold max ⊥ (fun e => scoreT A2 SV e hd)
def exT (e : Fin 261657) (hd : Fin 2) : EReal := Ideal.exp (scoreT A2 SV e hd - mxT A2 SV hd)
def denT (hd : Fin 2) : EReal := ∑ e : Fin 261657, exT A2 SV e hd
/-- The edge's weight: its exponential over the sum of all edges'. -/
def attT (e : Fin 261657) (hd : Fin 2) : EReal := Ideal.div (exT A2 SV e hd) (denT A2 SV hd)
/-- What node `n` receives: the weighted destination features of the edges whose source it is. -/
def aggT (n : Fin 8192) (hd : Fin 2) (d : Fin 128) : EReal :=
  ∑ e ∈ Finset.univ.filter (fun e : Fin 261657 => sN e = n), AT e hd * H3 (dN e) hd d
def outT (n : Fin 8192) (d : Fin 128) : EReal := Ideal.div (∑ hd : Fin 2, aggT sN dN AT H3 n hd d) two

end Stages

/-! ### The stages composed -/

/-- The summed projections of an edge's two ends. -/
def sv (e : Fin 261657) (hd : Fin 2) (f : Fin 64) : EReal := psrc x W b A1 (sN e) hd f + pdst x W b A1 (dN e) hd f
/-- A node's projected features by head. -/
def h3 (n : Fin 8192) (hd : Fin 2) (d : Fin 128) : EReal := hv x W b n (hk hd d)
def score (e : Fin 261657) (hd : Fin 2) : EReal := scoreT A2 (sv x W b A1 sN dN) e hd
def mx (hd : Fin 2) : EReal := mxT A2 (sv x W b A1 sN dN) hd
def ex (e : Fin 261657) (hd : Fin 2) : EReal := exT A2 (sv x W b A1 sN dN) e hd
def den (hd : Fin 2) : EReal := denT A2 (sv x W b A1 sN dN) hd
def att (e : Fin 261657) (hd : Fin 2) : EReal := attT A2 (sv x W b A1 sN dN) e hd
def agg (n : Fin 8192) (hd : Fin 2) (d : Fin 128) : EReal :=
  aggT sN dN (att x W b A1 A2 sN dN) (h3 x W b) n hd d
def out (n : Fin 8192) (d : Fin 128) : EReal := outT sN dN (att x W b A1 A2 sN dN) (h3 x W b) n d

end R

/-! ## The kernel's spelling: 0/1 rows against whole tables, folded heads, a padded edge list -/

namespace K

-- The node number of each of the 262144 padded edge slots, as a natural number (8192, no node, on a padding slot).
variable (sP dP : Fin 262144 → ℕ)

/-- Entry `n` of the 0/1 row for node number `v`. -/
def oh (v : ℕ) (n : Fin 8192) : EReal := if v = n.val then 1 else 0

/-- `A1`'s top half twice on the diagonal of a 256 × 128 table, zero elsewhere. -/
def WsB (k : Fin 256) (c : Fin 128) : EReal :=
  if hk : k.val < 128 then
    (if hc : c.val < 64 then A1 (ix2 (⟨k.val, by omega⟩ : Fin 256) (⟨c.val, hc⟩ : Fin 64)) else 0)
  else
    (if hc : c.val < 64 then 0 else A1 (ix2 (⟨k.val - 128, by have := k.isLt; omega⟩ : Fin 256) (⟨c.val - 64, by have := c.isLt; omega⟩ : Fin 64)))
/-- `A1`'s bottom half twice on the diagonal. -/
def WdB (k : Fin 256) (c : Fin 128) : EReal :=
  if hk : k.val < 128 then
    (if hc : c.val < 64 then A1 (ix2 (⟨128 + k.val, by omega⟩ : Fin 256) (⟨c.val, hc⟩ : Fin 64)) else 0)
  else
    (if hc : c.val < 64 then 0 else A1 (ix2 (⟨k.val, k.isLt⟩ : Fin 256) (⟨c.val - 64, by have := c.isLt; omega⟩ : Fin 64)))
/-- `A2` twice on the diagonal of a 128 × 2 table. -/
def a2B (c : Fin 128) (hd : Fin 2) : EReal :=
  if hc : c.val < 64 then
    (if hd.val = 0 then A2 (ix2 (⟨c.val, hc⟩ : Fin 64) (0 : Fin 1)) else 0)
  else
    (if hd.val = 0 then 0 else A2 (ix2 (⟨c.val - 64, by have := c.isLt; omega⟩ : Fin 64) (0 : Fin 1)))

/-- Edge slot `r` of block `i` of half `cc`: blocks of 512 slots, 256 blocks a half. -/
def edge (cc : Fin 2) (i : Fin 256) (r : Fin 512) : Fin 262144 :=
  ⟨(cc.val * 256 + i.val) * 512 + r.val, by have := cc.isLt; have := i.isLt; have := r.isLt; omega⟩

/-! ### The stages, each over the TABLES it reads (what one launch or host stretch computes from the arrays it finds) -/

section Stages
variable (H : Fin 8192 → Fin 256 → EReal) (T WD : Fin 256 → Fin 128 → EReal) (PS : Fin 8192 → Fin 128 → EReal)
  (AT2 : Fin 128 → Fin 2 → EReal) (S AT : Fin 262144 → Fin 2 → EReal) (G : Fin 262144 → Fin 256 → EReal)
  (AG : Fin 2 → Fin 8192 → Fin 256 → EReal)

/-- A node table times a 256 × 128 weight table. -/
def psrcT (n : Fin 8192) (c : Fin 128) : EReal := ∑ k : Fin 256, H n k * T k c
/-- The 0/1 row of an edge slot's destination against the node table `H`. -/
def ghT (e : Fin 262144) (k : Fin 256) : EReal := ∑ n : Fin 8192, oh (dP e) n * H n k
def gpsT (e : Fin 262144) (c : Fin 128) : EReal := ∑ n : Fin 8192, oh (sP e) n * PS n c
def gpdT (e : Fin 262144) (c : Fin 128) : EReal := ∑ k : Fin 256, ghT dP H e k * WD k c
def scoreT (e : Fin 262144) (hd : Fin 2) : EReal :=
  ∑ c : Fin 128, leaky (gpsT sP PS e c + gpdT dP H WD e c) * AT2 c hd
/-- A padding slot's score is `-∞`. -/
def maskedT (e : Fin 262144) (hd : Fin 2) : EReal := if e.val < 261657 then S e hd else ⊥
def mxT (hd : Fin 2) : EReal := (Finset.univ : Finset (Fin 262144)).fold max ⊥ (fun e => maskedT S e hd)
def exT (e : Fin 262144) (hd : Fin 2) : EReal := Ideal.exp (maskedT S e hd - mxT S hd)
def denT (hd : Fin 2) : EReal := ∑ e : Fin 262144, exT S e hd
def attT (e : Fin 262144) (hd : Fin 2) : EReal := Ideal.div (exT S e hd) (denT S hd)
/-- An edge slot's message, column by column: its head's weight times its destination's feature. -/
def msgT (e : Fin 262144) (col : Fin 256) : EReal := AT e (colHead col) * G e col
/-- What one block of 512 edge slots adds to node `n`: the transposed 0/1 matrix times the messages. -/
def contribT (cc : Fin 2) (i : Fin 256) (n : Fin 8192) (col : Fin 256) : EReal :=
  ∑ r : Fin 512, oh (sP (edge cc i r)) n * msgT AT G (edge cc i r) col
/-- One half's node table after its 256 blocks. -/
def aggT (cc : Fin 2) (n : Fin 8192) (col : Fin 256) : EReal := ∑ i : Fin 256, contribT sP AT G cc i n col
/-- The two halves added, the two heads added, halved. -/
def outT (n : Fin 8192) (d : Fin 128) : EReal :=
  Ideal.div ((AG 0 n (lo128 d) + AG 1 n (lo128 d)) + (AG 0 n (hi128 d) + AG 1 n (hi128 d))) two

end Stages

/-! ### The stages composed, as functions of the inputs and the padded edge list -/

/-- The source projection of every node, heads folded: `h · WsB`. -/
def psrc (n : Fin 8192) (c : Fin 128) : EReal := psrcT (hv x W b) (WsB A1) n c
/-- The destination's features of an edge slot, by the 0/1 product. -/
def gh (e : Fin 262144) (k : Fin 256) : EReal := ghT dP (hv x W b) e k
def gps (e : Fin 262144) (c : Fin 128) : EReal := gpsT sP (psrc x W b A1) e c
def gpd (e : Fin 262144) (c : Fin 128) : EReal := gpdT dP (hv x W b) (WdB A1) e c
def score (e : Fin 262144) (hd : Fin 2) : EReal := scoreT sP dP (hv x W b) (WdB A1) (psrc x W b A1) (a2B A2) e hd
def masked (e : Fin 262144) (hd : Fin 2) : EReal := maskedT (score x W b A1 A2 sP dP) e hd
def mx (hd : Fin 2) : EReal := mxT (score x W b A1 A2 sP dP) hd
def ex (e : Fin 262144) (hd : Fin 2) : EReal := exT (score x W b A1 A2 sP dP) e hd
def den (hd : Fin 2) : EReal := denT (score x W b A1 A2 sP dP) hd
def att (e : Fin 262144) (hd : Fin 2) : EReal := attT (score x W b A1 A2 sP dP) e hd
def msg (e : Fin 262144) (col : Fin 256) : EReal := msgT (att x W b A1 A2 sP dP) (gh x W b dP) e col
def contrib (cc : Fin 2) (i : Fin 256) (n : Fin 8192) (col : Fin 256) : EReal :=
  contribT sP (att x W b A1 A2 sP dP) (gh x W b dP) cc i n col
def agg (cc : Fin 2) (n : Fin 8192) (col : Fin 256) : EReal := aggT sP (att x W b A1 A2 sP dP) (gh x W b dP) cc n col
def out (n : Fin 8192) (d : Fin 128) : EReal := outT (agg x W b A1 A2 sP dP) n d

end K

/-! ## How the padded edge list relates to the edge list -/

/-- Edge `e` as one of the 262144 slots. -/
def pe (e : Fin 261657) : Fin 262144 := ⟨e.val, by have := e.isLt; omega⟩

/-- The padded node numbers are the edge list's on the first 261657 slots and 8192 (no node) after. -/
def Pads (sN : Fin 261657 → Fin 8192) (sP : Fin 262144 → ℕ) : Prop :=
  ∀ e : Fin 262144, sP e = if h : e.val < 261657 then (sN ⟨e.val, h⟩).val else 8192

/-! ## The edge list as the programs hold it: a 2 × 261657 array of 32-bit words, row 0 the sources, row 1 the destinations -/

/-- The padded node numbers the kernel's launches see: the word's value on an edge's slot, 8192 on a padding slot. -/
def padN (ei : (⟨2, ![2, 261657]⟩ : Shape).Idx → BitVec 32) (a : Fin 2) (e : Fin 262144) : ℕ :=
  if h : e.val < 261657 then (ei (ix2 a (⟨e.val, h⟩ : Fin 261657))).toNat else 8192

/-- The node an in-range word names. -/
def nodeOf (ei : (⟨2, ![2, 261657]⟩ : Shape).Idx → BitVec 32) (hr : ∀ i, (ei i).toNat < 8192) (a : Fin 2) (e : Fin 261657) :
    Fin 8192 := ⟨(ei (ix2 a e)).toNat, hr _⟩

theorem pads_nodeOf (ei : (⟨2, ![2, 261657]⟩ : Shape).Idx → BitVec 32) (hr : ∀ i, (ei i).toNat < 8192) (a : Fin 2) :
    Pads (nodeOf ei hr a) (padN ei a) := fun _ => rfl

end Cert.Spec

end
-- ==== Proof.KReg0.lean ====
/-
  The first launch (the node projections), read as values at the ideal instance: over a grid of 8 row blocks of 1024
  nodes, each point multiplies its block of `x` by the whole weight matrix, adds the bias row and stores the block of
  projected features; then multiplies that block by the whole 256 × 128 table it was handed and stores the product.
  A change of float format is the identity here, so the first result array is `x · W + b` row by row, and the second is
  that array times the table.
-/
import proofs.«401063_j42442866819268_2_alg».proof.Proof.Gen.KernelIdeal.Frame
import proofs.«401063_j42442866819268_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The two products' operand indices

Both products contract the left operand's column axis with the right operand's row axis: at the result's entry
`(p, q)` and contraction position `k` the left operand is read at `(p, k)` and the right one at `(k, q)`. -/

private theorem lhsA_0 (j : S1024x256.Idx) (k : dot_S1024x128_S128x256_S1024x256_1_0_0_1_n_n.contr.Idx) :
    (dot_S1024x128_S128x256_S1024x256_1_0_0_1_n_n.lhsIdx j k 0).val = (j 0).val := by
  unfold DotDims.lhsIdx
  rw [dif_neg (show ¬(0 : Fin S1024x128.rank) ∈ dot_S1024x128_S128x256_S1024x256_1_0_0_1_n_n.lhsBatch by decide),
    dif_pos (show (0 : Fin S1024x128.rank) ∈ dot_S1024x128_S128x256_S1024x256_1_0_0_1_n_n.lhsNonContracting by decide)]
  rfl

private theorem lhsA_1 (j : S1024x256.Idx) (k : dot_S1024x128_S128x256_S1024x256_1_0_0_1_n_n.contr.Idx) :
    (dot_S1024x128_S128x256_S1024x256_1_0_0_1_n_n.lhsIdx j k 1).val = (k ⟨0, by decide⟩).val :=
  dot_S1024x128_S128x256_S1024x256_1_0_0_1_n_n.lhsIdx_val_of_single (cl := 1) rfl j k

private theorem rhsA_0 (j : S1024x256.Idx) (k : dot_S1024x128_S128x256_S1024x256_1_0_0_1_n_n.contr.Idx) :
    (dot_S1024x128_S128x256_S1024x256_1_0_0_1_n_n.rhsIdx j k 0).val = (k ⟨0, by decide⟩).val :=
  dot_S1024x128_S128x256_S1024x256_1_0_0_1_n_n.rhsIdx_val_of_single (cr := 0) rfl j k

private theorem rhsA_1 (j : S1024x256.Idx) (k : dot_S1024x128_S128x256_S1024x256_1_0_0_1_n_n.contr.Idx) :
    (dot_S1024x128_S128x256_S1024x256_1_0_0_1_n_n.rhsIdx j k 1).val = (j 1).val := by
  unfold DotDims.rhsIdx
  rw [dif_neg (show ¬(1 : Fin S128x256.rank) ∈ dot_S1024x128_S128x256_S1024x256_1_0_0_1_n_n.rhsBatch by decide),
    dif_pos (show (1 : Fin S128x256.rank) ∈ dot_S1024x128_S128x256_S1024x256_1_0_0_1_n_n.rhsNonContracting by decide)]
  rfl

/-- The first product into a zero accumulator, entry by entry: row `p` of the left operand against column `q` of the right. -/
private theorem mmA_apply (A : FVec Ideal S1024x128 .bf16) (B : FVec Ideal S128x256 .bf16) (p : Fin 1024) (q : Fin 256) :
    matmul dot_S1024x128_S128x256_S1024x256_1_0_0_1_n_n none A B (constant S1024x256 .f32 0x00000000#32) (ix2 p q)
      = ∑ k : Fin 128, A (ix2 p k) * B (ix2 k q) := by
  refine (Ideal.matmul_constant_zero_apply dot_S1024x128_S128x256_S1024x256_1_0_0_1_n_n none A B (ix2 p q)).trans ?_
  rw [← Equiv.sum_comp (contrEquiv1 dot_S1024x128_S128x256_S1024x256_1_0_0_1_n_n 128 rfl rfl).symm]
  refine Finset.sum_congr rfl fun k _ => ?_
  have hk := contrEquiv1_symm_val dot_S1024x128_S128x256_S1024x256_1_0_0_1_n_n 128 rfl rfl k
  have hl : dot_S1024x128_S128x256_S1024x256_1_0_0_1_n_n.lhsIdx (ix2 p q)
      ((contrEquiv1 dot_S1024x128_S128x256_S1024x256_1_0_0_1_n_n 128 rfl rfl).symm k) = ix2 p k := by
    funext a; apply Fin.ext
    match a with
    | ⟨0, _⟩ => exact lhsA_0 _ _
    | ⟨1, _⟩ => exact (lhsA_1 _ _).trans hk
  have hr : dot_S1024x128_S128x256_S1024x256_1_0_0_1_n_n.rhsIdx (ix2 p q)
      ((contrEquiv1 dot_S1024x128_S128x256_S1024x256_1_0_0_1_n_n 128 rfl rfl).symm k) = ix2 k q := by
    funext a; apply Fin.ext
    match a with
    | ⟨0, _⟩ => exact (rhsA_0 _ _).trans hk
    | ⟨1, _⟩ => exact rhsA_1 _ _
  rw [hl, hr]

/-! ## The two stored blocks, entry by entry

A change of float format is the identity on the extended reals, so the first stored block is the block of `x` times
`W` plus the bias row, and the second is the first times the table. -/

private theorem lhsB_0 (j : S1024x128.Idx) (k : dot_S1024x256_S256x128_S1024x128_1_0_0_1_n_n.contr.Idx) :
    (dot_S1024x256_S256x128_S1024x128_1_0_0_1_n_n.lhsIdx j k 0).val = (j 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl

private theorem lhsB_1 (j : S1024x128.Idx) (k : dot_S1024x256_S256x128_S1024x128_1_0_0_1_n_n.contr.Idx) :
    (dot_S1024x256_S256x128_S1024x128_1_0_0_1_n_n.lhsIdx j k 1).val = (k ⟨0, by decide⟩).val :=
  dot_S1024x256_S256x128_S1024x128_1_0_0_1_n_n.lhsIdx_val_of_single (cl := 1) rfl j k

private theorem rhsB_0 (j : S1024x128.Idx) (k : dot_S1024x256_S256x128_S1024x128_1_0_0_1_n_n.contr.Idx) :
    (dot_S1024x256_S256x128_S1024x128_1_0_0_1_n_n.rhsIdx j k 0).val = (k ⟨0, by decide⟩).val :=
  dot_S1024x256_S256x128_S1024x128_1_0_0_1_n_n.rhsIdx_val_of_single (cr := 0) rfl j k

private theorem rhsB_1 (j : S1024x128.Idx) (k : dot_S1024x256_S256x128_S1024x128_1_0_0_1_n_n.contr.Idx) :
    (dot_S1024x256_S256x128_S1024x128_1_0_0_1_n_n.rhsIdx j k 1).val = (j 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl

/-- The second product into a zero accumulator, entry by entry: row `p` of the left operand against column `q` of the right. -/
private theorem mmB_apply (A : FVec Ideal S1024x256 .bf16) (B : FVec Ideal S256x128 .bf16) (p : Fin 1024) (q : Fin 128) :
    matmul dot_S1024x256_S256x128_S1024x128_1_0_0_1_n_n none A B (constant S1024x128 .f32 0x00000000#32) (ix2 p q)
      = ∑ k : Fin 256, A (ix2 p k) * B (ix2 k q) := by
  refine (Ideal.matmul_constant_zero_apply dot_S1024x256_S256x128_S1024x128_1_0_0_1_n_n none A B (ix2 p q)).trans ?_
  rw [← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have hl : dot_S1024x256_S256x128_S1024x128_1_0_0_1_n_n.lhsIdx (ix2 p q)
      ((contrEquiv1 dot_S1024x256_S256x128_S1024x128_1_0_0_1_n_n 256 rfl rfl).symm k) = ix2 p k := by
    funext a; apply Fin.ext
    match a with
    | ⟨0, _⟩ => exact lhsB_0 _ _
    | ⟨1, _⟩ => exact (lhsB_1 _ _).trans hk
  have hr : dot_S1024x256_S256x128_S1024x128_1_0_0_1_n_n.rhsIdx (ix2 p q)
      ((contrEquiv1 dot_S1024x256_S256x128_S1024x128_1_0_0_1_n_n 256 rfl rfl).symm k) = ix2 k q := by
    funext a; apply Fin.ext
    match a with
    | ⟨0, _⟩ => exact (rhsB_0 _ _).trans hk
    | ⟨1, _⟩ => exact rhsB_1 _ _
  rw [hl, hr]

/-- The first stored block: row `p` of the `x` block against column `q` of `W`, plus the bias at `q`. -/
private theorem pay1_apply (x0 : Vec Ideal S1024x128 .f32) (x1 : Vec Ideal S128x256 .f32) (x2 : Vec Ideal S256 .f32)
    (p : Fin 1024) (q : Fin 256) :
    k0_pay1 x0 x1 x2 (ix2 p q) = (∑ k : Fin 128, x0 (ix2 p k) * x1 (ix2 k q)) + x2 (ix1 q) := by
  unfold k0_pay1
  refine (truncf_apply (ψ := .bf16) (φ := .f32) _ bitsLt_bf16_f32 (ix2 p q)).trans ?_
  refine (addf_apply (φ := .f32) _ _ (ix2 p q)).trans ?_
  refine congrArg₂ (· + ·) ?_ ?_
  · exact mmA_apply _ _ p q
  · refine (broadcastTo_1b_ab_apply _ _ p q).trans ?_
    exact shapeCast_a_1a_apply x2 _ 0 q

/-- The second stored block: row `p` of the first stored block against column `q` of the table. -/
private theorem pay2_apply (x0 : Vec Ideal S1024x128 .f32) (x1 : Vec Ideal S128x256 .f32) (x2 : Vec Ideal S256 .f32)
    (x3 : Vec Ideal S256x128 .f32) (p : Fin 1024) (q : Fin 128) :
    k0_pay2 x0 x1 x2 x3 (ix2 p q) = ∑ k : Fin 256, k0_pay1 x0 x1 x2 (ix2 p k) * x3 (ix2 k q) := by
  unfold k0_pay2
  refine (truncf_apply (ψ := .bf16) (φ := .f32) _ bitsLt_bf16_f32 (ix2 p q)).trans ?_
  refine (mmB_apply _ _ p q).trans ?_
  refine Finset.sum_congr rfl fun k _ => ?_
  refine congrArg (k0_pay1 x0 x1 x2 (ix2 p k) * ·) ?_
  refine (truncf_apply (ψ := .bf16) (φ := .f32) _ bitsLt_bf16_f32 (ix2 k q)).trans ?_
  exact congrFun (shapeCast_self x3 _) (ix2 k q)

/-! ## From blocks to the arrays -/

private theorem hz2 : (![0, 0] : Fin 2 → Nat) = fun _ => 0 := funext fun a => by fin_cases a <;> rfl
private theorem hz1 : (![0] : Fin 1 → Nat) = fun _ => 0 := funext fun a => by fin_cases a <;> rfl

/-- Where each window's block sits at grid point `t`: the `x` block and both result blocks are row block `t`; the
    weights, the bias and the table are taken whole. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- An entry of the first stored block, when the `x` block's row is row `r` of `x` and the other operands are whole. -/
private theorem blk4 (X : S8192x128.Idx → EReal) (W : S128x256.Idx → EReal) (b : S256.Idx → EReal)
    (x0 : Vec Ideal S1024x128 .f32) (x1 : Vec Ideal S128x256 .f32) (x2 : Vec Ideal S256 .f32)
    (y : S1024x256.Idx) (r : Fin 8192) (s : Fin 256) (hs : s = y 1)
    (h0 : ∀ k : Fin 128, x0 (ix2 (y 0) k) = X (ix2 r k)) (h1 : x1 = W) (h2 : x2 = b) :
    k0_pay1 x0 x1 x2 y = Cert.Spec.hv X W b r s := by
  subst h1 h2
  rw [hs]
  obtain ⟨p, q, rfl⟩ : ∃ (p : Fin 1024) (q : Fin 256), y = ix2 p q := ⟨y 0, y 1, eq_ix2 y⟩
  refine (pay1_apply x0 x1 x2 p q).trans ?_
  unfold Cert.Spec.hv
  exact congrArg (· + x2 (ix1 q)) (Finset.sum_congr rfl fun k _ => congrArg (· * x1 (ix2 k q)) (h0 k))

/-- An entry of the second stored block: the first stored block's row against the table's column. -/
private theorem blk5 (X : S8192x128.Idx → EReal) (W : S128x256.Idx → EReal) (b : S256.Idx → EReal) (T : S256x128.Idx → EReal)
    (x0 : Vec Ideal S1024x128 .f32) (x1 : Vec Ideal S128x256 .f32) (x2 : Vec Ideal S256 .f32) (x3 : Vec Ideal S256x128 .f32)
    (y : S1024x128.Idx) (r : Fin 8192) (s : Fin 128) (hs : s = y 1)
    (h0 : ∀ k : Fin 128, x0 (ix2 (y 0) k) = X (ix2 r k)) (h1 : x1 = W) (h2 : x2 = b) (h3 : x3 = T) :
    k0_pay2 x0 x1 x2 x3 y = Cert.Spec.K.psrcT (Cert.Spec.hv X W b) (fun k q => T (ix2 k q)) r s := by
  subst h1 h2 h3
  rw [hs]
  obtain ⟨p, q, rfl⟩ : ∃ (p : Fin 1024) (q : Fin 128), y = ix2 p q := ⟨y 0, y 1, eq_ix2 y⟩
  refine (pay2_apply x0 x1 x2 x3 p q).trans ?_
  unfold Cert.Spec.K.psrcT
  exact Finset.sum_congr rfl fun k _ =>
    congrArg (· * x3 (ix2 k q)) (blk4 X x1 x2 x0 x1 x2 (ix2 p k) r k rfl h0 rfl rfl)

variable (V : (c : Dev nD) → (b : Ref sig .tc) → Buf (Elt Ideal) ((c : Thread nD τ).loc b))

/-- The weights' window is the whole array at every point. -/
private theorem iblk_W (c : Dev nD) (t : Fin cfg0.N) : (iblk0 V c 1 t : Vec Ideal S128x256 .f32) = V c main_arg2 := by
  obtain ⟨e0, e1, e2, e3, e4, e5, e6, e7, e8, e9, e10⟩ := idx_facts t
  funext z
  show V c main_arg2 (((cfg0.win 1).blk t).view.emb z) = V c main_arg2 z
  refine congrArg (V c main_arg2) (funext fun a => Fin.ext ?_)
  match a with
  | ⟨0, _⟩ => show win0_1.index t (0 : Fin 2) * 128 + 1 * (z 0).val = (z 0).val; omega
  | ⟨1, _⟩ => show win0_1.index t (1 : Fin 2) * 256 + 1 * (z 1).val = (z 1).val; omega

/-- The bias window is the whole array at every point. -/
private theorem iblk_b (c : Dev nD) (t : Fin cfg0.N) : (iblk0 V c 2 t : Vec Ideal S256 .f32) = V c main_arg3 := by
  obtain ⟨e0, e1, e2, e3, e4, e5, e6, e7, e8, e9, e10⟩ := idx_facts t
  funext z
  show V c main_arg3 (((cfg0.win 2).blk t).view.emb z) = V c main_arg3 z
  refine congrArg (V c main_arg3) (funext fun a => Fin.ext ?_)
  match a with
  | ⟨0, _⟩ => show win0_2.index t (0 : Fin 1) * 256 + 1 * (z 0).val = (z 0).val; omega

/-- The table's window is the whole array at every point. -/
private theorem iblk_T (c : Dev nD) (t : Fin cfg0.N) : (iblk0 V c 3 t : Vec Ideal S256x128 .f32) = V c main_v5 := by
  obtain ⟨e0, e1, e2, e3, e4, e5, e6, e7, e8, e9, e10⟩ := idx_facts t
  funext z
  show V c main_v5 (((cfg0.win 3).blk t).view.emb z) = V c main_v5 z
  refine congrArg (V c main_v5) (funext fun a => Fin.ext ?_)
  match a with
  | ⟨0, _⟩ => show win0_3.index t (0 : Fin 2) * 256 + 1 * (z 0).val = (z 0).val; omega
  | ⟨1, _⟩ => show win0_3.index t (1 : Fin 2) * 128 + 1 * (z 1).val = (z 1).val; omega

/-- What point `t` writes back to the first result array is block `t` of `x · W + b`. -/
private theorem flushed4_eq (c : Dev nD) (t : Fin cfg0.N) :
    (dat0 (F := Ideal) V c).flushed 4 t = ((cfg0.win 4).blk t).view.read (Elt Ideal)
      ((fun i => Cert.Spec.hv (V c main_arg0) (V c main_arg2) (V c main_arg3) (i 0) (i 1)) : S8192x256.Idx → EReal) := by
  show (cfg0.win 4).cut (grid0.coords t) ((dat0 V c).after 4 t) = _
  rw [after0_4]
  unfold out0_4
  rw [View.canon_unit_zero hz2]
  simp only [View.ld_unit_zero (S := S1024x128) hz2, View.ld_unit_zero (S := S128x256) hz2, View.ld_unit_zero (S := S256) hz1]
  obtain ⟨e0, e1, e2, e3, e4, e5, e6, e7, e8, e9, e10⟩ := idx_facts t
  funext j
  refine blk4 (V c main_arg0) (V c main_arg2) (V c main_arg3) (iblk0 V c 0 t) (iblk0 V c 1 t) (iblk0 V c 2 t) j
    ((((cfg0.win 4).blk t).view.emb j) 0) ((((cfg0.win 4).blk t).view.emb j) 1) ?_ (fun k => ?_) (iblk_W V c t) (iblk_b V c t)
  · apply Fin.ext
    show win0_4.index t (1 : Fin 2) * 256 + 1 * (j 1).val = (j 1).val
    omega
  · show V c main_arg0 (((cfg0.win 0).blk t).view.emb (ix2 (j 0) k)) = V c main_arg0 (ix2 ((((cfg0.win 4).blk t).view.emb j) 0) k)
    refine congrArg (V c main_arg0) (funext fun a => Fin.ext ?_)
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 128 + 1 * k.val = k.val; omega

/-- What point `t` writes back to the second result array is block `t` of `(x · W + b)` times the table. -/
private theorem flushed5_eq (c : Dev nD) (t : Fin cfg0.N) :
    (dat0 (F := Ideal) V c).flushed 5 t = ((cfg0.win 5).blk t).view.read (Elt Ideal)
      ((fun i => Cert.Spec.K.psrcT (Cert.Spec.hv (V c main_arg0) (V c main_arg2) (V c main_arg3))
          (fun k q => V c main_v5 (ix2 k q)) (i 0) (i 1)) : S8192x128.Idx → EReal) := by
  show (cfg0.win 5).cut (grid0.coords t) ((dat0 V c).after 5 t) = _
  rw [after0_5]
  unfold out0_5
  rw [View.canon_unit_zero hz2]
  simp only [View.ld_unit_zero (S := S1024x128) hz2, View.ld_unit_zero (S := S128x256) hz2, View.ld_unit_zero (S := S256) hz1,
    View.ld_unit_zero (S := S256x128) hz2]
  obtain ⟨e0, e1, e2, e3, e4, e5, e6, e7, e8, e9, e10⟩ := idx_facts t
  funext j
  refine blk5 (V c main_arg0) (V c main_arg2) (V c main_arg3) (V c main_v5)
    (iblk0 V c 0 t) (iblk0 V c 1 t) (iblk0 V c 2 t) (iblk0 V c 3 t) j
    ((((cfg0.win 5).blk t).view.emb j) 0) ((((cfg0.win 5).blk t).view.emb j) 1) ?_ (fun k => ?_)
    (iblk_W V c t) (iblk_b V c t) (iblk_T V c t)
  · apply Fin.ext
    show win0_5.index t (1 : Fin 2) * 128 + 1 * (j 1).val = (j 1).val
    omega
  · show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 128 + 1 * k.val = k.val; omega

/-- An entry of the first result array lies in point `t`'s block iff each coordinate lies in the block's range. -/
private theorem mem_blk4 (t : Fin cfg0.N) (i : S8192x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v13_0).slice (win0_4.rect t)).set ↔ _
  rw [View.set_slice_whole, Rect.mem_set_unit]
  exact Iff.rfl

private theorem mem_blk5 (t : Fin cfg0.N) (i : S8192x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v13_1).slice (win0_5.rect t)).set ↔ _
  rw [View.set_slice_whole, Rect.mem_set_unit]
  exact Iff.rfl

/-- Row `n` of the first result array is written by the point `n / 1024`: the eight row blocks tile the array. -/
private theorem cover4 (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 8 := N_0
  have ht : (i 0).val / 1024 < cfg0.N := by rw [hN]; omega
  obtain ⟨e0, e1, e2, e3, e4, e5, e6, e7, e8, e9, e10⟩ := idx_facts ⟨(i 0).val / 1024, ht⟩
  refine ⟨⟨(i 0).val / 1024, ht⟩, flush0_4 _, ?_⟩
  rw [mem_blk4]
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    rw [e7]
    show (i 0).val / 1024 * 1024 ≤ (i 0).val ∧ (i 0).val < (i 0).val / 1024 * 1024 + 1024
    omega
  | ⟨1, _⟩ =>
    show win0_4.index ⟨(i 0).val / 1024, ht⟩ (1 : Fin 2) * 256 ≤ (i 1).val
      ∧ (i 1).val < win0_4.index ⟨(i 0).val / 1024, ht⟩ (1 : Fin 2) * 256 + 256
    rw [e8]
    omega

private theorem cover5 (i : S8192x128.Idx) :
    ∃ t : Fin cfg0.N, (cfg0.win 5).flush t = true ∧ i ∈ ((cfg0.win 5).blk t).view.set := by
  have hi0 : (i 0).val < 8192 := (i 0).isLt
  have hi1 : (i 1).val < 128 := (i 1).isLt
  have hN : cfg0.N = 8 := N_0
  have ht : (i 0).val / 1024 < cfg0.N := by rw [hN]; omega
  obtain ⟨e0, e1, e2, e3, e4, e5, e6, e7, e8, e9, e10⟩ := idx_facts ⟨(i 0).val / 1024, ht⟩
  refine ⟨⟨(i 0).val / 1024, ht⟩, flush0_5 _, ?_⟩
  rw [mem_blk5]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    rw [e9]
    show (i 0).val / 1024 * 1024 ≤ (i 0).val ∧ (i 0).val < (i 0).val / 1024 * 1024 + 1024
    omega
  | ⟨1, _⟩ =>
    show win0_5.index ⟨(i 0).val / 1024, ht⟩ (1 : Fin 2) * 128 ≤ (i 1).val
      ∧ (i 1).val < win0_5.index ⟨(i 0).val / 1024, ht⟩ (1 : Fin 2) * 128 + 128
    rw [e10]
    omega

/-- The projected features: entry (n, k) of the first result array is row `n` of `x · W + b` at column `k`. -/
theorem reg0_out4 (c : Dev nD) :
    ((dat0 (F := Ideal) V c).arrAt 4 cfg0.N : S8192x256.Idx → EReal)
      = fun i => Cert.Spec.hv (V c main_arg0) (V c main_arg2) (V c main_arg3) (i 0) (i 1) :=
  (dat0 (F := Ideal) V c).arrAt_eq_of_cover 4 _ (fun t _ => flushed4_eq V c t) cover4

/-- The second result array is the projected features times the 256 × 128 table the launch was handed. -/
theorem reg0_out5 (c : Dev nD) :
    ((dat0 (F := Ideal) V c).arrAt 5 cfg0.N : S8192x128.Idx → EReal)
      = fun i => Cert.Spec.K.psrcT (Cert.Spec.hv (V c main_arg0) (V c main_arg2) (V c main_arg3))
          (fun k q => V c main_v5 (ix2 k q)) (i 0) (i 1) :=
  (dat0 (F := Ideal) V c).arrAt_eq_of_cover 5 _ (fun t _ => flushed5_eq V c t) cover5

end Cert.KernelIdeal.Val

end
-- ==== Proof.KReg1Gh.lean ====
/-
  The second launch's second result (the gathered destination features), read as values at the ideal instance: over a
  grid of 512 blocks of 512 edge slots, each point compares its block of destination node numbers with the row
  0, 1, …, 8191, turns the comparison into a 0/1 matrix and multiplies it with the whole table of projected features.
-/
import proofs.«401063_j42442866819268_2_alg».proof.Proof.Gen.KernelIdeal.Frame
import proofs.«401063_j42442866819268_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Gh

/-- The left operand of the product is read at the output's row … -/
private theorem lhs_0 (j : S512x256.Idx) (q : dot_S512x8192_S8192x256_S512x256_1_0_0_1_n_n.contr.Idx) :
    ((dot_S512x8192_S8192x256_S512x256_1_0_0_1_n_n.lhsIdx j q) 0).val = (j 0).val := by
  unfold DotDims.lhsIdx
  rw [dif_neg (show ¬(0 : Fin S512x8192.rank) ∈ dot_S512x8192_S8192x256_S512x256_1_0_0_1_n_n.lhsBatch by decide),
    dif_pos (show (0 : Fin S512x8192.rank) ∈ dot_S512x8192_S8192x256_S512x256_1_0_0_1_n_n.lhsNonContracting by decide)]
  rfl
/-- … and the contraction position, -/
private theorem lhs_1 (j : S512x256.Idx) (q : dot_S512x8192_S8192x256_S512x256_1_0_0_1_n_n.contr.Idx) :
    ((dot_S512x8192_S8192x256_S512x256_1_0_0_1_n_n.lhsIdx j q) 1).val = (q ⟨0, by decide⟩).val :=
  dot_S512x8192_S8192x256_S512x256_1_0_0_1_n_n.lhsIdx_val_of_single (cl := 1) rfl j q
/-- the right operand at the contraction position … -/
private theorem rhs_0 (j : S512x256.Idx) (q : dot_S512x8192_S8192x256_S512x256_1_0_0_1_n_n.contr.Idx) :
    ((dot_S512x8192_S8192x256_S512x256_1_0_0_1_n_n.rhsIdx j q) 0).val = (q ⟨0, by decide⟩).val :=
  dot_S512x8192_S8192x256_S512x256_1_0_0_1_n_n.rhsIdx_val_of_single (cr := 0) rfl j q
/-- … and the output's column. -/
private theorem rhs_1 (j : S512x256.Idx) (q : dot_S512x8192_S8192x256_S512x256_1_0_0_1_n_n.contr.Idx) :
    ((dot_S512x8192_S8192x256_S512x256_1_0_0_1_n_n.rhsIdx j q) 1).val = (j 1).val := by
  unfold DotDims.rhsIdx
  rw [dif_neg (show ¬(1 : Fin S8192x256.rank) ∈ dot_S512x8192_S8192x256_S512x256_1_0_0_1_n_n.rhsBatch by decide),
    dif_pos (show (1 : Fin S8192x256.rank) ∈ dot_S512x8192_S8192x256_S512x256_1_0_0_1_n_n.rhsNonContracting by decide)]
  rfl

/-- The product into the zero accumulator, read at row `r` and column `k`: the sum over the 8192 contraction positions. -/
private theorem mm_apply (A : FVec Ideal S512x8192 .bf16) (B : FVec Ideal S8192x256 .bf16) (r : Fin 512) (k : Fin 256) :
    (matmul (F := Ideal) dot_S512x8192_S8192x256_S512x256_1_0_0_1_n_n none A B (constant S512x256 .f32 0x00000000#32) : S512x256.Idx → EReal) (ix2 r k)
      = ∑ n : Fin 8192, A (ix2 r n) * B (ix2 n k) := by
  refine (Ideal.matmul_constant_zero_apply dot_S512x8192_S8192x256_S512x256_1_0_0_1_n_n none A B (ix2 r k)).trans ?_
  rw [← Equiv.sum_comp (contrEquiv1 dot_S512x8192_S8192x256_S512x256_1_0_0_1_n_n 8192 rfl rfl).symm]
  refine Finset.sum_congr rfl fun n _ => ?_
  have c := contrEquiv1_symm_val dot_S512x8192_S8192x256_S512x256_1_0_0_1_n_n 8192 rfl rfl n
  have hl : dot_S512x8192_S8192x256_S512x256_1_0_0_1_n_n.lhsIdx (ix2 r k) ((contrEquiv1 dot_S512x8192_S8192x256_S512x256_1_0_0_1_n_n 8192 rfl rfl).symm n) = ix2 r n := by
    funext a; apply Fin.ext
    match a with
    | ⟨0, _⟩ => exact lhs_0 _ _
    | ⟨1, _⟩ => exact (lhs_1 _ _).trans c
  have hr : dot_S512x8192_S8192x256_S512x256_1_0_0_1_n_n.rhsIdx (ix2 r k) ((contrEquiv1 dot_S512x8192_S8192x256_S512x256_1_0_0_1_n_n 8192 rfl rfl).symm n) = ix2 n k := by
    funext a; apply Fin.ext
    match a with
    | ⟨0, _⟩ => exact (rhs_0 _ _).trans c
    | ⟨1, _⟩ => exact rhs_1 _ _
  rw [hl, hr]

/-- The converted comparison of a word with the word of a node number below 8192 is the 0/1 entry: 1 where the word's
    value is that number, 0 elsewhere (the conversion reads the widened bit as the integer it is). -/
private theorem oh_entry (v : BitVec 32) (n : Fin 8192) :
    (FloatOps.sitofp (F := Ideal) .f32 ((IntOp.cmpi .eq v (BitVec.ofNat 32 n.val)).setWidth 32) : EReal)
      = Cert.Spec.K.oh v.toNat n := by
  have hn : n.val < 8192 := n.isLt
  have e : IntOp.cmpi .eq v (BitVec.ofNat 32 n.val) = BitVec.ofBool (v == BitVec.ofNat 32 n.val) := rfl
  unfold Cert.Spec.K.oh
  rw [e]
  by_cases h : v.toNat = n.val
  · have hv : v = BitVec.ofNat 32 n.val :=
      BitVec.eq_of_toNat_eq (by rw [h, BitVec.toNat_ofNat]; omega)
    rw [if_pos h, beq_iff_eq.mpr hv]
    show ((((BitVec.ofBool true).setWidth 32).toInt : ℝ) : EReal) = 1
    rw [show ((BitVec.ofBool true).setWidth 32).toInt = 1 from by decide]
    simp
  · have hv : ¬ v = BitVec.ofNat 32 n.val := fun e' => h (by rw [e', BitVec.toNat_ofNat]; omega)
    rw [if_neg h, show (v == BitVec.ofNat 32 n.val) = false from by simpa using hv]
    show ((((BitVec.ofBool false).setWidth 32).toInt : ℝ) : EReal) = 0
    rw [show ((BitVec.ofBool false).setWidth 32).toInt = 0 from by decide]
    simp

/-- The block of node numbers, spread along the 8192 columns, reads its row's number everywhere. -/
private theorem bcol (x1 : IVec S512x1 32) (r : Fin 512) (n : Fin 8192) :
    broadcastTo S512x8192 (shapeCast S512x1 x1 shapeCasts_S512x1_S512x1) broadcasts_S512x1_S512x8192 (ix2 r n)
      = x1 (ix2 r 0) := by
  rw [shapeCast_self]
  refine broadcastTo_apply _ _ _ (ix2 r 0) fun a => ?_
  match a with
  | ⟨0, _⟩ => rfl
  | ⟨1, _⟩ => rfl

/-- The row 0, 1, …, 8191, spread along the 512 rows, reads the column's number everywhere. -/
private theorem brow (r : Fin 512) (n : Fin 8192) :
    broadcastTo S512x8192 (iota .tc S1x8192 32 [1] iota_S1x8192_d1_w32) broadcasts_S1x8192_S512x8192 (ix2 r n)
      = BitVec.ofNat 32 n.val := by
  refine (broadcastTo_apply _ _ _ (ix2 (0 : Fin 1) n : S1x8192.Idx) fun a => ?_).trans ?_
  · match a with
    | ⟨0, _⟩ => rfl
    | ⟨1, _⟩ => rfl
  · exact iota_single_apply .tc S1x8192 32 1 iota_S1x8192_d1_w32 (ix2 (0 : Fin 1) n)

/-- THE PAYLOAD AT AN INDEX: row `r`, column `k` of what the body stores is the sum over the 8192 nodes of the 0/1
    entry of row `r`'s node number against the node, times the node's entry in column `k` of the table. -/
theorem pay_apply (x1 : Vec Ideal S512x1 .i32) (x3 : Vec Ideal S8192x256 .bf16) (r : Fin 512) (k : Fin 256) :
    (k1_pay2 (F := Ideal) x1 x3 : S512x256.Idx → EReal) (ix2 r k)
      = ∑ n : Fin 8192, Cert.Spec.K.oh (x1 (ix2 r 0)).toNat n * x3 (ix2 n k) := by
  unfold k1_pay2
  refine (truncf_apply (ψ := .bf16) _ bitsLt_bf16_f32 (ix2 r k)).trans ?_
  refine (mm_apply _ _ r k).trans ?_
  refine Finset.sum_congr rfl fun n _ => ?_
  refine congrArg₂ (· * ·) ?_ (congrFun (shapeCast_self x3 _) (ix2 n k))
  exact (congrArg (fun b : BitVec 1 => (FloatOps.sitofp (F := Ideal) .f32 (b.setWidth 32) : EReal))
    (congrArg₂ (IntOp.cmpi .eq) (bcol x1 r n) (brow r n))).trans (oh_entry _ n)

/-- The payload at any index, against node numbers and a node table NAMED by the caller: where the block's row reads
    edge slot `e`'s number and the table block reads the table, the entry is the slot's 0/1 row against the table. -/
theorem pay_blk (x1 : Vec Ideal S512x1 .i32) (x3 : Vec Ideal S8192x256 .bf16) (dP : Fin 262144 → ℕ)
    (H : Fin 8192 → Fin 256 → EReal) (j : S512x256.Idx) (e : Fin 262144) (k : Fin 256)
    (h1 : (x1 (ix2 (j 0) 0)).toNat = dP e) (hk : (j 1).val = k.val) (h3 : ∀ n q, x3 (ix2 n q) = H n q) :
    (k1_pay2 (F := Ideal) x1 x3 : S512x256.Idx → EReal) j = Cert.Spec.K.ghT dP H e k := by
  obtain ⟨r, q, rfl⟩ : ∃ (r : Fin 512) (q : Fin 256), j = ix2 r q := ⟨j 0, j 1, eq_ix2 j⟩
  obtain rfl : q = k := Fin.ext hk
  refine (pay_apply x1 x3 r q).trans ?_
  unfold Cert.Spec.K.ghT
  exact Finset.sum_congr rfl fun n _ => by rw [h3 n q]; exact congrArg (fun v => Cert.Spec.K.oh v n * H n q) h1

theorem hz : (![0, 0] : Fin 2 → Nat) = fun _ => 0 := funext fun a => by fin_cases a <;> rfl

/-- The printed index maps, decided over the grid: the node numbers' block moves with the output's, the table's block
    and every second coordinate stay at 0, and the output's block at point `t` is block `t`. -/
theorem idx_facts : ∀ t : Fin cfg1.N, win1_1.index t (0 : Fin 2) = win1_7.index t (0 : Fin 2)
    ∧ win1_1.index t (1 : Fin 2) = 0
    ∧ win1_3.index t (0 : Fin 2) = 0
    ∧ win1_3.index t (1 : Fin 2) = 0
    ∧ win1_7.index t (0 : Fin 2) = t.val
    ∧ win1_7.index t (1 : Fin 2) = 0 :=
  (by decide +kernel : ∀ t : Fin grid1.N, _)

/-- The gathered array as one function of the arrays the launch finds. -/
abbrev G (c : Dev nD) : S262144x256.Idx → EReal := fun i =>
  Cert.Spec.K.ghT (fun e => (V c main_v21 (ix2 e 0)).toNat) (fun n k => V c main_v13_0 (ix2 n k)) (i 0) (i 1)

/-- WHAT POINT `t` WRITES BACK is block `t` of the gathered array. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S512x1) hz, View.ld_unit_zero (S := S8192x256) hz]
  obtain ⟨e0, e1, e2, e3, e4, e5⟩ := idx_facts t
  funext j
  show (k1_pay2 (F := Ideal) (iblk1 V c 1 t) (iblk1 V c 3 t) : S512x256.Idx → EReal) j
    = Cert.Spec.K.ghT (fun e => (V c main_v21 (ix2 e 0)).toNat) (fun n k => V c main_v13_0 (ix2 n k))
        ((((cfg1.win 7).blk t).view.emb j) 0) ((((cfg1.win 7).blk t).view.emb j) 1)
  refine pay_blk (iblk1 V c 1 t) (iblk1 V c 3 t) _ _ j _ _ ?_ ?_ ?_
  · show (V c main_v21 (((cfg1.win 1).blk t).view.emb (ix2 (j 0) 0))).toNat = (V c main_v21 (ix2 ((((cfg1.win 7).blk t).view.emb j) 0) 0)).toNat
    refine congrArg (fun i => (V c main_v21 i).toNat) ?_
    funext a; apply Fin.ext
    match a with
    | ⟨0, _⟩ => show win1_1.index t (0 : Fin 2) * 512 + 1 * (j 0).val = win1_7.index t (0 : Fin 2) * 512 + 1 * (j 0).val; omega
    | ⟨1, _⟩ => show win1_1.index t (1 : Fin 2) * 1 + 1 * 0 = 0; omega
  · show (j 1).val = win1_7.index t (1 : Fin 2) * 256 + 1 * (j 1).val; omega
  · intro n q
    show V c main_v13_0 (((cfg1.win 3).blk t).view.emb (ix2 n q)) = V c main_v13_0 (ix2 n q)
    refine congrArg (V c main_v13_0) ?_
    funext a; apply Fin.ext
    match a with
    | ⟨0, _⟩ => show win1_3.index t (0 : Fin 2) * 8192 + 1 * n.val = n.val; omega
    | ⟨1, _⟩ => show win1_3.index t (1 : Fin 2) * 256 + 1 * q.val = q.val; omega

/-- An index of the array is in point `t`'s block iff each coordinate is in the block's range on its axis. -/
theorem mem_blk (t : Fin cfg1.N) (i : S262144x256.Idx) :
    i ∈ ((cfg1.win 7).blk t).view.set ↔ ∀ a : Fin 2, win1_7.index t a * S512x256.size a ≤ (i a).val
      ∧ (i a).val < win1_7.index t a * S512x256.size a + S512x256.size a := by
  show i ∈ ((View.whole main_v22_1).slice (win1_7.rect t)).set ↔ _
  rw [View.set_slice_whole, Rect.mem_set_unit]
  exact Iff.rfl

/-- The 512 blocks of 512 rows cover the 262144 rows: row `r` is in the block of point `r / 512`. -/
theorem cover (i : S262144x256.Idx) :
    ∃ t : Fin cfg1.N, (cfg1.win 7).flush t = true ∧ i ∈ ((cfg1.win 7).blk t).view.set := by
  have hi0 : (i 0).val < 262144 := (i 0).isLt
  have hi1 : (i 1).val < 256 := (i 1).isLt
  have ht : (i 0).val / 512 < cfg1.N := by rw [show cfg1.N = 512 from N_1]; omega
  obtain ⟨e0, e1, e2, e3, e4, e5⟩ := idx_facts ⟨(i 0).val / 512, ht⟩
  have e4' : win1_7.index ⟨(i 0).val / 512, ht⟩ (0 : Fin 2) = (i 0).val / 512 := e4
  refine ⟨⟨(i 0).val / 512, ht⟩, flush1_7 _, ?_⟩
  rw [mem_blk]
  intro a
  match a with
  | ⟨0, _⟩ =>
    show win1_7.index ⟨(i 0).val / 512, ht⟩ (0 : Fin 2) * 512 ≤ (i 0).val
      ∧ (i 0).val < win1_7.index ⟨(i 0).val / 512, ht⟩ (0 : Fin 2) * 512 + 512
    omega
  | ⟨1, _⟩ =>
    show win1_7.index ⟨(i 0).val / 512, ht⟩ (1 : Fin 2) * 256 ≤ (i 1).val
      ∧ (i 1).val < win1_7.index ⟨(i 0).val / 512, ht⟩ (1 : Fin 2) * 256 + 256
    omega

end Gh

/-- Entry (e, k) of the gathered array is the 0/1 row of slot `e`'s destination against column `k` of the node table. -/
theorem reg1_out7 (c : Dev nD) :
    ((dat1 (F := Ideal) V c).arrAt 7 cfg1.N : S262144x256.Idx → EReal)
      = fun i => Cert.Spec.K.ghT (fun e => (V c main_v21 (ix2 e 0)).toNat) (fun n k => V c main_v13_0 (ix2 n k)) (i 0) (i 1) :=
  (dat1 (F := Ideal) V c).arrAt_eq_of_cover 7 (Gh.G V c) (fun t _ => Gh.flushed_eq V c t) Gh.cover

end Cert.KernelIdeal.Val

end
-- ==== Proof.KReg1Score.lean ====
/-
  The second launch's first result (the edge scores), read as values at the ideal instance: over a grid of 512 blocks
  of 512 edge slots, each point gathers the source projection and the destination features by 0/1 matrices against the
  whole node tables, projects the gathered destination features by the 256 × 128 table, adds, applies the leaky
  rectifier and multiplies by the 128 × 2 table.
-/
import proofs.«401063_j42442866819268_2_alg».proof.Proof.Gen.KernelIdeal.Frame
import proofs.«401063_j42442866819268_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Score

/-! ## The four products read at an entry: the operand indices axis by axis, then the sum over the contracted axis -/

theorem lhsA_0 (j : S512x128.Idx) (k : dot_S512x8192_S8192x128_S512x128_1_0_0_1_n_n.contr.Idx) :
    (dot_S512x8192_S8192x128_S512x128_1_0_0_1_n_n.lhsIdx j k 0).val = (j 0).val := rfl
theorem lhsA_1 (j : S512x128.Idx) (k : dot_S512x8192_S8192x128_S512x128_1_0_0_1_n_n.contr.Idx) :
    (dot_S512x8192_S8192x128_S512x128_1_0_0_1_n_n.lhsIdx j k 1).val = (k ⟨0, by decide⟩).val := rfl
theorem rhsA_0 (j : S512x128.Idx) (k : dot_S512x8192_S8192x128_S512x128_1_0_0_1_n_n.contr.Idx) :
    (dot_S512x8192_S8192x128_S512x128_1_0_0_1_n_n.rhsIdx j k 0).val = (k ⟨0, by decide⟩).val := rfl
theorem rhsA_1 (j : S512x128.Idx) (k : dot_S512x8192_S8192x128_S512x128_1_0_0_1_n_n.contr.Idx) :
    (dot_S512x8192_S8192x128_S512x128_1_0_0_1_n_n.rhsIdx j k 1).val = (j 1).val := rfl

/-- A 512 × 8192 matrix against the 8192 × 128 table: entry (r, c) sums over the 8192 nodes. -/
theorem mmA (lhs : FVec Ideal S512x8192 .bf16) (rhs : FVec Ideal S8192x128 .bf16) (r : Fin 512) (c : Fin 128) :
    FloatOps.matmul dot_S512x8192_S8192x128_S512x128_1_0_0_1_n_n none lhs rhs (constant S512x128 .f32 0x00000000#32) (ix2 r c)
      = ∑ k : Fin 8192, lhs (ix2 r k) * rhs (ix2 k c) := by
  refine (Ideal.matmul_constant_zero_apply dot_S512x8192_S8192x128_S512x128_1_0_0_1_n_n none lhs rhs (ix2 r c)).trans ?_
  refine (Equiv.sum_comp (contrEquiv1 dot_S512x8192_S8192x128_S512x128_1_0_0_1_n_n 8192 rfl rfl).symm _).symm.trans ?_
  refine Finset.sum_congr rfl fun k _ => ?_
  have hl : dot_S512x8192_S8192x128_S512x128_1_0_0_1_n_n.lhsIdx (ix2 r c) ((contrEquiv1 dot_S512x8192_S8192x128_S512x128_1_0_0_1_n_n 8192 rfl rfl).symm k) = ix2 r k := by
    funext a; apply Fin.ext
    match a with
    | ⟨0, _⟩ => exact lhsA_0 _ _
    | ⟨1, _⟩ => exact (lhsA_1 _ _).trans (contrEquiv1_symm_val dot_S512x8192_S8192x128_S512x128_1_0_0_1_n_n 8192 rfl rfl k)
  have hr : dot_S512x8192_S8192x128_S512x128_1_0_0_1_n_n.rhsIdx (ix2 r c) ((contrEquiv1 dot_S512x8192_S8192x128_S512x128_1_0_0_1_n_n 8192 rfl rfl).symm k) = ix2 k c := by
    funext a; apply Fin.ext
    match a with
    | ⟨0, _⟩ => exact (rhsA_0 _ _).trans (contrEquiv1_symm_val dot_S512x8192_S8192x128_S512x128_1_0_0_1_n_n 8192 rfl rfl k)
    | ⟨1, _⟩ => exact rhsA_1 _ _
  rw [hl, hr]

theorem lhsB_0 (j : S512x256.Idx) (k : dot_S512x8192_S8192x256_S512x256_1_0_0_1_n_n.contr.Idx) :
    (dot_S512x8192_S8192x256_S512x256_1_0_0_1_n_n.lhsIdx j k 0).val = (j 0).val := rfl
theorem lhsB_1 (j : S512x256.Idx) (k : dot_S512x8192_S8192x256_S512x256_1_0_0_1_n_n.contr.Idx) :
    (dot_S512x8192_S8192x256_S512x256_1_0_0_1_n_n.lhsIdx j k 1).val = (k ⟨0, by decide⟩).val := rfl
theorem rhsB_0 (j : S512x256.Idx) (k : dot_S512x8192_S8192x256_S512x256_1_0_0_1_n_n.contr.Idx) :
    (dot_S512x8192_S8192x256_S512x256_1_0_0_1_n_n.rhsIdx j k 0).val = (k ⟨0, by decide⟩).val := rfl
theorem rhsB_1 (j : S512x256.Idx) (k : dot_S512x8192_S8192x256_S512x256_1_0_0_1_n_n.contr.Idx) :
    (dot_S512x8192_S8192x256_S512x256_1_0_0_1_n_n.rhsIdx j k 1).val = (j 1).val := rfl

/-- A 512 × 8192 matrix against the 8192 × 256 table: entry (r, c) sums over the 8192 nodes. -/
theorem mmB (lhs : FVec Ideal S512x8192 .bf16) (rhs : FVec Ideal S8192x256 .bf16) (r : Fin 512) (c : Fin 256) :
    FloatOps.matmul dot_S512x8192_S8192x256_S512x256_1_0_0_1_n_n none lhs rhs (constant S512x256 .f32 0x00000000#32) (ix2 r c)
      = ∑ k : Fin 8192, lhs (ix2 r k) * rhs (ix2 k c) := by
  refine (Ideal.matmul_constant_zero_apply dot_S512x8192_S8192x256_S512x256_1_0_0_1_n_n none lhs rhs (ix2 r c)).trans ?_
  refine (Equiv.sum_comp (contrEquiv1 dot_S512x8192_S8192x256_S512x256_1_0_0_1_n_n 8192 rfl rfl).symm _).symm.trans ?_
  refine Finset.sum_congr rfl fun k _ => ?_
  have hl : dot_S512x8192_S8192x256_S512x256_1_0_0_1_n_n.lhsIdx (ix2 r c) ((contrEquiv1 dot_S512x8192_S8192x256_S512x256_1_0_0_1_n_n 8192 rfl rfl).symm k) = ix2 r k := by
    funext a; apply Fin.ext
    match a with
    | ⟨0, _⟩ => exact lhsB_0 _ _
    | ⟨1, _⟩ => exact (lhsB_1 _ _).trans (contrEquiv1_symm_val dot_S512x8192_S8192x256_S512x256_1_0_0_1_n_n 8192 rfl rfl k)
  have hr : dot_S512x8192_S8192x256_S512x256_1_0_0_1_n_n.rhsIdx (ix2 r c) ((contrEquiv1 dot_S512x8192_S8192x256_S512x256_1_0_0_1_n_n 8192 rfl rfl).symm k) = ix2 k c := by
    funext a; apply Fin.ext
    match a with
    | ⟨0, _⟩ => exact (rhsB_0 _ _).trans (contrEquiv1_symm_val dot_S512x8192_S8192x256_S512x256_1_0_0_1_n_n 8192 rfl rfl k)
    | ⟨1, _⟩ => exact rhsB_1 _ _
  rw [hl, hr]

theorem lhsC_0 (j : S512x128.Idx) (k : dot_S512x256_S256x128_S512x128_1_0_0_1_n_n.contr.Idx) :
    (dot_S512x256_S256x128_S512x128_1_0_0_1_n_n.lhsIdx j k 0).val = (j 0).val := rfl
theorem lhsC_1 (j : S512x128.Idx) (k : dot_S512x256_S256x128_S512x128_1_0_0_1_n_n.contr.Idx) :
    (dot_S512x256_S256x128_S512x128_1_0_0_1_n_n.lhsIdx j k 1).val = (k ⟨0, by decide⟩).val := rfl
theorem rhsC_0 (j : S512x128.Idx) (k : dot_S512x256_S256x128_S512x128_1_0_0_1_n_n.contr.Idx) :
    (dot_S512x256_S256x128_S512x128_1_0_0_1_n_n.rhsIdx j k 0).val = (k ⟨0, by decide⟩).val := rfl
theorem rhsC_1 (j : S512x128.Idx) (k : dot_S512x256_S256x128_S512x128_1_0_0_1_n_n.contr.Idx) :
    (dot_S512x256_S256x128_S512x128_1_0_0_1_n_n.rhsIdx j k 1).val = (j 1).val := rfl

/-- The gathered 512 × 256 features against the 256 × 128 table: entry (r, c) sums over the 256 features. -/
theorem mmC (lhs : FVec Ideal S512x256 .bf16) (rhs : FVec Ideal S256x128 .bf16) (r : Fin 512) (c : Fin 128) :
    FloatOps.matmul dot_S512x256_S256x128_S512x128_1_0_0_1_n_n none lhs rhs (constant S512x128 .f32 0x00000000#32) (ix2 r c)
      = ∑ k : Fin 256, lhs (ix2 r k) * rhs (ix2 k c) := by
  refine (Ideal.matmul_constant_zero_apply dot_S512x256_S256x128_S512x128_1_0_0_1_n_n none lhs rhs (ix2 r c)).trans ?_
  refine (Equiv.sum_comp (contrEquiv1 dot_S512x256_S256x128_S512x128_1_0_0_1_n_n 256 rfl rfl).symm _).symm.trans ?_
  refine Finset.sum_congr rfl fun k _ => ?_
  have hl : dot_S512x256_S256x128_S512x128_1_0_0_1_n_n.lhsIdx (ix2 r c) ((contrEquiv1 dot_S512x256_S256x128_S512x128_1_0_0_1_n_n 256 rfl rfl).symm k) = ix2 r k := by
    funext a; apply Fin.ext
    match a with
    | ⟨0, _⟩ => exact lhsC_0 _ _
    | ⟨1, _⟩ => exact (lhsC_1 _ _).trans (contrEquiv1_symm_val dot_S512x256_S256x128_S512x128_1_0_0_1_n_n 256 rfl rfl k)
  have hr : dot_S512x256_S256x128_S512x128_1_0_0_1_n_n.rhsIdx (ix2 r c) ((contrEquiv1 dot_S512x256_S256x128_S512x128_1_0_0_1_n_n 256 rfl rfl).symm k) = ix2 k c := by
    funext a; apply Fin.ext
    match a with
    | ⟨0, _⟩ => exact (rhsC_0 _ _).trans (contrEquiv1_symm_val dot_S512x256_S256x128_S512x128_1_0_0_1_n_n 256 rfl rfl k)
    | ⟨1, _⟩ => exact rhsC_1 _ _
  rw [hl, hr]

theorem lhsD_0 (j : S512x2.Idx) (k : dot_S512x128_S128x2_S512x2_1_0_0_1_n_n.contr.Idx) :
    (dot_S512x128_S128x2_S512x2_1_0_0_1_n_n.lhsIdx j k 0).val = (j 0).val := rfl
theorem lhsD_1 (j : S512x2.Idx) (k : dot_S512x128_S128x2_S512x2_1_0_0_1_n_n.contr.Idx) :
    (dot_S512x128_S128x2_S512x2_1_0_0_1_n_n.lhsIdx j k 1).val = (k ⟨0, by decide⟩).val := rfl
theorem rhsD_0 (j : S512x2.Idx) (k : dot_S512x128_S128x2_S512x2_1_0_0_1_n_n.contr.Idx) :
    (dot_S512x128_S128x2_S512x2_1_0_0_1_n_n.rhsIdx j k 0).val = (k ⟨0, by decide⟩).val := rfl
theorem rhsD_1 (j : S512x2.Idx) (k : dot_S512x128_S128x2_S512x2_1_0_0_1_n_n.contr.Idx) :
    (dot_S512x128_S128x2_S512x2_1_0_0_1_n_n.rhsIdx j k 1).val = (j 1).val := rfl

/-- The rectified 512 × 128 sums against the 128 × 2 table: entry (r, head) sums over the 128 columns. -/
theorem mmD (lhs : FVec Ideal S512x128 .bf16) (rhs : FVec Ideal S128x2 .bf16) (r : Fin 512) (c : Fin 2) :
    FloatOps.matmul dot_S512x128_S128x2_S512x2_1_0_0_1_n_n none lhs rhs (constant S512x2 .f32 0x00000000#32) (ix2 r c)
      = ∑ k : Fin 128, lhs (ix2 r k) * rhs (ix2 k c) := by
  refine (Ideal.matmul_constant_zero_apply dot_S512x128_S128x2_S512x2_1_0_0_1_n_n none lhs rhs (ix2 r c)).trans ?_
  refine (Equiv.sum_comp (contrEquiv1 dot_S512x128_S128x2_S512x2_1_0_0_1_n_n 128 rfl rfl).symm _).symm.trans ?_
  refine Finset.sum_congr rfl fun k _ => ?_
  have hl : dot_S512x128_S128x2_S512x2_1_0_0_1_n_n.lhsIdx (ix2 r c) ((contrEquiv1 dot_S512x128_S128x2_S512x2_1_0_0_1_n_n 128 rfl rfl).symm k) = ix2 r k := by
    funext a; apply Fin.ext
    match a with
    | ⟨0, _⟩ => exact lhsD_0 _ _
    | ⟨1, _⟩ => exact (lhsD_1 _ _).trans (contrEquiv1_symm_val dot_S512x128_S128x2_S512x2_1_0_0_1_n_n 128 rfl rfl k)
  have hr : dot_S512x128_S128x2_S512x2_1_0_0_1_n_n.rhsIdx (ix2 r c) ((contrEquiv1 dot_S512x128_S128x2_S512x2_1_0_0_1_n_n 128 rfl rfl).symm k) = ix2 k c := by
    funext a; apply Fin.ext
    match a with
    | ⟨0, _⟩ => exact (rhsD_0 _ _).trans (contrEquiv1_symm_val dot_S512x128_S128x2_S512x2_1_0_0_1_n_n 128 rfl rfl k)
    | ⟨1, _⟩ => exact rhsD_1 _ _
  rw [hl, hr]

/-! ## The 0/1 matrix -/

/-- A node number compared with a column number below 8192, widened to a word and read as a float: 1 where they are
    equal as numbers, 0 elsewhere. -/
theorem onehot_entry (v : BitVec 32) (n : Fin 8192) :
    FloatOps.sitofp (F := Ideal) .f32 ((IntOp.cmpi .eq v (BitVec.ofNat 32 n.val)).setWidth 32) = Cert.Spec.K.oh v.toNat n := by
  have key : IntOp.cmpi .eq v (BitVec.ofNat 32 n.val) = if v.toNat = n.val then 1#1 else 0#1 := by
    unfold IntOp.cmpi
    by_cases h : v.toNat = n.val
    · have hv : v = BitVec.ofNat 32 n.val := by
        apply BitVec.eq_of_toNat_eq; rw [h, BitVec.toNat_ofNat]; have := n.isLt; omega
      rw [if_pos h, hv]; simp
    · have hv : v ≠ BitVec.ofNat 32 n.val := fun e => h (by rw [e, BitVec.toNat_ofNat]; have := n.isLt; omega)
      rw [if_neg h]; show BitVec.ofBool (v == BitVec.ofNat 32 n.val) = 0#1; rw [beq_eq_false_iff_ne.mpr hv]; rfl
  rw [key]; unfold Cert.Spec.K.oh
  by_cases h : v.toNat = n.val
  · rw [if_pos h, if_pos h]
    show ((((BitVec.setWidth 32 1#1).toInt : ℤ) : ℝ) : EReal) = 1
    have e : (BitVec.setWidth 32 1#1).toInt = 1 := by decide
    rw [e]; simp
  · rw [if_neg h, if_neg h]
    show ((((BitVec.setWidth 32 0#1).toInt : ℤ) : ℝ) : EReal) = 0
    have e : (BitVec.setWidth 32 0#1).toInt = 0 := by decide
    rw [e]; simp

/-- A column of 512 node numbers copied along 8192 columns reads, at (r, n), the number of row r. -/
theorem bcast_col (v : IVec S512x1 32) (r : Fin 512) (n : Fin 8192) :
    broadcastTo S512x8192 v broadcasts_S512x1_S512x8192 (ix2 r n) = v (ix2 r 0) := by
  refine broadcastTo_apply v broadcasts_S512x1_S512x8192 (ix2 r n) (ix2 r 0) (fun a => ?_)
  match a with
  | ⟨0, _⟩ => rfl
  | ⟨1, _⟩ => rfl

/-- The 0/1 matrix of a column of node numbers: entry (r, n) is 1 exactly where row r's number is n. -/
def ohm (v : Vec Ideal S512x1 .i32) : FVec Ideal S512x8192 .bf16 :=
  truncf .bf16 (sitofp .f32 (extui 32 (cmpi .eq (broadcastTo S512x8192 (shapeCast S512x1 v shapeCasts_S512x1_S512x1) broadcasts_S512x1_S512x8192)
    (broadcastTo S512x8192 (iota .tc S1x8192 32 [1] iota_S1x8192_d1_w32) broadcasts_S1x8192_S512x8192)) natLt_1_32)) bitsLt_bf16_f32

theorem ohm_apply (v : Vec Ideal S512x1 .i32) (r : Fin 512) (n : Fin 8192) :
    ohm v (ix2 r n) = Cert.Spec.K.oh (v (ix2 r 0)).toNat n := by
  show FloatOps.sitofp (F := Ideal) .f32 ((IntOp.cmpi .eq
      (broadcastTo S512x8192 (shapeCast S512x1 v shapeCasts_S512x1_S512x1) broadcasts_S512x1_S512x8192 (ix2 r n))
      (broadcastTo S512x8192 (iota .tc S1x8192 32 [1] iota_S1x8192_d1_w32) broadcasts_S1x8192_S512x8192 (ix2 r n))).setWidth 32) = _
  rw [bcast_col, shapeCast_self, broadcastTo_1b_ab_apply, iota_single_apply]
  exact onehot_entry _ n

/-! ## The body's arithmetic at an entry -/

/-- The 128 × 2 table, re-laid and narrowed, is itself. -/
theorem pay4_apply (x4 : FVec Ideal S128x2 .f32) (i : S128x2.Idx) : k1_pay4 (F := Ideal) x4 i = x4 i := by
  unfold k1_pay4
  exact congrFun (shapeCast_self x4 shapeCasts_S128x2_S128x2) i

/-- The gathered destination features: the 0/1 row of row r's destination against the node table. -/
theorem pay2_apply (x1 : Vec Ideal S512x1 .i32) (x3 : FVec Ideal S8192x256 .bf16) (r : Fin 512) (k : Fin 256) :
    k1_pay2 (F := Ideal) x1 x3 (ix2 r k) = ∑ n : Fin 8192, Cert.Spec.K.oh (x1 (ix2 r 0)).toNat n * x3 (ix2 n k) := by
  unfold k1_pay2
  refine (mmB (ohm x1) (shapeCast S8192x256 x3 shapeCasts_S8192x256_S8192x256) r k).trans ?_
  refine Finset.sum_congr rfl fun n _ => ?_
  rw [ohm_apply, shapeCast_self]

/-- The sum the rectifier is applied to: the gathered source projection plus the gathered destination features
    against the 256 × 128 table. -/
def pre (x0 x1 : Vec Ideal S512x1 .i32) (x2 : FVec Ideal S8192x128 .bf16) (x3 : FVec Ideal S8192x256 .bf16)
    (x5 : FVec Ideal S256x128 .f32) : FVec Ideal S512x128 .f32 :=
  addf (matmul dot_S512x8192_S8192x128_S512x128_1_0_0_1_n_n none (ohm x0) (shapeCast S8192x128 x2 shapeCasts_S8192x128_S8192x128) (constant S512x128 .f32 0x00000000#32))
    (matmul dot_S512x256_S256x128_S512x128_1_0_0_1_n_n none (k1_pay2 x1 x3) (truncf .bf16 (shapeCast S256x128 x5 shapeCasts_S256x128_S256x128) bitsLt_bf16_f32) (constant S512x128 .f32 0x00000000#32))

theorem pre_apply (x0 x1 : Vec Ideal S512x1 .i32) (x2 : FVec Ideal S8192x128 .bf16) (x3 : FVec Ideal S8192x256 .bf16)
    (x5 : FVec Ideal S256x128 .f32) (r : Fin 512) (c : Fin 128) :
    pre x0 x1 x2 x3 x5 (ix2 r c) = (∑ n : Fin 8192, Cert.Spec.K.oh (x0 (ix2 r 0)).toNat n * x2 (ix2 n c))
      + ∑ k : Fin 256, (∑ n : Fin 8192, Cert.Spec.K.oh (x1 (ix2 r 0)).toNat n * x3 (ix2 n k)) * x5 (ix2 k c) := by
  unfold pre
  show FloatOps.matmul dot_S512x8192_S8192x128_S512x128_1_0_0_1_n_n none (ohm x0) (shapeCast S8192x128 x2 shapeCasts_S8192x128_S8192x128) (constant S512x128 .f32 0x00000000#32) (ix2 r c)
    + FloatOps.matmul dot_S512x256_S256x128_S512x128_1_0_0_1_n_n none (k1_pay2 x1 x3) (truncf .bf16 (shapeCast S256x128 x5 shapeCasts_S256x128_S256x128) bitsLt_bf16_f32) (constant S512x128 .f32 0x00000000#32) (ix2 r c) = _
  rw [mmA, mmC]
  refine congrArg₂ (· + ·) (Finset.sum_congr rfl fun n _ => ?_) (Finset.sum_congr rfl fun k _ => ?_)
  · rw [ohm_apply, shapeCast_self]
  · rw [pay2_apply]
    exact congrArg _ (congrFun (shapeCast_self x5 shapeCasts_S256x128_S256x128) (ix2 k c))

/-- The rectified, narrowed sum is the leaky rectifier of that sum, entry by entry. -/
theorem pay3_eq (x0 x1 : Vec Ideal S512x1 .i32) (x2 : FVec Ideal S8192x128 .bf16) (x3 : FVec Ideal S8192x256 .bf16)
    (x5 : FVec Ideal S256x128 .f32) (i : S512x128.Idx) :
    k1_pay3 (F := Ideal) x0 x1 x2 x3 x5 i = Cert.Spec.leaky (pre x0 x1 x2 x3 x5 i) := rfl

/-- An entry of the block of scores a point stores. -/
theorem pay_apply (x0 x1 : Vec Ideal S512x1 .i32) (x2 : FVec Ideal S8192x128 .bf16) (x3 : FVec Ideal S8192x256 .bf16)
    (x4 : FVec Ideal S128x2 .f32) (x5 : FVec Ideal S256x128 .f32) (r : Fin 512) (hd : Fin 2) :
    k1_pay1 (F := Ideal) (k1_pay3 x0 x1 x2 x3 x5) (k1_pay4 x4) (ix2 r hd)
      = ∑ c : Fin 128, Cert.Spec.leaky ((∑ n : Fin 8192, Cert.Spec.K.oh (x0 (ix2 r 0)).toNat n * x2 (ix2 n c))
          + ∑ k : Fin 256, (∑ n : Fin 8192, Cert.Spec.K.oh (x1 (ix2 r 0)).toNat n * x3 (ix2 n k)) * x5 (ix2 k c)) * x4 (ix2 c hd) := by
  unfold k1_pay1
  refine (mmD (k1_pay3 x0 x1 x2 x3 x5) (k1_pay4 x4) r hd).trans ?_
  refine Finset.sum_congr rfl fun c _ => ?_
  rw [pay3_eq, pre_apply, pay4_apply]

/-- The block of scores as the stage function of the specification, once each loaded block is read off its table:
    the rows of the two number columns are the edge slots `e r`, the four tables are whole. -/
theorem block_eq (x0 x1 : Vec Ideal S512x1 .i32) (x2 : FVec Ideal S8192x128 .bf16) (x3 : FVec Ideal S8192x256 .bf16)
    (x4 : FVec Ideal S128x2 .f32) (x5 : FVec Ideal S256x128 .f32)
    (sP dP : Fin 262144 → ℕ) (H : Fin 8192 → Fin 256 → EReal) (WD : Fin 256 → Fin 128 → EReal)
    (PS : Fin 8192 → Fin 128 → EReal) (AT2 : Fin 128 → Fin 2 → EReal) (e : Fin 512 → Fin 262144)
    (h0 : ∀ r, (x0 (ix2 r 0)).toNat = sP (e r)) (h1 : ∀ r, (x1 (ix2 r 0)).toNat = dP (e r))
    (h2 : ∀ n c, x2 (ix2 n c) = PS n c) (h3 : ∀ n k, x3 (ix2 n k) = H n k)
    (h4 : ∀ c hd, x4 (ix2 c hd) = AT2 c hd) (h5 : ∀ k c, x5 (ix2 k c) = WD k c) (r : Fin 512) (hd : Fin 2) :
    k1_pay1 (F := Ideal) (k1_pay3 x0 x1 x2 x3 x5) (k1_pay4 x4) (ix2 r hd)
      = Cert.Spec.K.scoreT sP dP H WD PS AT2 (e r) hd := by
  rw [pay_apply]
  unfold Cert.Spec.K.scoreT Cert.Spec.K.gpsT Cert.Spec.K.gpdT Cert.Spec.K.ghT
  simp only [h0, h1, h2, h3, h4, h5]

theorem hz : (![0, 0] : Fin 2 → Nat) = fun _ => 0 := funext fun a => by fin_cases a <;> rfl

/-- The block index of every window at a point: the two number columns and the scores move with the point along the
    rows, the four tables stay whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Edge slot r of the block of point t. -/
def slot (t : Fin cfg1.N) (r : Fin 512) : Fin 262144 :=
  ⟨t.val * 512 + r.val, by have := t.isLt; have hN : cfg1.N = 512 := N_1; have := r.isLt; omega⟩

/-- The score array as one function of the tables the launch finds. -/
def G (c : Dev nD) : S262144x2.Idx → EReal := fun i =>
  Cert.Spec.K.scoreT (fun e => (V c main_v20 (ix2 e 0)).toNat) (fun e => (V c main_v21 (ix2 e 0)).toNat)
    (fun n k => V c main_v13_0 (ix2 n k)) (fun k q => V c main_v8 (ix2 k q)) (fun n q => V c main_v13_1 (ix2 n q))
    (fun q hd => V c main_v12 (ix2 q hd)) (i 0) (i 1)

/-- The six input blocks of a point: the two columns of 512 node numbers and the four whole tables. -/
abbrev B0 (c : Dev nD) (t : Fin cfg1.N) : Vec Ideal S512x1 .i32 := iblk1 V c 0 t
abbrev B1 (c : Dev nD) (t : Fin cfg1.N) : Vec Ideal S512x1 .i32 := iblk1 V c 1 t
abbrev B2 (c : Dev nD) (t : Fin cfg1.N) : FVec Ideal S8192x128 .bf16 := iblk1 V c 2 t
abbrev B3 (c : Dev nD) (t : Fin cfg1.N) : FVec Ideal S8192x256 .bf16 := iblk1 V c 3 t
abbrev B4 (c : Dev nD) (t : Fin cfg1.N) : FVec Ideal S128x2 .f32 := iblk1 V c 4 t
abbrev B5 (c : Dev nD) (t : Fin cfg1.N) : FVec Ideal S256x128 .f32 := iblk1 V c 5 t

/-- The source numbers' block at point t is rows 512·t … of the column. -/
theorem blk0 (c : Dev nD) (t : Fin cfg1.N) (r : Fin 512) :
    B0 V c t (ix2 r 0) = V c main_v20 (ix2 (slot t r) 0) := by
  obtain ⟨e0, e1, -⟩ := idx_facts t
  show V c main_v20 (((cfg1.win 0).blk t).view.emb (ix2 r 0)) = V c main_v20 (ix2 (slot t r) 0)
  refine congrArg (V c main_v20) ?_
  funext a; apply Fin.ext
  match a with
  | ⟨0, _⟩ => show win1_0.index t (0 : Fin 2) * 512 + 1 * r.val = t.val * 512 + r.val; omega
  | ⟨1, _⟩ => show win1_0.index t (1 : Fin 2) * 1 + 1 * 0 = 0; omega

/-- The destination numbers' block at point t is rows 512·t … of the column. -/
theorem blk1 (c : Dev nD) (t : Fin cfg1.N) (r : Fin 512) :
    B1 V c t (ix2 r 0) = V c main_v21 (ix2 (slot t r) 0) := by
  obtain ⟨-, -, e0, e1, -⟩ := idx_facts t
  show V c main_v21 (((cfg1.win 1).blk t).view.emb (ix2 r 0)) = V c main_v21 (ix2 (slot t r) 0)
  refine congrArg (V c main_v21) ?_
  funext a; apply Fin.ext
  match a with
  | ⟨0, _⟩ => show win1_1.index t (0 : Fin 2) * 512 + 1 * r.val = t.val * 512 + r.val; omega
  | ⟨1, _⟩ => show win1_1.index t (1 : Fin 2) * 1 + 1 * 0 = 0; omega

/-- The 8192 × 128 table's block is the table, at every point. -/
theorem blk2 (c : Dev nD) (t : Fin cfg1.N) (n : Fin 8192) (q : Fin 128) :
    B2 V c t (ix2 n q) = V c main_v13_1 (ix2 n q) := by
  obtain ⟨-, -, -, -, e0, e1, -⟩ := idx_facts t
  show V c main_v13_1 (((cfg1.win 2).blk t).view.emb (ix2 n q)) = V c main_v13_1 (ix2 n q)
  refine congrArg (V c main_v13_1) ?_
  funext a; apply Fin.ext
  match a with
  | ⟨0, _⟩ => show win1_2.index t (0 : Fin 2) * 8192 + 1 * n.val = n.val; omega
  | ⟨1, _⟩ => show win1_2.index t (1 : Fin 2) * 128 + 1 * q.val = q.val; omega

/-- The 8192 × 256 node table's block is the table. -/
theorem blk3 (c : Dev nD) (t : Fin cfg1.N) (n : Fin 8192) (k : Fin 256) :
    B3 V c t (ix2 n k) = V c main_v13_0 (ix2 n k) := by
  obtain ⟨-, -, -, -, -, -, e0, e1, -⟩ := idx_facts t
  show V c main_v13_0 (((cfg1.win 3).blk t).view.emb (ix2 n k)) = V c main_v13_0 (ix2 n k)
  refine congrArg (V c main_v13_0) ?_
  funext a; apply Fin.ext
  match a with
  | ⟨0, _⟩ => show win1_3.index t (0 : Fin 2) * 8192 + 1 * n.val = n.val; omega
  | ⟨1, _⟩ => show win1_3.index t (1 : Fin 2) * 256 + 1 * k.val = k.val; omega

/-- The 128 × 2 table's block is the table. -/
theorem blk4 (c : Dev nD) (t : Fin cfg1.N) (q : Fin 128) (hd : Fin 2) :
    B4 V c t (ix2 q hd) = V c main_v12 (ix2 q hd) := by
  obtain ⟨-, -, -, -, -, -, -, -, e0, e1, -⟩ := idx_facts t
  show V c main_v12 (((cfg1.win 4).blk t).view.emb (ix2 q hd)) = V c main_v12 (ix2 q hd)
  refine congrArg (V c main_v12) ?_
  funext a; apply Fin.ext
  match a with
  | ⟨0, _⟩ => show win1_4.index t (0 : Fin 2) * 128 + 1 * q.val = q.val; omega
  | ⟨1, _⟩ => show win1_4.index t (1 : Fin 2) * 2 + 1 * hd.val = hd.val; omega

/-- The 256 × 128 table's block is the table. -/
theorem blk5 (c : Dev nD) (t : Fin cfg1.N) (k : Fin 256) (q : Fin 128) :
    B5 V c t (ix2 k q) = V c main_v8 (ix2 k q) := by
  obtain ⟨-, -, -, -, -, -, -, -, -, -, e0, e1, -⟩ := idx_facts t
  show V c main_v8 (((cfg1.win 5).blk t).view.emb (ix2 k q)) = V c main_v8 (ix2 k q)
  refine congrArg (V c main_v8) ?_
  funext a; apply Fin.ext
  match a with
  | ⟨0, _⟩ => show win1_5.index t (0 : Fin 2) * 256 + 1 * k.val = k.val; omega
  | ⟨1, _⟩ => show win1_5.index t (1 : Fin 2) * 128 + 1 * q.val = q.val; omega

/-- An entry of the block a point stores, as the score of its edge slot. -/
theorem stored_eq (c : Dev nD) (t : Fin cfg1.N) (r : Fin 512) (hd : Fin 2) :
    k1_pay1 (F := Ideal) (k1_pay3 (B0 V c t) (B1 V c t) (B2 V c t) (B3 V c t) (B5 V c t)) (k1_pay4 (B4 V c t)) (ix2 r hd)
      = Cert.Spec.K.scoreT (fun e => (V c main_v20 (ix2 e 0)).toNat) (fun e => (V c main_v21 (ix2 e 0)).toNat)
          (fun n k => V c main_v13_0 (ix2 n k)) (fun k q => V c main_v8 (ix2 k q)) (fun n q => V c main_v13_1 (ix2 n q))
          (fun q hd => V c main_v12 (ix2 q hd)) (slot t r) hd :=
  block_eq (B0 V c t) (B1 V c t) (B2 V c t) (B3 V c t) (B4 V c t) (B5 V c t)
    (fun e => (V c main_v20 (ix2 e 0)).toNat) (fun e => (V c main_v21 (ix2 e 0)).toNat)
    (fun n k => V c main_v13_0 (ix2 n k)) (fun k q => V c main_v8 (ix2 k q)) (fun n q => V c main_v13_1 (ix2 n q))
    (fun q hd => V c main_v12 (ix2 q hd)) (slot t)
    (fun r => congrArg BitVec.toNat (blk0 V c t r)) (fun r => congrArg BitVec.toNat (blk1 V c t r))
    (fun n q => blk2 V c t n q) (fun n k => blk3 V c t n k) (fun q hd => blk4 V c t q hd) (fun k q => blk5 V c t k q) r hd

/-- What point t writes back is block t of the score array. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S512x1) hz, View.ld_unit_zero (S := S8192x128) hz, View.ld_unit_zero (S := S8192x256) hz,
    View.ld_unit_zero (S := S128x2) hz, View.ld_unit_zero (S := S256x128) hz]
  obtain ⟨-, -, -, -, -, -, -, -, -, -, -, -, e0, e1⟩ := idx_facts t
  funext y
  obtain ⟨r, hd, rfl⟩ : ∃ (r : Fin 512) (hd : Fin 2), y = ix2 r hd := ⟨y 0, y 1, eq_ix2 y⟩
  show k1_pay1 (F := Ideal) (k1_pay3 (B0 V c t) (B1 V c t) (B2 V c t) (B3 V c t) (B5 V c t)) (k1_pay4 (B4 V c t)) (ix2 r hd)
    = G V c (((cfg1.win 6).blk t).view.emb (ix2 r hd))
  refine (stored_eq V c t r hd).trans ?_
  show Cert.Spec.K.scoreT _ _ _ _ _ _ (slot t r) hd
    = Cert.Spec.K.scoreT _ _ _ _ _ _ ((((cfg1.win 6).blk t).view.emb (ix2 r hd)) 0) ((((cfg1.win 6).blk t).view.emb (ix2 r hd)) 1)
  refine congrArg₂ (Cert.Spec.K.scoreT _ _ _ _ _ _) (Fin.ext ?_) (Fin.ext ?_)
  · show t.val * 512 + r.val = win1_6.index t (0 : Fin 2) * 512 + 1 * r.val; omega
  · show hd.val = win1_6.index t (1 : Fin 2) * 2 + 1 * hd.val; omega

/-- An entry of the score array lies in point t's block exactly when its row is one of the 512 rows from 512·t
    and its column is one of the two. -/
theorem mem_blk (t : Fin cfg1.N) (i : S262144x2.Idx) :
    i ∈ ((cfg1.win 6).blk t).view.set ↔ ∀ a : Fin 2, win1_6.index t a * S512x2.size a ≤ (i a).val ∧ (i a).val < win1_6.index t a * S512x2.size a + S512x2.size a := by
  show i ∈ ((View.whole main_v22_0).slice (win1_6.rect t)).set ↔ _
  rw [View.set_slice_whole, Rect.mem_set_unit]
  exact Iff.rfl

/-- Every entry of the score array is written back by the point its row divided by 512 names. -/
theorem cover (i : S262144x2.Idx) :
    ∃ t : Fin cfg1.N, (cfg1.win 6).flush t = true ∧ i ∈ ((cfg1.win 6).blk t).view.set := by
  have hi0 : (i 0).val < 262144 := (i 0).isLt
  have hi1 : (i 1).val < 2 := (i 1).isLt
  have hN : cfg1.N = 512 := N_1
  obtain ⟨t, ht⟩ : ∃ t : Fin cfg1.N, t.val = (i 0).val / 512 := ⟨⟨(i 0).val / 512, by rw [hN]; omega⟩, rfl⟩
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 2 ≤ (i 1).val ∧ (i 1).val < win1_6.index t (1 : Fin 2) * 2 + 2; omega

end Score

/-- Entry (e, head) of the score array. -/
theorem reg1_out6 (c : Dev nD) :
    ((dat1 (F := Ideal) V c).arrAt 6 cfg1.N : S262144x2.Idx → EReal)
      = fun i => Cert.Spec.K.scoreT (fun e => (V c main_v20 (ix2 e 0)).toNat) (fun e => (V c main_v21 (ix2 e 0)).toNat)
          (fun n k => V c main_v13_0 (ix2 n k)) (fun k q => V c main_v8 (ix2 k q)) (fun n q => V c main_v13_1 (ix2 n q))
          (fun q hd => V c main_v12 (ix2 q hd)) (i 0) (i 1) :=
  (dat1 (F := Ideal) V c).arrAt_eq_of_cover 6 (Score.G V c) (fun t _ => Score.flushed_eq V c t) Score.cover

end Cert.KernelIdeal.Val

end
-- ==== Proof.KReg2.lean ====
/-
  The third launch (the scatter), read as values at the ideal instance: a grid of 2 halves × 256 blocks of 512 edge
  slots; the output block of a half is the whole 8192 × 256 node table, carried from point to point: zeroed at a half's
  first block, then each block adds the product of the transposed 0/1 matrix of its source node numbers with its
  messages (the slot's weight, by head, times its gathered features). After a half's 256 blocks the table holds the
  sum of the 256 contributions.
-/
import proofs.«401063_j42442866819268_2_alg».proof.Proof.Gen.KernelIdeal.Frame
import proofs.«401063_j42442866819268_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Idealize.SL.Sem Idealize.ShloMosaic.Tactic
open Idealize.ShloMosaic.Pipeline (Dat Cfg Window)

variable (V : (c : Dev nD) → (b : Ref sig .tc) → Buf (Elt Ideal) ((c : Thread nD τ).loc b))

namespace Reg2

section Pieces
variable {F : FTy → Type} [FloatOps F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- A later block of a half: the one store leaves the payload of the three loaded blocks over what the table held. -/
private theorem piece_B (c : Dev nD) (i : grid2.Coords) (a2 : Memref sig .tc .vmem S512x256 .bf16) (h2 : a2.IsWhole)
    (a3 : Memref sig .tc .vmem S512x2 .f32) (h3 : a3.IsWhole) (a4 : Memref sig .tc .vmem S512x1 .i32) (h4 : a4.IsWhole)
    (a5 : Memref sig .tc .vmem S1x8192x256 .f32) (h5 : a5.IsWhole) (hc : ¬cond2_0 i)
    (x0 : Vec F S512x256 .bf16) (x1 : Vec F S512x2 .f32) (x2 : Vec F S512x1 .i32) (xo : Vec F S1x8192x256 .f32) :
    out2_B_3 c i a2 h2 a3 h3 a4 h4 a5 h5 hc x0 x1 x2 xo = k2_pay2 x1 x0 x2 xo := by
  unfold out2_B_3
  rw [View.read_writes_eq_canon _ _ _ (cover2_B_3 c i a2 h2 a3 h3 a4 h4 a5 h5 hc x0 x1 x2 xo)]
  unfold kernelRun2_B
  dsimp only
  sl_unfold_words
  rw [View.canon_unit_zero hz3]
  simp only [View.readAt_eq_ld, h2.read_unread, h3.read_unread, h4.read_unread, h5.read_unread,
    View.ld_unit_zero (S := S512x256) hz2, View.ld_unit_zero (S := S512x2) hz2, View.ld_unit_zero (S := S512x1) hz2,
    View.ld_unit_zero (S := S1x8192x256) hz3]

/-- The first block of a half: the table is zeroed, read back, and the same payload stored over the zeros. -/
private theorem piece_A (c : Dev nD) (i : grid2.Coords) (a2 : Memref sig .tc .vmem S512x256 .bf16) (h2 : a2.IsWhole)
    (a3 : Memref sig .tc .vmem S512x2 .f32) (h3 : a3.IsWhole) (a4 : Memref sig .tc .vmem S512x1 .i32) (h4 : a4.IsWhole)
    (a5 : Memref sig .tc .vmem S1x8192x256 .f32) (h5 : a5.IsWhole) (hc : cond2_0 i)
    (x0 : Vec F S512x256 .bf16) (x1 : Vec F S512x2 .f32) (x2 : Vec F S512x1 .i32) :
    out2_A_3 c i a2 h2 a3 h3 a4 h4 a5 h5 hc x0 x1 x2 = k2_pay2 x1 x0 x2 (k2_pay1 (F := F)) := by
  unfold out2_A_3
  rw [View.read_writes_eq_canon _ _ _ (cover2_A_3 c i a2 h2 a3 h3 a4 h4 a5 h5 hc x0 x1 x2)]
  unfold kernelRun2_A
  dsimp only
  sl_unfold_words
  rw [View.canon_cons_unit_zero (S := S1x8192x256) hz3]
  simp only [View.readAt_eq_ld, h2.read_unread, h3.read_unread, h4.read_unread,
    View.ld_unit_zero (S := S512x256) hz2, View.ld_unit_zero (S := S512x2) hz2, View.ld_unit_zero (S := S512x1) hz2,
    View.readCov_unit_zero (S := S1x8192x256) _ hz3]

end Pieces

section Payload

/-! ## The block's arithmetic at an index

The product contracts the row axis of both operands: entry (n, col) sums, over the 512 slots of the block, the 0/1
entry (slot, n) times the message (slot, col). -/

private theorem lhs_scatter_0 (i : S8192x256.Idx) (q : dot_S512x8192_S512x256_S8192x256_0_0_1_1_n_n.contr.Idx) :
    (dot_S512x8192_S512x256_S8192x256_0_0_1_1_n_n.lhsIdx i q 0).val = (q ⟨0, by decide⟩).val :=
  dot_S512x8192_S512x256_S8192x256_0_0_1_1_n_n.lhsIdx_val_of_single rfl i q
private theorem lhs_scatter_1 (i : S8192x256.Idx) (q : dot_S512x8192_S512x256_S8192x256_0_0_1_1_n_n.contr.Idx) :
    (dot_S512x8192_S512x256_S8192x256_0_0_1_1_n_n.lhsIdx i q 1).val = (i 0).val := by
  unfold DotDims.lhsIdx
  rw [dif_neg (show ¬(1 : Fin S512x8192.rank) ∈ dot_S512x8192_S512x256_S8192x256_0_0_1_1_n_n.lhsBatch by decide),
    dif_pos (show (1 : Fin S512x8192.rank) ∈ dot_S512x8192_S512x256_S8192x256_0_0_1_1_n_n.lhsNonContracting by decide)]
  rfl
private theorem rhs_scatter_0 (i : S8192x256.Idx) (q : dot_S512x8192_S512x256_S8192x256_0_0_1_1_n_n.contr.Idx) :
    (dot_S512x8192_S512x256_S8192x256_0_0_1_1_n_n.rhsIdx i q 0).val = (q ⟨0, by decide⟩).val :=
  dot_S512x8192_S512x256_S8192x256_0_0_1_1_n_n.rhsIdx_val_of_single rfl i q
private theorem rhs_scatter_1 (i : S8192x256.Idx) (q : dot_S512x8192_S512x256_S8192x256_0_0_1_1_n_n.contr.Idx) :
    (dot_S512x8192_S512x256_S8192x256_0_0_1_1_n_n.rhsIdx i q 1).val = (i 1).val := by
  unfold DotDims.rhsIdx
  rw [dif_neg (show ¬(1 : Fin S512x256.rank) ∈ dot_S512x8192_S512x256_S8192x256_0_0_1_1_n_n.rhsBatch by decide),
    dif_pos (show (1 : Fin S512x256.rank) ∈ dot_S512x8192_S512x256_S8192x256_0_0_1_1_n_n.rhsNonContracting by decide)]
  rfl

/-- The 0/1 entry: a node number compared with n, widened and converted, is 1 exactly when it is n. -/
private theorem onehot_word (v : BitVec 32) (n : Fin 8192) :
    (FloatOps.sitofp (F := Ideal) .f32 ((IntOp.cmpi .eq v (BitVec.ofNat 32 n.val)).setWidth 32) : EReal)
      = Cert.Spec.K.oh v.toNat n := by
  have hlt : n.val < 2 ^ 32 := by have := n.isLt; omega
  show (((BitVec.setWidth 32 (BitVec.ofBool (v == BitVec.ofNat 32 n.val))).toInt : ℝ) : EReal) = if v.toNat = n.val then 1 else 0
  by_cases h : v.toNat = n.val
  · have e : (v == BitVec.ofNat 32 n.val) = true := by
      rw [beq_iff_eq]; apply BitVec.eq_of_toNat_eq; rw [h, BitVec.toNat_ofNat, Nat.mod_eq_of_lt hlt]
    rw [e, if_pos h, show (BitVec.setWidth 32 (BitVec.ofBool true)).toInt = 1 from by decide]
    simp
  · have e : (v == BitVec.ofNat 32 n.val) = false := by
      rw [beq_eq_false_iff_ne]; intro hv; apply h; rw [hv, BitVec.toNat_ofNat, Nat.mod_eq_of_lt hlt]
    rw [e, if_neg h, show (BitVec.setWidth 32 (BitVec.ofBool false)).toInt = 0 from by decide]
    simp

/-- The weight columns laid side by side: column col of the 256 reads the weight of its head. -/
private theorem weights_apply (w : Vec Ideal S512x2 .f32) (r : Fin 512) (col : Fin 256) :
    concatenate S512x256 1
        [⟨S512x128, broadcastTo S512x128 (shapeCast S512x1 (extractStridedSlice S512x1 ![0, 0] (shapeCast S512x2 w shapeCasts_S512x2_S512x2) slices_S512x2_o0_0_S512x1) shapeCasts_S512x1_S512x1) broadcasts_S512x1_S512x128⟩,
         ⟨S512x128, broadcastTo S512x128 (shapeCast S512x1 (extractStridedSlice S512x1 ![0, 1] (shapeCast S512x2 w shapeCasts_S512x2_S512x2) slices_S512x2_o0_1_S512x1) shapeCasts_S512x1_S512x1) broadcasts_S512x1_S512x128⟩]
        concatenates_S512x128_S512x128_S512x256_d1 (ix2 r col)
      = w (ix2 r (Cert.Spec.colHead col)) := by
  rw [shapeCast_self, shapeCast_self, shapeCast_self]
  by_cases hc : col.val < 128
  · refine (concatenate_pair_apply_left (t := S512x256) (s₁ := S512x128) (s₂ := S512x128) (1 : Fin S512x256.rank) _ _ _ (ix2 r col) rfl (ix2 r (⟨col.val, hc⟩ : Fin 128)) (fun b => by
      match b with
      | ⟨0, _⟩ => rfl
      | ⟨1, _⟩ => rfl)).trans ?_
    refine (broadcastTo_apply _ _ _ (ix2 r 0) (fun a => by
      match a with
      | ⟨0, _⟩ => rfl
      | ⟨1, _⟩ => rfl)).trans ?_
    refine (extractStridedSlice_apply _ _ _ _ (ix2 r 0) (fun a => by
      match a with
      | ⟨0, _⟩ => show r.val = 0 + r.val; omega
      | ⟨1, _⟩ => rfl)).trans ?_
    exact congrArg w (congrArg (ix2 r) (Fin.ext (by show 0 = col.val / 128; omega)))
  · have hcol := col.isLt
    refine (concatenate_pair_apply_right (t := S512x256) (s₁ := S512x128) (s₂ := S512x128) (1 : Fin S512x256.rank) _ _ _ (ix2 r col) rfl rfl (ix2 r (⟨col.val - 128, by omega⟩ : Fin 128)) (fun b hb => by
      match b with
      | ⟨0, _⟩ => rfl
      | ⟨1, _⟩ => exact absurd rfl hb) (by show col.val - 128 + 128 = col.val; omega)).trans ?_
    refine (broadcastTo_apply _ _ _ (ix2 r 0) (fun a => by
      match a with
      | ⟨0, _⟩ => rfl
      | ⟨1, _⟩ => rfl)).trans ?_
    refine (extractStridedSlice_apply _ _ _ _ (ix2 r 1) (fun a => by
      match a with
      | ⟨0, _⟩ => show r.val = 0 + r.val; omega
      | ⟨1, _⟩ => rfl)).trans ?_
    exact congrArg w (congrArg (ix2 r) (Fin.ext (by show 1 = col.val / 128; omega)))

end Payload

section Payload2

/-- The 0/1 matrix of the block at (slot, n): 1 exactly when the slot's node number is n. -/
private theorem onehot_apply (s : IVec S512x1 32) (r : Fin 512) (n : Fin 8192) :
    (truncf .bf16 (sitofp (F := Ideal) .f32 (extui 32 (cmpi .eq
        (broadcastTo S512x8192 (shapeCast S512x1 s shapeCasts_S512x1_S512x1) broadcasts_S512x1_S512x8192)
        (broadcastTo S512x8192 (iota .tc S1x8192 32 [1] iota_S1x8192_d1_w32) broadcasts_S1x8192_S512x8192)) natLt_1_32)) bitsLt_bf16_f32
      : FVec Ideal S512x8192 .bf16) (ix2 r n) = Cert.Spec.K.oh (s (ix2 r 0)).toNat n := by
  rw [shapeCast_self]
  refine Eq.trans ?_ (onehot_word (s (ix2 r 0)) n)
  show FloatOps.sitofp (F := Ideal) .f32 ((IntOp.cmpi .eq (broadcastTo S512x8192 s broadcasts_S512x1_S512x8192 (ix2 r n))
      (broadcastTo S512x8192 (iota .tc S1x8192 32 [1] iota_S1x8192_d1_w32) broadcasts_S1x8192_S512x8192 (ix2 r n))).setWidth 32) = _
  rw [broadcastTo_apply s broadcasts_S512x1_S512x8192 (ix2 r n) (ix2 r 0) (fun a => by
        match a with
        | ⟨0, _⟩ => rfl
        | ⟨1, _⟩ => rfl),
    broadcastTo_apply (iota .tc S1x8192 32 [1] iota_S1x8192_d1_w32) broadcasts_S1x8192_S512x8192 (ix2 r n) (ix2 0 n) (fun a => by
        match a with
        | ⟨0, _⟩ => rfl
        | ⟨1, _⟩ => rfl),
    iota_single_apply]

/-- The reset stores zeros. -/
private theorem pay1_apply (j : S1x8192x256.Idx) : k2_pay1 (F := Ideal) j = 0 := by
  unfold k2_pay1
  obtain ⟨z, n, col, rfl⟩ : ∃ (z : Fin 1) (n : Fin 8192) (col : Fin 256), j = ix3 z n col := ⟨j 0, j 1, j 2, eq_ix3 j⟩
  refine (shapeCast_apply _ _ (ix3 z n col) (ix2 n col) (by
    rw [Shape.rowMajor_val_two, Shape.rowMajor_val_three]
    have hz : z.val = 0 := by omega
    show n.val * 256 + col.val = (z.val * 8192 + n.val) * 256 + col.val
    rw [hz]; omega)).trans ?_
  exact Ideal.ofBits_zero_f32

/-- What a block leaves at (0, n, col): what the table held there plus, over the block's 512 slots, the 0/1 entry
    (slot, n) times the slot's weight for the column's head times its gathered feature. -/
private theorem pay2_apply (w : FVec Ideal S512x2 .f32) (g : FVec Ideal S512x256 .bf16) (s : IVec S512x1 32)
    (acc : FVec Ideal S1x8192x256 .f32) (n : Fin 8192) (col : Fin 256) :
    k2_pay2 (F := Ideal) w g s acc (ix3 0 n col)
      = acc (ix3 0 n col) + ∑ r : Fin 512, Cert.Spec.K.oh (s (ix2 r 0)).toNat n * (w (ix2 r (Cert.Spec.colHead col)) * g (ix2 r col)) := by
  unfold k2_pay2
  dsimp only
  refine (shapeCast_apply _ _ (ix3 0 n col) (ix2 n col) (by
    rw [Shape.rowMajor_val_two, Shape.rowMajor_val_three]
    show n.val * 256 + col.val = (0 * 8192 + n.val) * 256 + col.val
    omega)).trans ?_
  refine congrArg₂ (· + ·) ?_ ?_
  · exact shapeCast_apply _ _ (ix2 n col) (ix3 0 n col) (by
      rw [Shape.rowMajor_val_two, Shape.rowMajor_val_three]
      show (0 * 8192 + n.val) * 256 + col.val = n.val * 256 + col.val
      omega)
  · refine (Ideal.matmul_constant_zero_apply _ none _ _ (ix2 n col)).trans ?_
    refine (Equiv.sum_comp (contrEquiv1 dot_S512x8192_S512x256_S8192x256_0_0_1_1_n_n 512 rfl rfl).symm _).symm.trans ?_
    refine Finset.sum_congr rfl fun r _ => ?_
    have hk := contrEquiv1_symm_val dot_S512x8192_S512x256_S8192x256_0_0_1_1_n_n 512 rfl rfl r
    have el : dot_S512x8192_S512x256_S8192x256_0_0_1_1_n_n.lhsIdx (ix2 n col)
        ((contrEquiv1 dot_S512x8192_S512x256_S8192x256_0_0_1_1_n_n 512 rfl rfl).symm r) = ix2 r n := funext fun a => Fin.ext (by
      match a with
      | ⟨0, _⟩ => exact (lhs_scatter_0 _ _).trans hk
      | ⟨1, _⟩ => exact lhs_scatter_1 _ _)
    have er : dot_S512x8192_S512x256_S8192x256_0_0_1_1_n_n.rhsIdx (ix2 n col)
        ((contrEquiv1 dot_S512x8192_S512x256_S8192x256_0_0_1_1_n_n 512 rfl rfl).symm r) = ix2 r col := funext fun a => Fin.ext (by
      match a with
      | ⟨0, _⟩ => exact (rhs_scatter_0 _ _).trans hk
      | ⟨1, _⟩ => exact rhs_scatter_1 _ _)
    refine congrArg₂ (· * ·) ?_ ?_
    · refine (congrArg _ el).trans ?_
      exact onehot_apply s r n
    · refine (congrArg _ er).trans ?_
      refine congrArg₂ (· * ·) (weights_apply w r col) ?_
      rw [shapeCast_self]
      rfl

end Payload2

section Table

/-! ## From blocks to the table

Point t of the grid is block t mod 256 of half t / 256; its three input blocks are rows 512 t .. 512 t + 511 of the
three arrays, that is the half's and block's 512 edge slots. -/

/-- The printed index maps over the grid: the inputs' row block is the point's number, the output's block is the half. -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = t.val / 256 ∧ win2_3.index t (1 : Fin 3) = 0 ∧ win2_3.index t (2 : Fin 3) = 0 :=
  (by decide +kernel : ∀ t : Fin grid2.N, _)

private theorem lt512 (t : Fin cfg2.N) : t.val < 512 := lt_of_lt_of_eq t.isLt (show cfg2.N = 512 from N_2)

/-- The half and the block within it of a point. -/
private def halfOf (t : Fin cfg2.N) : Fin 2 := ⟨t.val / 256, by have := lt512 t; omega⟩
private def blkOf (t : Fin cfg2.N) : Fin 256 := ⟨t.val % 256, Nat.mod_lt _ (by decide)⟩

/-- The three tables the launch reads, as the specification takes them. -/
private abbrev sPof (c : Dev nD) : Fin 262144 → ℕ := fun e => (V c main_v20 (ix2 e 0)).toNat
private abbrev ATof (c : Dev nD) : Fin 262144 → Fin 2 → EReal := fun e hd => V c main_v38 (ix2 e hd)
private abbrev Gof (c : Dev nD) : Fin 262144 → Fin 256 → EReal := fun e k => V c main_v22_1 (ix2 e k)

/-- The input blocks at a point, at their literal types. -/
private abbrev gblk (c : Dev nD) (t : Fin cfg2.N) : FVec Ideal S512x256 .bf16 := iblk2 V c 0 t
private abbrev wblk (c : Dev nD) (t : Fin cfg2.N) : FVec Ideal S512x2 .f32 := iblk2 V c 1 t
private abbrev sblk (c : Dev nD) (t : Fin cfg2.N) : IVec S512x1 32 := iblk2 V c 2 t

private theorem gblk_read (c : Dev nD) (t : Fin cfg2.N) (r : Fin 512) (k : Fin 256) :
    gblk V c t (ix2 r k) = V c main_v22_1 (ix2 (Cert.Spec.K.edge (halfOf t) (blkOf t) r) k) := by
  obtain ⟨f0, f1, -⟩ := idx_facts t
  show V c main_v22_1 (((cfg2.win 0).blk t).view.emb (ix2 r k)) = V c main_v22_1 (ix2 (Cert.Spec.K.edge (halfOf t) (blkOf t) r) k)
  refine congrArg (V c main_v22_1) (funext fun a => Fin.ext ?_)
  match a with
  | ⟨0, _⟩ => show win2_0.index t (0 : Fin 2) * 512 + 1 * r.val = (t.val / 256 * 256 + t.val % 256) * 512 + r.val; rw [f0]; omega
  | ⟨1, _⟩ => show win2_0.index t (1 : Fin 2) * 256 + 1 * k.val = k.val; rw [f1]; omega

private theorem wblk_read (c : Dev nD) (t : Fin cfg2.N) (r : Fin 512) (hd : Fin 2) :
    wblk V c t (ix2 r hd) = V c main_v38 (ix2 (Cert.Spec.K.edge (halfOf t) (blkOf t) r) hd) := by
  obtain ⟨-, -, f0, f1, -⟩ := idx_facts t
  show V c main_v38 (((cfg2.win 1).blk t).view.emb (ix2 r hd)) = V c main_v38 (ix2 (Cert.Spec.K.edge (halfOf t) (blkOf t) r) hd)
  refine congrArg (V c main_v38) (funext fun a => Fin.ext ?_)
  match a with
  | ⟨0, _⟩ => show win2_1.index t (0 : Fin 2) * 512 + 1 * r.val = (t.val / 256 * 256 + t.val % 256) * 512 + r.val; rw [f0]; omega
  | ⟨1, _⟩ => show win2_1.index t (1 : Fin 2) * 2 + 1 * hd.val = hd.val; rw [f1]; omega

private theorem sblk_read (c : Dev nD) (t : Fin cfg2.N) (r : Fin 512) :
    sblk V c t (ix2 r 0) = V c main_v20 (ix2 (Cert.Spec.K.edge (halfOf t) (blkOf t) r) 0) := by
  obtain ⟨-, -, -, -, f0, f1, -⟩ := idx_facts t
  show V c main_v20 (((cfg2.win 2).blk t).view.emb (ix2 r 0)) = V c main_v20 (ix2 (Cert.Spec.K.edge (halfOf t) (blkOf t) r) 0)
  refine congrArg (V c main_v20) (funext fun a => Fin.ext ?_)
  match a with
  | ⟨0, _⟩ => show win2_2.index t (0 : Fin 2) * 512 + 1 * r.val = (t.val / 256 * 256 + t.val % 256) * 512 + r.val; rw [f0]; omega
  | ⟨1, _⟩ => show win2_2.index t (1 : Fin 2) * 1 + 1 * 0 = 0; rw [f1]

/-- What block number b of the 512 adds to node n, column col (nothing past the grid). -/
private def blockAdd (c : Dev nD) (b : ℕ) (n : Fin 8192) (col : Fin 256) : EReal :=
  if h : b < 512 then
    Cert.Spec.K.contribT (sPof V c) (ATof V c) (Gof V c) ⟨b / 256, by omega⟩ ⟨b % 256, Nat.mod_lt _ (by decide)⟩ n col
  else 0

/-- The payload at a point adds that point's block to what the table held. -/
private theorem point_add (c : Dev nD) (t : Fin cfg2.N) (acc : FVec Ideal S1x8192x256 .f32) (n : Fin 8192) (col : Fin 256) :
    k2_pay2 (F := Ideal) (wblk V c t) (gblk V c t) (sblk V c t) acc (ix3 0 n col)
      = acc (ix3 0 n col) + blockAdd V c t.val n col := by
  refine (pay2_apply (wblk V c t) (gblk V c t) (sblk V c t) acc n col).trans ?_
  refine congrArg (acc (ix3 0 n col) + ·) ?_
  unfold blockAdd
  rw [dif_pos (lt512 t)]
  show _ = Cert.Spec.K.contribT (sPof V c) (ATof V c) (Gof V c) (halfOf t) (blkOf t) n col
  unfold Cert.Spec.K.contribT Cert.Spec.K.msgT
  refine Finset.sum_congr rfl fun r _ => ?_
  rw [sblk_read, wblk_read, gblk_read]

/-- At a half's first block the table holds that block's contribution alone. -/
private theorem step_A (c : Dev nD) (t : Fin cfg2.N) (h0 : t.val % 256 = 0) (n : Fin 8192) (col : Fin 256) :
    (outsAt2 V c t.val t.isLt : FVec Ideal S1x8192x256 .f32) (ix3 0 n col) = blockAdd V c t.val n col := by
  rw [outsAt2_A V c t h0]
  refine (congrFun (piece_A (F := Ideal) c (grid2.coords t) (ms2_0 t) (hs2_0 t) (ms2_1 t) (hs2_1 t) (ms2_2 t) (hs2_2 t)
    (ms2_3 t) (hs2_3 t) ((hcond2_0 t).mpr h0) (iblk2 V c 0 t) (iblk2 V c 1 t) (iblk2 V c 2 t)) (ix3 0 n col)).trans ?_
  refine (point_add V c t (k2_pay1 (F := Ideal)) n col).trans ?_
  rw [pay1_apply, zero_add]

/-- At a later block it holds what the point before left plus that block's contribution. -/
private theorem step_B (c : Dev nD) (t : Fin cfg2.N) (h0 : ¬t.val % 256 = 0) (n : Fin 8192) (col : Fin 256) :
    (outsAt2 V c t.val t.isLt : FVec Ideal S1x8192x256 .f32) (ix3 0 n col)
      = (outsAt2 V c (t.val - 1) (Nat.lt_of_le_of_lt (Nat.sub_le _ _) t.isLt) : FVec Ideal S1x8192x256 .f32) (ix3 0 n col)
        + blockAdd V c t.val n col := by
  rw [outsAt2_B V c t h0]
  refine (congrFun (piece_B (F := Ideal) c (grid2.coords t) (ms2_0 t) (hs2_0 t) (ms2_1 t) (hs2_1 t) (ms2_2 t) (hs2_2 t)
    (ms2_3 t) (hs2_3 t) (fun h => h0 ((hcond2_0 t).mp h)) (iblk2 V c 0 t) (iblk2 V c 1 t) (iblk2 V c 2 t)
    (outsAt2 V c (t.val - 1) (Nat.lt_of_le_of_lt (Nat.sub_le _ _) t.isLt))) (ix3 0 n col)).trans ?_
  exact point_add V c t (outsAt2 V c (t.val - 1) (Nat.lt_of_le_of_lt (Nat.sub_le _ _) t.isLt)) n col

/-- After point t the table holds the sum of the contributions of the half's blocks up to t. -/
private theorem running (c : Dev nD) (n : Fin 8192) (col : Fin 256) : ∀ (t : ℕ) (ht : t < cfg2.N),
    (outsAt2 V c t ht : FVec Ideal S1x8192x256 .f32) (ix3 0 n col)
      = ∑ b ∈ Finset.Ico (t / 256 * 256) (t + 1), blockAdd V c b n col
  | 0, ht => by
    refine (step_A V c ⟨0, ht⟩ rfl n col).trans ?_
    show blockAdd V c 0 n col = ∑ b ∈ Finset.Ico (0 / 256 * 256) (0 + 1), blockAdd V c b n col
    rw [show 0 / 256 * 256 = 0 from rfl, Nat.Ico_succ_singleton, Finset.sum_singleton]
  | t + 1, ht => by
    by_cases h0 : (t + 1) % 256 = 0
    · refine (step_A V c ⟨t + 1, ht⟩ h0 n col).trans ?_
      show blockAdd V c (t + 1) n col = _
      rw [show (t + 1) / 256 * 256 = t + 1 from by omega, Nat.Ico_succ_singleton, Finset.sum_singleton]
    · refine (step_B V c ⟨t + 1, ht⟩ h0 n col).trans ?_
      show (outsAt2 V c t (Nat.lt_of_succ_lt ht) : FVec Ideal S1x8192x256 .f32) (ix3 0 n col) + blockAdd V c (t + 1) n col = _
      rw [running c n col t (Nat.lt_of_succ_lt ht), show (t + 1) / 256 * 256 = t / 256 * 256 from by omega,
        Finset.sum_Ico_succ_top (by omega : t / 256 * 256 ≤ t + 1)]

/-- The whole table: entry (half, n, col) is the half's sum over its 256 blocks. -/
private abbrev Gtab (c : Dev nD) : S2x8192x256.Idx → EReal :=
  fun i => Cert.Spec.K.aggT (sPof V c) (ATof V c) (Gof V c) (i 0) (i 1) (i 2)

/-- A half's last point writes back the half's block of the whole table. -/
private theorem flushed_eq (c : Dev nD) (t : Fin cfg2.N) (hf : (cfg2.win 3).flush t = true) :
    (dat2 (F := Ideal) V c).flushed 3 t = ((cfg2.win 3).blk t).view.read (Elt Ideal) (Gtab V c) := by
  have h255 : t.val % 256 = 255 := (flush2_3 t).mp hf
  have hN := lt512 t
  obtain ⟨-, -, -, -, -, -, f0, f1, f2⟩ := idx_facts t
  show (cfg2.win 3).cut (grid2.coords t) ((dat2 (F := Ideal) V c).after 3 t) = _
  rw [after2_3]
  refine funext fun (j : S1x8192x256.Idx) => ?_
  obtain ⟨z, n, col, rfl⟩ : ∃ (z : Fin 1) (n : Fin 8192) (col : Fin 256), j = ix3 z n col := ⟨j 0, j 1, j 2, eq_ix3 j⟩
  obtain rfl : z = 0 := Fin.ext (by omega)
  have e0 : ((cfg2.win 3).blk t).view.emb (ix3 0 n col) = ix3 (halfOf t) n col := funext fun a => Fin.ext (by
    match a with
    | ⟨0, _⟩ => show win2_3.index t (0 : Fin 3) * 1 + 1 * 0 = t.val / 256; rw [f0]; omega
    | ⟨1, _⟩ => show win2_3.index t (1 : Fin 3) * 8192 + 1 * n.val = n.val; rw [f1]; omega
    | ⟨2, _⟩ => show win2_3.index t (2 : Fin 3) * 256 + 1 * col.val = col.val; rw [f2]; omega)
  show (outsAt2 V c t.val t.isLt : FVec Ideal S1x8192x256 .f32) (ix3 0 n col)
    = Gtab V c (((cfg2.win 3).blk t).view.emb (ix3 0 n col))
  rw [e0, running V c n col t.val t.isLt]
  show _ = ∑ i : Fin 256, Cert.Spec.K.contribT (sPof V c) (ATof V c) (Gof V c) (halfOf t) i n col
  rw [show t.val + 1 = t.val / 256 * 256 + 256 from by omega, Finset.sum_Ico_eq_sum_range, Nat.add_sub_cancel_left,
    Finset.sum_range]
  refine Finset.sum_congr rfl fun i _ => ?_
  have hi := i.isLt
  unfold blockAdd
  rw [dif_pos (by omega)]
  congr 1
  · exact Fin.ext (by show (t.val / 256 * 256 + i.val) / 256 = t.val / 256; omega)
  · exact Fin.ext (by show (t.val / 256 * 256 + i.val) % 256 = i.val; omega)

/-- Every entry of the table is in the block some half's last point writes back. -/
private theorem covered (i : S2x8192x256.Idx) :
    ∃ t : Fin cfg2.N, (cfg2.win 3).flush t = true ∧ i ∈ ((cfg2.win 3).blk t).view.set := by
  have hN : cfg2.N = 512 := N_2
  have h0 : (i 0).val < 2 := (i 0).isLt
  have h1 : (i 1).val < 8192 := (i 1).isLt
  have h2 : (i 2).val < 256 := (i 2).isLt
  let t : Fin cfg2.N := ⟨(i 0).val * 256 + 255, by omega⟩
  have htv : t.val = (i 0).val * 256 + 255 := rfl
  obtain ⟨-, -, -, -, -, -, f0, f1, f2⟩ := idx_facts t
  refine ⟨t, (flush2_3 t).mpr (by rw [htv]; omega), ?_⟩
  show i ∈ ((View.whole main_v39).slice (win2_3.rect t)).set
  rw [View.set_slice_whole, Rect.mem_set_unit]
  intro a
  match a with
  | ⟨0, _⟩ =>
    show win2_3.index t (0 : Fin 3) * 1 ≤ (i 0).val ∧ (i 0).val < win2_3.index t (0 : Fin 3) * 1 + 1
    rw [f0, htv]; omega
  | ⟨1, _⟩ =>
    show win2_3.index t (1 : Fin 3) * 8192 ≤ (i 1).val ∧ (i 1).val < win2_3.index t (1 : Fin 3) * 8192 + 8192
    rw [f1]; omega
  | ⟨2, _⟩ =>
    show win2_3.index t (2 : Fin 3) * 256 ≤ (i 2).val ∧ (i 2).val < win2_3.index t (2 : Fin 3) * 256 + 256
    rw [f2]; omega

end Table

end Reg2

/-- Entry (half, n, col) of the result array: the sum over the half's 256 blocks of what each adds to node `n`. -/
theorem reg2_out3 (c : Dev nD) :
    ((dat2 (F := Ideal) V c).arrAt 3 cfg2.N : S2x8192x256.Idx → EReal)
      = fun i => Cert.Spec.K.aggT (fun e => (V c main_v20 (ix2 e 0)).toNat) (fun e hd => V c main_v38 (ix2 e hd))
          (fun e k => V c main_v22_1 (ix2 e k)) (i 0) (i 1) (i 2) :=
  (dat2 (F := Ideal) V c).arrAt_eq_of_cover 3 (Reg2.Gtab V c) (Reg2.flushed_eq V c) Reg2.covered

end Cert.KernelIdeal.Val

end
-- ==== Proof.KHostA.lean ====
/-
  The kernel program's first two host stretches, read as values: the block-diagonal weight tables the launches are
  handed (two concatenations along columns, one along rows, each), and the padded edge columns.
-/
import proofs.«401063_j42442866819268_2_alg».proof.Proof.Gen.KernelIdeal.Frame
import proofs.«401063_j42442866819268_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.KernelVsHost
set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (Wa : Valuation τ sig (Elt Ideal))

/-! ## Reading a concatenation, a zero table and a table at an index -/

section Read
variable {α : Type}

/-- Two tables stacked by rows, read in the upper one. -/
private theorem catR_left {m₁ m₂ M n : ℕ} (x₁ : (⟨2, ![m₁, n]⟩ : Shape).Idx → α) (x₂ : (⟨2, ![m₂, n]⟩ : Shape).Idx → α)
    (h : Shape.Concatenates [(⟨2, ![m₁, n]⟩ : Shape), ⟨2, ![m₂, n]⟩] ⟨2, ![M, n]⟩ 0) (r : Fin M) (c : Fin n)
    (hr : r.val < m₁) :
    concatenate ⟨2, ![M, n]⟩ 0 [⟨⟨2, ![m₁, n]⟩, x₁⟩, ⟨⟨2, ![m₂, n]⟩, x₂⟩] h (ix2 r c) = x₁ (ix2 ⟨r.val, hr⟩ c) :=
  concatenate_pair_apply_left (t := ⟨2, ![M, n]⟩) (s₁ := ⟨2, ![m₁, n]⟩) (s₂ := ⟨2, ![m₂, n]⟩) 0 x₁ x₂ h (ix2 r c) rfl
    (ix2 (⟨r.val, hr⟩ : Fin m₁) c) (fun b => match b with | ⟨0, _⟩ => rfl | ⟨1, _⟩ => rfl)

/-- Two tables stacked by rows, read in the lower one: the row less the upper table's height. -/
private theorem catR_right {m₁ m₂ M n : ℕ} (x₁ : (⟨2, ![m₁, n]⟩ : Shape).Idx → α) (x₂ : (⟨2, ![m₂, n]⟩ : Shape).Idx → α)
    (h : Shape.Concatenates [(⟨2, ![m₁, n]⟩ : Shape), ⟨2, ![m₂, n]⟩] ⟨2, ![M, n]⟩ 0) (r : Fin M) (c : Fin n)
    (hr : m₁ ≤ r.val) (h2 : r.val - m₁ < m₂) :
    concatenate ⟨2, ![M, n]⟩ 0 [⟨⟨2, ![m₁, n]⟩, x₁⟩, ⟨⟨2, ![m₂, n]⟩, x₂⟩] h (ix2 r c) = x₂ (ix2 ⟨r.val - m₁, h2⟩ c) :=
  concatenate_pair_apply_right (t := ⟨2, ![M, n]⟩) (s₁ := ⟨2, ![m₁, n]⟩) (s₂ := ⟨2, ![m₂, n]⟩) 0 x₁ x₂ h (ix2 r c) rfl rfl
    (ix2 (⟨r.val - m₁, h2⟩ : Fin m₂) c)
    (fun b hb => match b, hb with | ⟨0, _⟩, hb => absurd rfl hb | ⟨1, _⟩, _ => rfl)
    (by show (r.val - m₁) + m₁ = r.val; omega)

/-- Two tables side by side, read in the left one. -/
private theorem catC_left {m n₁ n₂ N : ℕ} (x₁ : (⟨2, ![m, n₁]⟩ : Shape).Idx → α) (x₂ : (⟨2, ![m, n₂]⟩ : Shape).Idx → α)
    (h : Shape.Concatenates [(⟨2, ![m, n₁]⟩ : Shape), ⟨2, ![m, n₂]⟩] ⟨2, ![m, N]⟩ 1) (r : Fin m) (c : Fin N)
    (hc : c.val < n₁) :
    concatenate ⟨2, ![m, N]⟩ 1 [⟨⟨2, ![m, n₁]⟩, x₁⟩, ⟨⟨2, ![m, n₂]⟩, x₂⟩] h (ix2 r c) = x₁ (ix2 r ⟨c.val, hc⟩) :=
  concatenate_pair_apply_left (t := ⟨2, ![m, N]⟩) (s₁ := ⟨2, ![m, n₁]⟩) (s₂ := ⟨2, ![m, n₂]⟩) 1 x₁ x₂ h (ix2 r c) rfl
    (ix2 r (⟨c.val, hc⟩ : Fin n₁)) (fun b => match b with | ⟨0, _⟩ => rfl | ⟨1, _⟩ => rfl)

/-- Two tables side by side, read in the right one: the column less the left table's width. -/
private theorem catC_right {m n₁ n₂ N : ℕ} (x₁ : (⟨2, ![m, n₁]⟩ : Shape).Idx → α) (x₂ : (⟨2, ![m, n₂]⟩ : Shape).Idx → α)
    (h : Shape.Concatenates [(⟨2, ![m, n₁]⟩ : Shape), ⟨2, ![m, n₂]⟩] ⟨2, ![m, N]⟩ 1) (r : Fin m) (c : Fin N)
    (hc : n₁ ≤ c.val) (h2 : c.val - n₁ < n₂) :
    concatenate ⟨2, ![m, N]⟩ 1 [⟨⟨2, ![m, n₁]⟩, x₁⟩, ⟨⟨2, ![m, n₂]⟩, x₂⟩] h (ix2 r c) = x₂ (ix2 r ⟨c.val - n₁, h2⟩) :=
  concatenate_pair_apply_right (t := ⟨2, ![m, N]⟩) (s₁ := ⟨2, ![m, n₁]⟩) (s₂ := ⟨2, ![m, n₂]⟩) 1 x₁ x₂ h (ix2 r c) rfl rfl
    (ix2 r (⟨c.val - n₁, h2⟩ : Fin n₂))
    (fun b hb => match b, hb with | ⟨0, _⟩, _ => rfl | ⟨1, _⟩, hb => absurd rfl hb)
    (by show (c.val - n₁) + n₁ = c.val; omega)

/-- A rectangle cut out of a table, read at an index: the table at the index shifted by the offsets. -/
private theorem slice_at {M N m n : ℕ} (o₀ o₁ : ℕ) (x : (⟨2, ![M, N]⟩ : Shape).Idx → α)
    (h : (⟨2, ![M, N]⟩ : Shape).Slices ![o₀, o₁] ⟨2, ![m, n]⟩) (r : Fin m) (c : Fin n) (hr : o₀ + r.val < M)
    (hc : o₁ + c.val < N) :
    extractStridedSlice ⟨2, ![m, n]⟩ ![o₀, o₁] x h (ix2 r c) = x (ix2 ⟨o₀ + r.val, hr⟩ ⟨o₁ + c.val, hc⟩) :=
  extractStridedSlice_apply _ x h (ix2 r c) (ix2 (⟨o₀ + r.val, hr⟩ : Fin M) (⟨o₁ + c.val, hc⟩ : Fin N))
    (fun a => match a with | ⟨0, _⟩ => rfl | ⟨1, _⟩ => rfl)

/-- A table read at two indices with equal coordinates. -/
private theorem tab_congr {n₀ n₁ : ℕ} (A : (⟨2, ![n₀, n₁]⟩ : Shape).Idx → α) {a a' : Fin n₀} {c c' : Fin n₁}
    (ha : a.val = a'.val) (hc : c.val = c'.val) : A (ix2 a c) = A (ix2 a' c') := by
  have ha' : a = a' := Fin.ext ha
  have hc' : c = c' := Fin.ext hc
  subst ha' hc'
  rfl

end Read

/-- The zero word broadcast to a table is zero at every index. -/
private theorem bcast_zero {t : Shape} (h : S_.BroadcastsInDim t (![] : Fin 0 → Fin t.rank)) (j : t.Idx) :
    broadcastInDim t ![] h (constant (F := Ideal) S_ .f32 0x00000000#32) j = (0 : EReal) := by
  refine (broadcastInDim_apply _ h _ j ix0 (fun a => a.elim0)).trans ?_
  exact Ideal.ofBits_zero_f32

/-- The first host stretch builds the 256 × 128 table with `A1`'s top half twice on its diagonal. -/
theorem stretch0_v5 :
    (StableHlo.after (hostOps0 (F := Ideal)) Wa (Proc.devRef .tc main_v5) : S256x128.Idx → EReal)
      = fun i => Cert.Spec.K.WsB (Wa (Proc.devRef .tc main_arg4)) (i 0) (i 1) := by
  after_results
  funext i
  obtain ⟨r, c, rfl⟩ : ∃ (r : Fin 256) (c : Fin 128), i = ix2 r c := ⟨i 0, i 1, eq_ix2 i⟩
  show _ = Cert.Spec.K.WsB (Wa (Proc.devRef .tc main_arg4)) r c
  have hrl := r.isLt
  have hcl := c.isLt
  unfold Cert.Spec.K.WsB
  by_cases hr : r.val < 128
  · refine (catR_left _ _ _ r c hr).trans ?_
    by_cases hc : c.val < 64
    · rw [dif_pos hr, dif_pos hc]
      refine (catC_left _ _ _ _ c hc).trans ?_
      refine (slice_at 0 0 _ _ _ _ (by omega) (by omega)).trans ?_
      exact tab_congr _ (by show 0 + r.val = r.val; omega) (by show 0 + c.val = c.val; omega)
    · rw [dif_pos hr, dif_neg hc]
      refine (catC_right _ _ _ _ c (by omega) (by omega)).trans ?_
      exact bcast_zero _ _
  · refine (catR_right _ _ _ r c (by omega) (by omega)).trans ?_
    by_cases hc : c.val < 64
    · rw [dif_neg hr, dif_pos hc]
      refine (catC_left _ _ _ _ c hc).trans ?_
      exact bcast_zero _ _
    · rw [dif_neg hr, dif_neg hc]
      refine (catC_right _ _ _ _ c (by omega) (by omega)).trans ?_
      refine (slice_at 0 0 _ _ _ _ (by omega) (by omega)).trans ?_
      exact tab_congr _ (by show 0 + (r.val - 128) = r.val - 128; omega) (by show 0 + (c.val - 64) = c.val - 64; omega)

/-- … and the one with `A1`'s bottom half twice on its diagonal. -/
theorem stretch0_v8 :
    (StableHlo.after (hostOps0 (F := Ideal)) Wa (Proc.devRef .tc main_v8) : S256x128.Idx → EReal)
      = fun i => Cert.Spec.K.WdB (Wa (Proc.devRef .tc main_arg4)) (i 0) (i 1) := by
  after_results
  funext i
  obtain ⟨r, c, rfl⟩ : ∃ (r : Fin 256) (c : Fin 128), i = ix2 r c := ⟨i 0, i 1, eq_ix2 i⟩
  show _ = Cert.Spec.K.WdB (Wa (Proc.devRef .tc main_arg4)) r c
  have hrl := r.isLt
  have hcl := c.isLt
  unfold Cert.Spec.K.WdB
  by_cases hr : r.val < 128
  · refine (catR_left _ _ _ r c hr).trans ?_
    by_cases hc : c.val < 64
    · rw [dif_pos hr, dif_pos hc]
      refine (catC_left _ _ _ _ c hc).trans ?_
      refine (slice_at 128 0 _ _ _ _ (by omega) (by omega)).trans ?_
      exact tab_congr _ rfl (by show 0 + c.val = c.val; omega)
    · rw [dif_pos hr, dif_neg hc]
      refine (catC_right _ _ _ _ c (by omega) (by omega)).trans ?_
      exact bcast_zero _ _
  · refine (catR_right _ _ _ r c (by omega) (by omega)).trans ?_
    by_cases hc : c.val < 64
    · rw [dif_neg hr, dif_pos hc]
      refine (catC_left _ _ _ _ c hc).trans ?_
      exact bcast_zero _ _
    · rw [dif_neg hr, dif_neg hc]
      refine (catC_right _ _ _ _ c (by omega) (by omega)).trans ?_
      refine (slice_at 128 0 _ _ _ _ (by omega) (by omega)).trans ?_
      exact tab_congr _ (by show 128 + (r.val - 128) = r.val; omega) (by show 0 + (c.val - 64) = c.val - 64; omega)

/-- … and the 128 × 2 table with `A2` twice on its diagonal. -/
theorem stretch0_v12 :
    (StableHlo.after (hostOps0 (F := Ideal)) Wa (Proc.devRef .tc main_v12) : S128x2.Idx → EReal)
      = fun i => Cert.Spec.K.a2B (Wa (Proc.devRef .tc main_arg5)) (i 0) (i 1) := by
  after_results
  funext i
  obtain ⟨c, hd, rfl⟩ : ∃ (c : Fin 128) (hd : Fin 2), i = ix2 c hd := ⟨i 0, i 1, eq_ix2 i⟩
  show _ = Cert.Spec.K.a2B (Wa (Proc.devRef .tc main_arg5)) c hd
  have hcl := c.isLt
  have hdl := hd.isLt
  unfold Cert.Spec.K.a2B
  by_cases hc : c.val < 64
  · refine (catR_left _ _ _ c hd hc).trans ?_
    by_cases h0 : hd.val = 0
    · rw [dif_pos hc, if_pos h0]
      refine (catC_left _ _ _ _ hd (by omega)).trans ?_
      exact tab_congr _ rfl (by show hd.val = 0; omega)
    · rw [dif_pos hc, if_neg h0]
      refine (catC_right _ _ _ _ hd (by omega) (by omega)).trans ?_
      exact bcast_zero _ _
  · refine (catR_right _ _ _ c hd (by omega) (by omega)).trans ?_
    by_cases h0 : hd.val = 0
    · rw [dif_neg hc, if_pos h0]
      refine (catC_left _ _ _ _ hd (by omega)).trans ?_
      exact bcast_zero _ _
    · rw [dif_neg hc, if_neg h0]
      refine (catC_right _ _ _ _ hd (by omega) (by omega)).trans ?_
      exact tab_congr _ rfl (by show hd.val - 1 = 0; omega)

/-- The second host stretch takes row 0 of the edge list, pads it with the word 8192 to 262144 slots and lays it out
    as a column. -/
theorem stretch1_v20 :
    (StableHlo.after (hostOps1_4 (F := Ideal)) (StableHlo.after hostOps1_3 (StableHlo.after hostOps1_2
        (StableHlo.after hostOps1_1 (StableHlo.after hostOps1 Wa)))) (Proc.devRef .tc main_v20) : S262144x1.Idx → BitVec 32)
      = fun i => if h : (i 0).val < 261657 then
          Wa (Proc.devRef .tc main_arg6) (ix2 (0 : Fin 2) (⟨(i 0).val, h⟩ : Fin 261657)) else 8192#32 := by
  after_results
  funext i
  obtain ⟨r, z, rfl⟩ : ∃ (r : Fin 262144) (z : Fin 1), i = ix2 r z := ⟨i 0, i 1, eq_ix2 i⟩
  have hrl := r.isLt
  have hzl := z.isLt
  show (shapeCast S262144x1
      (pad S262144 ![0] ![487] ![0]
        (shapeCast S261657
          (extractStridedSlice S1x261657 ![0, 0] (Wa (Proc.devRef .tc main_arg6)) slices_S2x261657_S1x261657_0_0)
          shapeCasts_S1x261657_S261657)
        (constantI S_ 32 8192#32) pads_S261657_S262144_04870 h_S_)
      shapeCasts_S262144_S262144x1 (ix2 r z) : BitVec 32)
    = if h : r.val < 261657 then
        Wa (Proc.devRef .tc main_arg6) (ix2 (0 : Fin 2) (⟨r.val, h⟩ : Fin 261657)) else 8192#32
  -- the column's entry `r` is the padded vector's entry `r`
  refine (shapeCast_apply _ shapeCasts_S262144_S262144x1 (ix2 r z) (ix1 r) (by
    rw [Shape.rowMajor_val_one, Shape.rowMajor_val_two]
    show r.val = r.val * 1 + z.val
    omega)).trans ?_
  by_cases h : r.val < 261657
  · rw [dif_pos h]
    refine (pad_apply_of_inside _ _ _ _ _ pads_S261657_S262144_04870 h_S_ (ix1 r) (ix1 (⟨r.val, h⟩ : Fin 261657))
      (fun a => match a with | ⟨0, _⟩ => by show r.val = 0 + r.val * (0 + 1); omega)).trans ?_
    refine (shapeCast_apply _ shapeCasts_S1x261657_S261657 (ix1 (⟨r.val, h⟩ : Fin 261657))
      (ix2 (0 : Fin 1) (⟨r.val, h⟩ : Fin 261657)) (by
        rw [Shape.rowMajor_val_one, Shape.rowMajor_val_two]
        show (0 : ℕ) * 261657 + r.val = r.val
        omega)).trans ?_
    exact extractStridedSlice_apply _ _ slices_S2x261657_S1x261657_0_0 (ix2 (0 : Fin 1) (⟨r.val, h⟩ : Fin 261657))
      (ix2 (0 : Fin 2) (⟨r.val, h⟩ : Fin 261657))
      (fun a => match a with
        | ⟨0, _⟩ => by show (0 : ℕ) = 0 + 0; omega
        | ⟨1, _⟩ => by show r.val = 0 + r.val; omega)
  · rw [dif_neg h]
    refine (pad_apply_of_not_inside _ _ _ _ _ pads_S261657_S262144_04870 h_S_ (ix1 r) (0 : Fin 1) (by
      show ¬ (0 ≤ r.val ∧ (r.val - 0) % (0 + 1) = 0 ∧ (r.val - 0) / (0 + 1) < 261657)
      omega)).trans ?_
    rfl

/-- … and row 1 likewise. -/
theorem stretch1_v21 :
    (StableHlo.after (hostOps1_4 (F := Ideal)) (StableHlo.after hostOps1_3 (StableHlo.after hostOps1_2
        (StableHlo.after hostOps1_1 (StableHlo.after hostOps1 Wa)))) (Proc.devRef .tc main_v21) : S262144x1.Idx → BitVec 32)
      = fun i => if h : (i 0).val < 261657 then
          Wa (Proc.devRef .tc main_arg6) (ix2 (1 : Fin 2) (⟨(i 0).val, h⟩ : Fin 261657)) else 8192#32 := by
  after_results
  funext i
  obtain ⟨r, z, rfl⟩ : ∃ (r : Fin 262144) (z : Fin 1), i = ix2 r z := ⟨i 0, i 1, eq_ix2 i⟩
  have hrl := r.isLt
  have hzl := z.isLt
  show (shapeCast S262144x1
      (pad S262144 ![0] ![487] ![0]
        (shapeCast S261657
          (extractStridedSlice S1x261657 ![1, 0] (Wa (Proc.devRef .tc main_arg6)) slices_S2x261657_S1x261657_1_0)
          shapeCasts_S1x261657_S261657)
        (constantI S_ 32 8192#32) pads_S261657_S262144_04870 h_S_)
      shapeCasts_S262144_S262144x1 (ix2 r z) : BitVec 32)
    = if h : r.val < 261657 then
        Wa (Proc.devRef .tc main_arg6) (ix2 (1 : Fin 2) (⟨r.val, h⟩ : Fin 261657)) else 8192#32
  -- the column's entry `r` is the padded vector's entry `r`
  refine (shapeCast_apply _ shapeCasts_S262144_S262144x1 (ix2 r z) (ix1 r) (by
    rw [Shape.rowMajor_val_one, Shape.rowMajor_val_two]
    show r.val = r.val * 1 + z.val
    omega)).trans ?_
  by_cases h : r.val < 261657
  · rw [dif_pos h]
    refine (pad_apply_of_inside _ _ _ _ _ pads_S261657_S262144_04870 h_S_ (ix1 r) (ix1 (⟨r.val, h⟩ : Fin 261657))
      (fun a => match a with | ⟨0, _⟩ => by show r.val = 0 + r.val * (0 + 1); omega)).trans ?_
    refine (shapeCast_apply _ shapeCasts_S1x261657_S261657 (ix1 (⟨r.val, h⟩ : Fin 261657))
      (ix2 (0 : Fin 1) (⟨r.val, h⟩ : Fin 261657)) (by
        rw [Shape.rowMajor_val_one, Shape.rowMajor_val_two]
        show (0 : ℕ) * 261657 + r.val = r.val
        omega)).trans ?_
    exact extractStridedSlice_apply _ _ slices_S2x261657_S1x261657_1_0 (ix2 (0 : Fin 1) (⟨r.val, h⟩ : Fin 261657))
      (ix2 (1 : Fin 2) (⟨r.val, h⟩ : Fin 261657))
      (fun a => match a with
        | ⟨0, _⟩ => by show (1 : ℕ) = 1 + 0; omega
        | ⟨1, _⟩ => by show r.val = 0 + r.val; omega)
  · rw [dif_neg h]
    refine (pad_apply_of_not_inside _ _ _ _ _ pads_S261657_S262144_04870 h_S_ (ix1 r) (0 : Fin 1) (by
      show ¬ (0 ≤ r.val ∧ (r.val - 0) % (0 + 1) = 0 ∧ (r.val - 0) / (0 + 1) < 261657)
      omega)).trans ?_
    rfl

end Cert.KernelIdeal.Val

end
-- ==== Proof.KHostB.lean ====
/-
  The kernel program's last two host stretches, read as values: the masked softmax over the padded slot axis between
  the second and third launches, and the sum of halves and heads with the division by two after the third.
-/
import proofs.«401063_j42442866819268_2_alg».proof.Proof.Gen.KernelIdeal.Frame
import proofs.«401063_j42442866819268_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.KernelVsHost
import Idealize.ShloMosaic.Lib.IdealHost
import Idealize.ShloMosaic.Lib.StableHlo.Predicate
set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (Wa : Valuation τ sig (Elt Ideal))

/-- The f32 word of minus infinity is the bottom of the extended reals. -/
private theorem ofBits_neg_inf_f32 : Ideal.ofBits .f32 0xFF800000#32 = ⊥ := by simp [Ideal.ofBits, Ideal.ieee]

/-- The mask, read at slot `e` of either column: the bit of the signed comparison of the word `e` with the word 261657. -/
private theorem mask_apply (e : Fin 262144) (hd : Fin 2) :
    broadcastInDim S262144x2 ![0, 1] bcast_S262144x1_S262144x2_0_1
        (broadcastInDim S262144x1 ![0] bcast_S262144_S262144x1_0
          (cmpi CmpIPredicate.slt (iotaInDim S262144 32 0)
            (broadcastInDim S262144 ![] bcast_S_S262144 (constantI S_ 32 261657#32)))) (ix2 e hd)
      = IntOp.cmpi .slt (BitVec.ofNat 32 e.val) (BitVec.ofNat 32 261657) := by
  refine (broadcastInDim_apply _ _ _ (ix2 e hd) (ix2 e (0 : Fin 1)) ?_).trans ?_
  · intro a
    match a with
    | ⟨0, _⟩ => exact (if_neg (show ¬ (262144 : ℕ) = 1 by decide)).symm
    | ⟨1, _⟩ => exact (if_pos rfl).symm
  refine (broadcastInDim_apply _ _ _ (ix2 e (0 : Fin 1)) (ix1 e) ?_).trans ?_
  · intro a
    match a with
    | ⟨0, _⟩ => exact (if_neg (show ¬ (262144 : ℕ) = 1 by decide)).symm
  rfl

/-- That bit is set exactly on the slots before the 261657th. -/
private theorem mask_bit (e : Fin 262144) :
    IntOp.cmpi .slt (BitVec.ofNat 32 e.val) (BitVec.ofNat 32 261657) = 1#1 ↔ e.val < 261657 := by
  have he := e.isLt
  unfold IntOp.cmpi
  exact StableHlo.Predicate.slt_ofNat_iff e.val 261657 (by omega) (by omega)

/-- The second host stretch's masked scores: the score on a slot before the 261657th, minus infinity after. -/
private theorem masked_eq :
    (StableHlo.after (hostOps2_1 (F := Ideal)) (StableHlo.after hostOps2 Wa)
        (Proc.devRef .tc main_v27) : S262144x2.Idx → EReal)
      = fun i => Cert.Spec.K.maskedT (fun e hd => Wa (Proc.devRef .tc main_v22_0) (ix2 e hd)) (i 0) (i 1) := by
  funext i
  obtain ⟨e, hd, rfl⟩ : ∃ (e : Fin 262144) (hd : Fin 2), i = ix2 e hd := ⟨i 0, i 1, eq_ix2 i⟩
  show StableHlo.after (hostOps2_1 (F := Ideal)) (StableHlo.after hostOps2 Wa) (Proc.devRef .tc main_v27) (ix2 e hd) = _
  after_results
  simp only [StableHlo.TRef.toBuf, StableHlo.TRef.ofBuf, cast_eq, id]
  refine (select_apply _ _ _ _).trans ?_
  rw [mask_apply]
  show _ = Cert.Spec.K.maskedT (fun e hd => Wa (Proc.devRef .tc main_v22_0) (ix2 e hd)) e hd
  unfold Cert.Spec.K.maskedT
  by_cases he : e.val < 261657
  · rw [if_pos he, (mask_bit e).mpr he, select_one]
  · rw [if_neg he, eq_zero_of_ne_one (fun h => he ((mask_bit e).mp h)), select_zero]
    exact ofBits_neg_inf_f32

/-- The largest value of column `hd` of a 262144 × 2 array (the fold of `max` from minus infinity). -/
private def colMax (M : S262144x2.Idx → EReal) (hd : Fin 2) : EReal :=
  (Finset.univ : Finset (Fin 262144)).fold max ⊥ (fun k => M (ix2 k hd))

/-- A vector of 2 laid along the second axis of the 262144 × 2 rectangle reads, at (e, hd), its entry `hd`. -/
private theorem bcast_head_apply (v : S2.Idx → EReal) (e : Fin 262144) (hd : Fin 2) :
    broadcastInDim S262144x2 ![0, 1] bcast_S1x2_S262144x2_0_1 (broadcastInDim S1x2 ![1] bcast_S2_S1x2_1 v) (ix2 e hd)
      = v (ix1 hd) := by
  refine (broadcastInDim_oneRow_apply _ _ e hd).trans ?_
  refine broadcastInDim_apply _ _ v (ix2 (0 : Fin 1) hd) (ix1 hd) ?_
  intro a
  match a with
  | ⟨0, _⟩ => exact (if_neg (show ¬ (2 : ℕ) = 1 by decide)).symm

/-- The reduced index `hd` with slot `k` put back on the slot axis is (k, hd). -/
private theorem lift_slot (h : S262144x2.Reduces [0] S2) (hd : Fin 2) (k : Fin 262144) :
    h.lift (ix1 hd) k = ix2 k hd := by
  funext c; apply Fin.ext
  match c with
  | ⟨0, _⟩ => rfl
  | ⟨1, _⟩ => rfl

/-- The reduce with a maximum body from minus infinity along the slot axis, at column `hd`: that column's maximum. -/
private theorem reduceMax_apply (M : S262144x2.Idx → EReal) (hd : Fin 2) :
    Host.reduce (FloatOps.maximumf (F := Ideal) (φ := .f32)) (M : FVec Ideal S262144x2 .f32)
        (constant (F := Ideal) S_ .f32 0xFF800000#32) reducesTo_S262144x2_S2_d0 h_S_ (ix1 hd) = colMax M hd := by
  have h : S262144x2.Reduces [0] S2 := by decide
  rw [Host.reduce_eq_fold_single (FloatOps.maximumf (F := Ideal) (φ := .f32)) _ _ reducesTo_S262144x2_S2_d0 h h_S_]
  have hf : ((M : FVec Ideal S262144x2 .f32) ∘ h.lift (ix1 hd)) = fun k : Fin 262144 => M (ix2 k hd) :=
    funext fun k => congrArg M (lift_slot h hd k)
  show Finset.fold max (Ideal.ofBits .f32 0xFF800000#32) ((M : FVec Ideal S262144x2 .f32) ∘ h.lift (ix1 hd))
      (Finset.univ : Finset (Fin 262144)) = _
  rw [hf, ofBits_neg_inf_f32]
  rfl

/-- The array the program subtracts: the column maxima, laid along the slots. -/
private def mxArr (M : S262144x2.Idx → EReal) : S262144x2.Idx → EReal :=
  broadcastInDim S262144x2 ![0, 1] bcast_S1x2_S262144x2_0_1
    (broadcastInDim S1x2 ![1] bcast_S2_S1x2_1
      (maximumf (F := Ideal) (φ := .f32) (broadcastInDim S2 ![] bcast_S_S2 (constant (F := Ideal) S_ .f32 0xFF800000#32))
        (Host.reduce (FloatOps.maximumf (F := Ideal) (φ := .f32)) (M : FVec Ideal S262144x2 .f32)
          (constant (F := Ideal) S_ .f32 0xFF800000#32) reducesTo_S262144x2_S2_d0 h_S_)))

/-- It reads, at (e, hd), the maximum of column `hd`: the maximum against minus infinity changes nothing. -/
private theorem mxArr_apply (M : S262144x2.Idx → EReal) (e : Fin 262144) (hd : Fin 2) :
    mxArr M (ix2 e hd) = colMax M hd := by
  have hb : broadcastInDim S2 ![] bcast_S_S2 (constant (F := Ideal) S_ .f32 0xFF800000#32) (ix1 hd) = (⊥ : EReal) :=
    ofBits_neg_inf_f32
  unfold mxArr
  refine (bcast_head_apply _ e hd).trans ?_
  refine (maximumf_apply _ _ _).trans ?_
  rw [reduceMax_apply, hb]
  exact max_eq_right bot_le

/-- The exponentials of the shifted entries. -/
private def exArr (M : S262144x2.Idx → EReal) : S262144x2.Idx → EReal :=
  Host.exp (F := Ideal) (φ := .f32) (subf (F := Ideal) (φ := .f32) (M : FVec Ideal S262144x2 .f32) (mxArr M))

private theorem exArr_apply (M : S262144x2.Idx → EReal) (e : Fin 262144) (hd : Fin 2) :
    exArr M (ix2 e hd) = Ideal.exp (M (ix2 e hd) - colMax M hd) := by
  show Ideal.exp (M (ix2 e hd) - mxArr M (ix2 e hd)) = _
  rw [mxArr_apply]

/-- The array the program divides by: the column sums of the exponentials, laid along the slots. -/
private def denArr (M : S262144x2.Idx → EReal) : S262144x2.Idx → EReal :=
  broadcastInDim S262144x2 ![0, 1] bcast_S1x2_S262144x2_0_1
    (broadcastInDim S1x2 ![1] bcast_S2_S1x2_1
      (Host.reduceAdd (F := Ideal) (φ := .f32) (exArr M : FVec Ideal S262144x2 .f32) (constant (F := Ideal) S_ .f32 0x00000000#32)
        reducesTo_S262144x2_S2_d0 h_S_))

/-- It reads, at (e, hd), the sum over the slots of column `hd`'s exponentials: the sum starts from the word of 0. -/
private theorem denArr_apply (M : S262144x2.Idx → EReal) (e : Fin 262144) (hd : Fin 2) :
    denArr M (ix2 e hd) = ∑ k : Fin 262144, Ideal.exp (M (ix2 k hd) - colMax M hd) := by
  have h : S262144x2.Reduces [0] S2 := by decide
  unfold denArr
  refine (bcast_head_apply _ e hd).trans ?_
  refine (hostReduceAdd_apply _ _ _ _ _).trans ?_
  rw [Ideal.hostReduceAdd_single reducesTo_S262144x2_S2_d0 h]
  show Ideal.ofBits .f32 0x00000000#32 + ∑ k : Fin 262144, exArr M (h.lift (ix1 hd) k) = _
  rw [Ideal.ofBits_zero_f32, zero_add]
  exact Finset.sum_congr rfl fun k _ => (congrArg (exArr M) (lift_slot h hd k)).trans (exArr_apply M k hd)

/-- The softmax operations over any contents: at (e, hd) the quotient of the entry's exponential by its column's sum. -/
private theorem softmax_after (V : Valuation τ sig (Elt Ideal)) (e : Fin 262144) (hd : Fin 2) :
    StableHlo.after (hostOps2_2 (F := Ideal)) V (Proc.devRef .tc main_v38) (ix2 e hd)
      = Ideal.div (exArr (V (Proc.devRef .tc main_v27)) (ix2 e hd)) (denArr (V (Proc.devRef .tc main_v27)) (ix2 e hd)) := by
  after_results
  unfold denArr exArr mxArr
  exact hostDivf_apply _ _ _

/-- The third host stretch: the scores of the padding slots set to `-∞`, then the softmax along the slot axis. -/
theorem stretch2_v38 :
    (StableHlo.after (hostOps2_2 (F := Ideal)) (StableHlo.after hostOps2_1 (StableHlo.after hostOps2 Wa))
        (Proc.devRef .tc main_v38) : S262144x2.Idx → EReal)
      = fun i => Cert.Spec.K.attT (fun e hd => Wa (Proc.devRef .tc main_v22_0) (ix2 e hd)) (i 0) (i 1) := by
  funext i
  obtain ⟨e, hd, rfl⟩ : ∃ (e : Fin 262144) (hd : Fin 2), i = ix2 e hd := ⟨i 0, i 1, eq_ix2 i⟩
  refine (softmax_after _ e hd).trans ?_
  rw [masked_eq Wa, exArr_apply, denArr_apply]
  rfl

/-- Columns 0 … 127 of a 8192 × 256 table, read at (n, d): the table at column `d`. -/
private theorem slice_lo (X : S8192x256.Idx → EReal) (n : Fin 8192) (d : Fin 128) :
    extractStridedSlice S8192x128 ![0, 0] X slices_S8192x256_S8192x128_0_0 (ix2 n d) = X (ix2 n (Cert.Spec.lo128 d)) :=
  extractStridedSlice_apply _ X _ _ _ (fun a => match a with
    | ⟨0, _⟩ => by show n.val = 0 + n.val; omega
    | ⟨1, _⟩ => by show d.val = 0 + d.val; omega)

/-- Columns 128 … 255 of a 8192 × 256 table, read at (n, d): the table at column `128 + d`. -/
private theorem slice_hi (X : S8192x256.Idx → EReal) (n : Fin 8192) (d : Fin 128) :
    extractStridedSlice S8192x128 ![0, 128] X slices_S8192x256_S8192x128_0_128 (ix2 n d) = X (ix2 n (Cert.Spec.hi128 d)) :=
  extractStridedSlice_apply _ X _ _ _ (fun a => match a with
    | ⟨0, _⟩ => by show n.val = 0 + n.val; omega
    | ⟨1, _⟩ => by show 128 + d.val = 128 + d.val; rfl)

/-- Half 0 of a 2 × 8192 × 256 array laid out as a 8192 × 256 table, read at (n, c): the array at (0, n, c). -/
private theorem half0 (A : S2x8192x256.Idx → EReal) (n : Fin 8192) (c : Fin 256) :
    shapeCast S8192x256 (extractStridedSlice S1x8192x256 ![0, 0, 0] A slices_S2x8192x256_S1x8192x256_0_0_0)
        shapeCasts_S1x8192x256_S8192x256 (ix2 n c) = A (ix3 (0 : Fin 2) n c) := by
  refine (shapeCast_apply _ _ (ix2 n c) (ix3 (0 : Fin 1) n c) ?_).trans ?_
  · rw [Shape.rowMajor_val_three, Shape.rowMajor_val_two]
    show (0 * 8192 + n.val) * 256 + c.val = n.val * 256 + c.val
    omega
  · exact extractStridedSlice_apply _ A _ _ _ (fun a => match a with
      | ⟨0, _⟩ => by show (0 : ℕ) = 0 + 0; rfl
      | ⟨1, _⟩ => by show n.val = 0 + n.val; omega
      | ⟨2, _⟩ => by show c.val = 0 + c.val; omega)

/-- Half 1 likewise: the array at (1, n, c). -/
private theorem half1 (A : S2x8192x256.Idx → EReal) (n : Fin 8192) (c : Fin 256) :
    shapeCast S8192x256 (extractStridedSlice S1x8192x256 ![1, 0, 0] A slices_S2x8192x256_S1x8192x256_1_0_0)
        shapeCasts_S1x8192x256_S8192x256 (ix2 n c) = A (ix3 (1 : Fin 2) n c) := by
  refine (shapeCast_apply _ _ (ix2 n c) (ix3 (0 : Fin 1) n c) ?_).trans ?_
  · rw [Shape.rowMajor_val_three, Shape.rowMajor_val_two]
    show (0 * 8192 + n.val) * 256 + c.val = n.val * 256 + c.val
    omega
  · exact extractStridedSlice_apply _ A _ _ _ (fun a => match a with
      | ⟨0, _⟩ => by show (1 : ℕ) = 1 + 0; rfl
      | ⟨1, _⟩ => by show n.val = 0 + n.val; omega
      | ⟨2, _⟩ => by show c.val = 0 + c.val; omega)

/-- The last host stretch: the two halves added, the two heads' column ranges added, halved. -/
theorem stretch3_v49 :
    (StableHlo.after (hostOps3 (F := Ideal)) Wa (Proc.devRef .tc main_v49) : S8192x128.Idx → EReal)
      = fun i => Cert.Spec.K.outT (fun cc n col => Wa (Proc.devRef .tc main_v39) (ix3 cc n col)) (i 0) (i 1) := by
  funext i
  obtain ⟨n, d, rfl⟩ : ∃ (n : Fin 8192) (d : Fin 128), i = ix2 n d := ⟨i 0, i 1, eq_ix2 i⟩
  show StableHlo.after (hostOps3 (F := Ideal)) Wa (Proc.devRef .tc main_v49) (ix2 n d) = _
  after_results
  unfold Cert.Spec.K.outT
  refine congrArg₂ Ideal.div ?_ ?_
  · refine congrArg₂ (· + ·) ?_ ?_
    · refine (slice_lo _ n d).trans ?_
      exact congrArg₂ (· + ·) (half0 _ n _) (half1 _ n _)
    · refine (slice_hi _ n d).trans ?_
      exact congrArg₂ (· + ·) (half0 _ n _) (half1 _ n _)
  · rfl

end Cert.KernelIdeal.Val

end
-- ==== Proof.KValue.lean ====
/-
  The kernel program's result as one function of its arguments: the three launches' result arrays and the four host
  stretches read in turn, each buffer followed back to the operation that wrote it.
-/
import proofs.«401063_j42442866819268_2_alg».proof.Proof.Gen.KernelIdeal.Frame
import proofs.«401063_j42442866819268_2_alg».proof.Proof.Spec
import proofs.«401063_j42442866819268_2_alg».proof.Proof.KReg0
import proofs.«401063_j42442866819268_2_alg».proof.Proof.KReg1Gh
import proofs.«401063_j42442866819268_2_alg».proof.Proof.KReg1Score
import proofs.«401063_j42442866819268_2_alg».proof.Proof.KReg2
import proofs.«401063_j42442866819268_2_alg».proof.Proof.KHostA
import proofs.«401063_j42442866819268_2_alg».proof.Proof.KHostB
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.KernelVsHost
set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- None of a host stretch's operations writes the buffer: each operation's one written buffer is another one. -/
local macro "unwritten " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Stretches that leave a buffer alone -/

/-- The first stretch leaves a buffer it does not write as launched. -/
private theorem W1_of_unwritten (c : Dev nD) (b : DevRef τ sig)
    (h : ∀ op ∈ (hostOps0 (F := Ideal)), b ∉ op.writes) : W1 m ρ c b = W0 m ρ c b :=
  StableHlo.after_of_forall_not_mem _ _ h

/-- The five stretches between the first and the second launch leave a buffer none of them writes as the first
    launch left it. -/
private theorem W7_of_unwritten (c : Dev nD) (b : DevRef τ sig)
    (h0 : ∀ op ∈ (hostOps1 (F := Ideal)), b ∉ op.writes) (h1 : ∀ op ∈ (hostOps1_1 (F := Ideal)), b ∉ op.writes)
    (h2 : ∀ op ∈ (hostOps1_2 (F := Ideal)), b ∉ op.writes) (h3 : ∀ op ∈ (hostOps1_3 (F := Ideal)), b ∉ op.writes)
    (h4 : ∀ op ∈ (hostOps1_4 (F := Ideal)), b ∉ op.writes) : W7 m ρ c b = W2 m ρ c b :=
  (StableHlo.after_of_forall_not_mem _ _ h4).trans <| (StableHlo.after_of_forall_not_mem _ _ h3).trans <|
    (StableHlo.after_of_forall_not_mem _ _ h2).trans <| (StableHlo.after_of_forall_not_mem _ _ h1).trans <|
    StableHlo.after_of_forall_not_mem _ _ h0

/-- The three stretches between the second and the third launch likewise. -/
private theorem W11_of_unwritten (c : Dev nD) (b : DevRef τ sig)
    (h0 : ∀ op ∈ (hostOps2 (F := Ideal)), b ∉ op.writes) (h1 : ∀ op ∈ (hostOps2_1 (F := Ideal)), b ∉ op.writes)
    (h2 : ∀ op ∈ (hostOps2_2 (F := Ideal)), b ∉ op.writes) : W11 m ρ c b = W8 m ρ c b :=
  (StableHlo.after_of_forall_not_mem _ _ h2).trans <| (StableHlo.after_of_forall_not_mem _ _ h1).trans <|
    StableHlo.after_of_forall_not_mem _ _ h0

/-! ## At the first launch: the arguments as launched, the folded tables built -/

private theorem V1_arg0 (c : Dev nD) : V1 (F := Ideal) m ρ c main_arg0 = m ((c : Thread nD τ).loc main_arg0) :=
  (W1_of_unwritten m ρ c (Proc.devRef .tc main_arg0) (by unwritten hostOps0)).trans rfl
private theorem V1_arg2 (c : Dev nD) : V1 (F := Ideal) m ρ c main_arg2 = m ((c : Thread nD τ).loc main_arg2) :=
  (W1_of_unwritten m ρ c (Proc.devRef .tc main_arg2) (by unwritten hostOps0)).trans rfl
private theorem V1_arg3 (c : Dev nD) : V1 (F := Ideal) m ρ c main_arg3 = m ((c : Thread nD τ).loc main_arg3) :=
  (W1_of_unwritten m ρ c (Proc.devRef .tc main_arg3) (by unwritten hostOps0)).trans rfl
private theorem W1_arg6 (c : Dev nD) :
    W1 (F := Ideal) m ρ c (Proc.devRef .tc main_arg6) = m ((c : Thread nD τ).loc main_arg6) :=
  (W1_of_unwritten m ρ c (Proc.devRef .tc main_arg6) (by unwritten hostOps0)).trans rfl

private theorem V1_v5 (c : Dev nD) : (V1 (F := Ideal) m ρ c main_v5 : S256x128.Idx → EReal)
    = fun i => Cert.Spec.K.WsB (m ((c : Thread nD τ).loc main_arg4)) (i 0) (i 1) :=
  stretch0_v5 (W0 m ρ c)
private theorem W1_v8 (c : Dev nD) : (W1 (F := Ideal) m ρ c (Proc.devRef .tc main_v8) : S256x128.Idx → EReal)
    = fun i => Cert.Spec.K.WdB (m ((c : Thread nD τ).loc main_arg4)) (i 0) (i 1) :=
  stretch0_v8 (W0 m ρ c)
private theorem W1_v12 (c : Dev nD) : (W1 (F := Ideal) m ρ c (Proc.devRef .tc main_v12) : S128x2.Idx → EReal)
    = fun i => Cert.Spec.K.a2B (m ((c : Thread nD τ).loc main_arg5)) (i 0) (i 1) :=
  stretch0_v12 (W0 m ρ c)

/-! ## After the first launch: the projected features and the source projections -/

private theorem W2_v13_0 (c : Dev nD) : (W2 (F := Ideal) m ρ c (Proc.devRef .tc main_v13_0) : S8192x256.Idx → EReal)
    = fun i => Cert.Spec.hv (m ((c : Thread nD τ).loc main_arg0)) (m ((c : Thread nD τ).loc main_arg2)) (m ((c : Thread nD τ).loc main_arg3)) (i 0) (i 1) := by
  refine (W2_arr m ρ c 4).trans ((reg0_out4 (V1 m ρ) c).trans ?_)
  rw [V1_arg0, V1_arg2, V1_arg3]

private theorem W2_v13_1 (c : Dev nD) : (W2 (F := Ideal) m ρ c (Proc.devRef .tc main_v13_1) : S8192x128.Idx → EReal)
    = fun i => Cert.Spec.K.psrc (m ((c : Thread nD τ).loc main_arg0)) (m ((c : Thread nD τ).loc main_arg2)) (m ((c : Thread nD τ).loc main_arg3)) (m ((c : Thread nD τ).loc main_arg4)) (i 0) (i 1) := by
  refine (W2_arr m ρ c 5).trans ((reg0_out5 (V1 m ρ) c).trans ?_)
  rw [V1_arg0, V1_arg2, V1_arg3, V1_v5]
  rfl

private theorem W2_arg6 (c : Dev nD) :
    W2 (F := Ideal) m ρ c (Proc.devRef .tc main_arg6) = m ((c : Thread nD τ).loc main_arg6) :=
  (W2_of_ne m ρ c main_arg6 (by decide)).trans (W1_arg6 m ρ c)
private theorem W2_v8 (c : Dev nD) : (W2 (F := Ideal) m ρ c (Proc.devRef .tc main_v8) : S256x128.Idx → EReal)
    = fun i => Cert.Spec.K.WdB (m ((c : Thread nD τ).loc main_arg4)) (i 0) (i 1) :=
  (W2_of_ne m ρ c main_v8 (by decide)).trans (W1_v8 m ρ c)
private theorem W2_v12 (c : Dev nD) : (W2 (F := Ideal) m ρ c (Proc.devRef .tc main_v12) : S128x2.Idx → EReal)
    = fun i => Cert.Spec.K.a2B (m ((c : Thread nD τ).loc main_arg5)) (i 0) (i 1) :=
  (W2_of_ne m ρ c main_v12 (by decide)).trans (W1_v12 m ρ c)

/-! ## At the second launch -/

private theorem V7_v13_0 (c : Dev nD) : (V7 (F := Ideal) m ρ c main_v13_0 : S8192x256.Idx → EReal)
    = fun i => Cert.Spec.hv (m ((c : Thread nD τ).loc main_arg0)) (m ((c : Thread nD τ).loc main_arg2)) (m ((c : Thread nD τ).loc main_arg3)) (i 0) (i 1) :=
  (W7_of_unwritten m ρ c (Proc.devRef .tc main_v13_0) (by unwritten hostOps1) (by unwritten hostOps1_1)
    (by unwritten hostOps1_2) (by unwritten hostOps1_3) (by unwritten hostOps1_4)).trans (W2_v13_0 m ρ c)
private theorem V7_v13_1 (c : Dev nD) : (V7 (F := Ideal) m ρ c main_v13_1 : S8192x128.Idx → EReal)
    = fun i => Cert.Spec.K.psrc (m ((c : Thread nD τ).loc main_arg0)) (m ((c : Thread nD τ).loc main_arg2)) (m ((c : Thread nD τ).loc main_arg3)) (m ((c : Thread nD τ).loc main_arg4)) (i 0) (i 1) :=
  (W7_of_unwritten m ρ c (Proc.devRef .tc main_v13_1) (by unwritten hostOps1) (by unwritten hostOps1_1)
    (by unwritten hostOps1_2) (by unwritten hostOps1_3) (by unwritten hostOps1_4)).trans (W2_v13_1 m ρ c)
private theorem V7_v8 (c : Dev nD) : (V7 (F := Ideal) m ρ c main_v8 : S256x128.Idx → EReal)
    = fun i => Cert.Spec.K.WdB (m ((c : Thread nD τ).loc main_arg4)) (i 0) (i 1) :=
  (W7_of_unwritten m ρ c (Proc.devRef .tc main_v8) (by unwritten hostOps1) (by unwritten hostOps1_1)
    (by unwritten hostOps1_2) (by unwritten hostOps1_3) (by unwritten hostOps1_4)).trans (W2_v8 m ρ c)
private theorem V7_v12 (c : Dev nD) : (V7 (F := Ideal) m ρ c main_v12 : S128x2.Idx → EReal)
    = fun i => Cert.Spec.K.a2B (m ((c : Thread nD τ).loc main_arg5)) (i 0) (i 1) :=
  (W7_of_unwritten m ρ c (Proc.devRef .tc main_v12) (by unwritten hostOps1) (by unwritten hostOps1_1)
    (by unwritten hostOps1_2) (by unwritten hostOps1_3) (by unwritten hostOps1_4)).trans (W2_v12 m ρ c)

/-- The padded column of source words. -/
private theorem V7_v20 (c : Dev nD) : (V7 (F := Ideal) m ρ c main_v20 : S262144x1.Idx → BitVec 32)
    = fun i => if h : (i 0).val < 261657 then
        m ((c : Thread nD τ).loc main_arg6) (ix2 (0 : Fin 2) (⟨(i 0).val, h⟩ : Fin 261657)) else 8192#32 := by
  refine (stretch1_v20 (W2 m ρ c)).trans ?_
  rw [W2_arg6]
/-- The padded column of destination words. -/
private theorem V7_v21 (c : Dev nD) : (V7 (F := Ideal) m ρ c main_v21 : S262144x1.Idx → BitVec 32)
    = fun i => if h : (i 0).val < 261657 then
        m ((c : Thread nD τ).loc main_arg6) (ix2 (1 : Fin 2) (⟨(i 0).val, h⟩ : Fin 261657)) else 8192#32 := by
  refine (stretch1_v21 (W2 m ρ c)).trans ?_
  rw [W2_arg6]

/-- A slot's source word read as a number is the padded source node number: the edge's word on an edge's slot, the
    word 8192 on a padding slot. -/
private theorem V7_srcN (c : Dev nD) :
    (fun e : Fin 262144 => ((V7 (F := Ideal) m ρ c main_v20 : S262144x1.Idx → BitVec 32) (ix2 e 0)).toNat)
      = Cert.Spec.padN (m ((c : Thread nD τ).loc main_arg6)) 0 := by
  funext e
  rw [V7_v20]
  unfold Cert.Spec.padN
  show (if h : e.val < 261657 then _ else 8192#32).toNat = _
  split <;> rfl
private theorem V7_dstN (c : Dev nD) :
    (fun e : Fin 262144 => ((V7 (F := Ideal) m ρ c main_v21 : S262144x1.Idx → BitVec 32) (ix2 e 0)).toNat)
      = Cert.Spec.padN (m ((c : Thread nD τ).loc main_arg6)) 1 := by
  funext e
  rw [V7_v21]
  unfold Cert.Spec.padN
  show (if h : e.val < 261657 then _ else 8192#32).toNat = _
  split <;> rfl

/-! ## After the second launch: the scores and the gathered destination rows -/

private theorem W8_v22_0 (c : Dev nD) : (W8 (F := Ideal) m ρ c (Proc.devRef .tc main_v22_0) : S262144x2.Idx → EReal)
    = fun i => Cert.Spec.K.score (m ((c : Thread nD τ).loc main_arg0)) (m ((c : Thread nD τ).loc main_arg2)) (m ((c : Thread nD τ).loc main_arg3)) (m ((c : Thread nD τ).loc main_arg4)) (m ((c : Thread nD τ).loc main_arg5)) (Cert.Spec.padN (m ((c : Thread nD τ).loc main_arg6)) 0) (Cert.Spec.padN (m ((c : Thread nD τ).loc main_arg6)) 1) (i 0) (i 1) := by
  refine (W8_arr m ρ c 6).trans ((reg1_out6 (V7 m ρ) c).trans ?_)
  rw [V7_srcN, V7_dstN, V7_v13_0, V7_v8, V7_v13_1, V7_v12]
  rfl

private theorem W8_v22_1 (c : Dev nD) : (W8 (F := Ideal) m ρ c (Proc.devRef .tc main_v22_1) : S262144x256.Idx → EReal)
    = fun i => Cert.Spec.K.gh (m ((c : Thread nD τ).loc main_arg0)) (m ((c : Thread nD τ).loc main_arg2)) (m ((c : Thread nD τ).loc main_arg3)) (Cert.Spec.padN (m ((c : Thread nD τ).loc main_arg6)) 1) (i 0) (i 1) := by
  refine (W8_arr m ρ c 7).trans ((reg1_out7 (V7 m ρ) c).trans ?_)
  rw [V7_dstN, V7_v13_0]
  rfl

/-- The second launch only reads the source column. -/
private theorem W8_v20 (c : Dev nD) :
    W8 (F := Ideal) m ρ c (Proc.devRef .tc main_v20) = V7 m ρ c main_v20 :=
  (W8_arr m ρ c 0).trans (((dat1 (V7 m ρ) c).arrAt_in 0 rfl _).trans (A_eq1 (V7 m ρ) c 0))

/-! ## At the third launch -/

private theorem V11_v38 (c : Dev nD) : (V11 (F := Ideal) m ρ c main_v38 : S262144x2.Idx → EReal)
    = fun i => Cert.Spec.K.att (m ((c : Thread nD τ).loc main_arg0)) (m ((c : Thread nD τ).loc main_arg2)) (m ((c : Thread nD τ).loc main_arg3)) (m ((c : Thread nD τ).loc main_arg4)) (m ((c : Thread nD τ).loc main_arg5)) (Cert.Spec.padN (m ((c : Thread nD τ).loc main_arg6)) 0) (Cert.Spec.padN (m ((c : Thread nD τ).loc main_arg6)) 1) (i 0) (i 1) := by
  refine (stretch2_v38 (W8 m ρ c)).trans ?_
  rw [W8_v22_0]
  rfl
private theorem V11_v22_1 (c : Dev nD) : (V11 (F := Ideal) m ρ c main_v22_1 : S262144x256.Idx → EReal)
    = fun i => Cert.Spec.K.gh (m ((c : Thread nD τ).loc main_arg0)) (m ((c : Thread nD τ).loc main_arg2)) (m ((c : Thread nD τ).loc main_arg3)) (Cert.Spec.padN (m ((c : Thread nD τ).loc main_arg6)) 1) (i 0) (i 1) :=
  (W11_of_unwritten m ρ c (Proc.devRef .tc main_v22_1) (by unwritten hostOps2) (by unwritten hostOps2_1)
    (by unwritten hostOps2_2)).trans (W8_v22_1 m ρ c)
private theorem V11_v20 (c : Dev nD) : V11 (F := Ideal) m ρ c main_v20 = V7 m ρ c main_v20 :=
  (W11_of_unwritten m ρ c (Proc.devRef .tc main_v20) (by unwritten hostOps2) (by unwritten hostOps2_1)
    (by unwritten hostOps2_2)).trans (W8_v20 m ρ c)
private theorem V11_srcN (c : Dev nD) :
    (fun e : Fin 262144 => ((V11 (F := Ideal) m ρ c main_v20 : S262144x1.Idx → BitVec 32) (ix2 e 0)).toNat)
      = Cert.Spec.padN (m ((c : Thread nD τ).loc main_arg6)) 0 := by
  rw [V11_v20]
  exact V7_srcN m ρ c

/-! ## After the third launch, and the last stretch -/

private theorem W12_v39 (c : Dev nD) : (W12 (F := Ideal) m ρ c (Proc.devRef .tc main_v39) : S2x8192x256.Idx → EReal)
    = fun i => Cert.Spec.K.agg (m ((c : Thread nD τ).loc main_arg0)) (m ((c : Thread nD τ).loc main_arg2)) (m ((c : Thread nD τ).loc main_arg3)) (m ((c : Thread nD τ).loc main_arg4)) (m ((c : Thread nD τ).loc main_arg5)) (Cert.Spec.padN (m ((c : Thread nD τ).loc main_arg6)) 0) (Cert.Spec.padN (m ((c : Thread nD τ).loc main_arg6)) 1) (i 0) (i 1) (i 2) := by
  refine (W12_arr m ρ c 3).trans ((reg2_out3 (V11 m ρ) c).trans ?_)
  rw [V11_srcN, V11_v38, V11_v22_1]
  rfl

/-- The result buffer at the end of the run, as the kernel's spelling of the layer over the launch contents of the
    arguments: every launch and host stretch read in turn. -/
theorem value_v49 (c : Dev nD) :
    (W13 (F := Ideal) m ρ c (Proc.devRef .tc main_v49) : S8192x128.Idx → EReal)
      = fun i => Cert.Spec.K.out (m ((c : Thread nD τ).loc main_arg0)) (m ((c : Thread nD τ).loc main_arg2))
          (m ((c : Thread nD τ).loc main_arg3)) (m ((c : Thread nD τ).loc main_arg4)) (m ((c : Thread nD τ).loc main_arg5))
          (Cert.Spec.padN (m ((c : Thread nD τ).loc main_arg6)) 0) (Cert.Spec.padN (m ((c : Thread nD τ).loc main_arg6)) 1)
          (i 0) (i 1) := by
  refine (stretch3_v49 (W12 m ρ c)).trans ?_
  rw [W12_v39]
  rfl

end Cert.KernelIdeal.Val

end
-- ==== Proof.RRun.lean ====
/-
  The reference program as a straight line of host operations: its 77 statements with the one called function (the
  leaky rectifier, which itself calls a select) laid inline over that call's own buffers, cut into three stretches —
  up to the summed projections of an edge's two ends; the rectifier, the scores and the softmax over the edge axis; the
  messages, the scatter, the sum over heads and the halving. Run by the host-operation rule: every weakly fair
  execution terminates with each buffer at the fold of the operations over the launch contents.
-/
import proofs.«401063_j42442866819268_2_alg».proof.ReferenceIdeal
import proofs.«401063_j42442866819268_2_alg».proof.Proof.Gen.ReferenceIdeal
import Idealize.ShloMosaic.Lib.StableHlo.Run
import Idealize.ShloMosaic.Lib.Pipeline.Regions
import Idealize.ShloMosaic.Lib.Pipeline.Frame
import Idealize.ShloMosaic.Lib.ValueIdx
set_option maxRecDepth 16384

noncomputable section

open scoped BigOperators

namespace Cert.ReferenceIdeal.Val

open Cert.ReferenceIdeal Cert.ReferenceIdeal.Gen
open Idealize.ShloMosaic Idealize.ShloMosaic.TcCoe Idealize.ShloMosaic.ValueIdx Idealize.ShloMosaic.StableHlo
open Idealize.SL.Sem

variable {F : FTy → Type} [FloatOps F]

/-- Statements 1–32: the projections, the edge list's rows, the three index normalisations and the two gathers. -/
abbrev opsA : List (HloOp τ sig (Elt F)) :=
  [ StableHlo.binary main_arg0 main_arg2 main_v0 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    StableHlo.unary main_arg3 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S8192x256 ![0, 1] bcast_S1x256_S8192x256_0_1 : (⟨S1x256, .f32⟩ : BufTy).Contents (Elt F) → (⟨S8192x256, .f32⟩ : BufTy).Contents (Elt F)),
    StableHlo.binary main_v0 main_v2 main_v3 (addf : (⟨S8192x256, .f32⟩ : BufTy).Contents (Elt F) → (⟨S8192x256, .f32⟩ : BufTy).Contents (Elt F) → (⟨S8192x256, .f32⟩ : BufTy).Contents (Elt F)),
    StableHlo.reshape main_v3 main_v4 rfl shapeCasts_S8192x256_S8192x2x128,
    StableHlo.unary main_arg6 main_v5 ((extractStridedSlice S1x261657 ![0, 0] · slices_S2x261657_S1x261657_0_0) : (⟨S2x261657, .i32⟩ : BufTy).Contents (Elt F) → (⟨S1x261657, .i32⟩ : BufTy).Contents (Elt F)),
    StableHlo.reshape main_v5 main_v6 rfl shapeCasts_S1x261657_S261657,
    StableHlo.unary main_arg6 main_v7 ((extractStridedSlice S1x261657 ![1, 0] · slices_S2x261657_S1x261657_1_0) : (⟨S2x261657, .i32⟩ : BufTy).Contents (Elt F) → (⟨S1x261657, .i32⟩ : BufTy).Contents (Elt F)),
    StableHlo.reshape main_v7 main_v8 rfl shapeCasts_S1x261657_S261657,
    StableHlo.unary main_arg4 main_v9 ((extractStridedSlice S128x64 ![0, 0] · slices_S256x64_S128x64_0_0) : (⟨S256x64, .f32⟩ : BufTy).Contents (Elt F) → (⟨S128x64, .f32⟩ : BufTy).Contents (Elt F)),
    StableHlo.binary main_v4 main_v9 main_v10 ((fun l r => Host.dotGeneral dot_S8192x2x128_S128x64_S8192x2x64_2_0_01_1_n_n none l r) : (⟨S8192x2x128, .f32⟩ : BufTy).Contents (Elt F) → (⟨S128x64, .f32⟩ : BufTy).Contents (Elt F) → (⟨S8192x2x64, .f32⟩ : BufTy).Contents (Elt F)),
    StableHlo.unary main_arg4 main_v11 ((extractStridedSlice S128x64 ![128, 0] · slices_S256x64_S128x64_128_0) : (⟨S256x64, .f32⟩ : BufTy).Contents (Elt F) → (⟨S128x64, .f32⟩ : BufTy).Contents (Elt F)),
    StableHlo.binary main_v4 main_v11 main_v12 ((fun l r => Host.dotGeneral dot_S8192x2x128_S128x64_S8192x2x64_2_0_01_1_n_n none l r) : (⟨S8192x2x128, .f32⟩ : BufTy).Contents (Elt F) → (⟨S128x64, .f32⟩ : BufTy).Contents (Elt F) → (⟨S8192x2x64, .f32⟩ : BufTy).Contents (Elt F)),
    StableHlo.nullary main_c (constantI S_ 32 0#32),
    StableHlo.unary main_c main_v13 (broadcastInDim S261657 ![] bcast_S_S261657 : (⟨S_, .i32⟩ : BufTy).Contents (Elt F) → (⟨S261657, .i32⟩ : BufTy).Contents (Elt F)),
    StableHlo.binary main_v6 main_v13 main_v14 (cmpi .slt : (⟨S261657, .i32⟩ : BufTy).Contents (Elt F) → (⟨S261657, .i32⟩ : BufTy).Contents (Elt F) → (⟨S261657, .i1⟩ : BufTy).Contents (Elt F)),
    StableHlo.nullary main_c_0 (constantI S_ 32 8192#32),
    StableHlo.unary main_c_0 main_v15 (broadcastInDim S261657 ![] bcast_S_S261657 : (⟨S_, .i32⟩ : BufTy).Contents (Elt F) → (⟨S261657, .i32⟩ : BufTy).Contents (Elt F)),
    StableHlo.binary main_v6 main_v15 main_v16 (addi : (⟨S261657, .i32⟩ : BufTy).Contents (Elt F) → (⟨S261657, .i32⟩ : BufTy).Contents (Elt F) → (⟨S261657, .i32⟩ : BufTy).Contents (Elt F)),
    StableHlo.ternary main_v14 main_v16 main_v6 main_v17 (select : (⟨S261657, .i1⟩ : BufTy).Contents (Elt F) → (⟨S261657, .i32⟩ : BufTy).Contents (Elt F) → (⟨S261657, .i32⟩ : BufTy).Contents (Elt F) → (⟨S261657, .i32⟩ : BufTy).Contents (Elt F)),
    StableHlo.unary main_v17 main_v18 (broadcastInDim S261657x1 ![0] bcast_S261657_S261657x1_0 : (⟨S261657, .i32⟩ : BufTy).Contents (Elt F) → (⟨S261657x1, .i32⟩ : BufTy).Contents (Elt F)),
    StableHlo.binary main_v10 main_v18 main_v19 ((fun x i => Host.gather gather_S8192x2x64_S261657x1_S261657x2x64_12_0_n_n_0_1_1264 x i) : (⟨S8192x2x64, .f32⟩ : BufTy).Contents (Elt F) → (⟨S261657x1, .i32⟩ : BufTy).Contents (Elt F) → (⟨S261657x2x64, .f32⟩ : BufTy).Contents (Elt F)),
    StableHlo.nullary main_c_1 (constantI S_ 32 0#32),
    StableHlo.unary main_c_1 main_v20 (broadcastInDim S261657 ![] bcast_S_S261657 : (⟨S_, .i32⟩ : BufTy).Contents (Elt F) → (⟨S261657, .i32⟩ : BufTy).Contents (Elt F)),
    StableHlo.binary main_v8 main_v20 main_v21 (cmpi .slt : (⟨S261657, .i32⟩ : BufTy).Contents (Elt F) → (⟨S261657, .i32⟩ : BufTy).Contents (Elt F) → (⟨S261657, .i1⟩ : BufTy).Contents (Elt F)),
    StableHlo.nullary main_c_2 (constantI S_ 32 8192#32),
    StableHlo.unary main_c_2 main_v22 (broadcastInDim S261657 ![] bcast_S_S261657 : (⟨S_, .i32⟩ : BufTy).Contents (Elt F) → (⟨S261657, .i32⟩ : BufTy).Contents (Elt F)),
    StableHlo.binary main_v8 main_v22 main_v23 (addi : (⟨S261657, .i32⟩ : BufTy).Contents (Elt F) → (⟨S261657, .i32⟩ : BufTy).Contents (Elt F) → (⟨S261657, .i32⟩ : BufTy).Contents (Elt F)),
    StableHlo.ternary main_v21 main_v23 main_v8 main_v24 (select : (⟨S261657, .i1⟩ : BufTy).Contents (Elt F) → (⟨S261657, .i32⟩ : BufTy).Contents (Elt F) → (⟨S261657, .i32⟩ : BufTy).Contents (Elt F) → (⟨S261657, .i32⟩ : BufTy).Contents (Elt F)),
    StableHlo.unary main_v24 main_v25 (broadcastInDim S261657x1 ![0] bcast_S261657_S261657x1_0 : (⟨S261657, .i32⟩ : BufTy).Contents (Elt F) → (⟨S261657x1, .i32⟩ : BufTy).Contents (Elt F)),
    StableHlo.binary main_v12 main_v25 main_v26 ((fun x i => Host.gather gather_S8192x2x64_S261657x1_S261657x2x64_12_0_n_n_0_1_1264 x i) : (⟨S8192x2x64, .f32⟩ : BufTy).Contents (Elt F) → (⟨S261657x1, .i32⟩ : BufTy).Contents (Elt F) → (⟨S261657x2x64, .f32⟩ : BufTy).Contents (Elt F)),
    StableHlo.binary main_v19 main_v26 main_v27 (addf : (⟨S261657x2x64, .f32⟩ : BufTy).Contents (Elt F) → (⟨S261657x2x64, .f32⟩ : BufTy).Contents (Elt F) → (⟨S261657x2x64, .f32⟩ : BufTy).Contents (Elt F)) ]

/-- The rectifier (inlined), the score product and the softmax along the edge axis. -/
abbrev opsB : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S261657x2x64, .f32⟩) (broadcastInDim S261657x2x64 ![] bcast_S_S261657x2x64),
    StableHlo.TRef.binary (.of main_v27 : StableHlo.TRef sig ⟨S261657x2x64, .f32⟩) (.of main_call0_v0 : StableHlo.TRef sig ⟨S261657x2x64, .f32⟩) (.of main_call0_v1 : StableHlo.TRef sig ⟨S261657x2x64, .i1⟩) (cmpf .oge),
    StableHlo.TRef.nullary (.of main_call0_cst_0 : StableHlo.TRef sig ⟨S_, .f32⟩) (constant S_ .f32 0x3C23D70A#32),
    StableHlo.TRef.unary (.of main_call0_cst_0 : StableHlo.TRef sig ⟨S_, .f32⟩) (.of main_call0_v2 : StableHlo.TRef sig ⟨S261657x2x64, .f32⟩) (broadcastInDim S261657x2x64 ![] bcast_S_S261657x2x64),
    StableHlo.TRef.binary (.of main_call0_v2 : StableHlo.TRef sig ⟨S261657x2x64, .f32⟩) (.of main_v27 : StableHlo.TRef sig ⟨S261657x2x64, .f32⟩) (.of main_call0_v3 : StableHlo.TRef sig ⟨S261657x2x64, .f32⟩) mulf,
    StableHlo.TRef.ternary (.of main_call0_v1 : StableHlo.TRef sig ⟨S261657x2x64, .i1⟩) (.of main_v27 : StableHlo.TRef sig ⟨S261657x2x64, .f32⟩) (.of main_call0_v3 : StableHlo.TRef sig ⟨S261657x2x64, .f32⟩) (.of main_v28 : StableHlo.TRef sig ⟨S261657x2x64, .f32⟩) select,
    StableHlo.binary main_v28 main_arg5 main_v29 ((fun l r => Host.dotGeneral dot_S261657x2x64_S64x1_S261657x2x1_2_0_01_1_n_n none l r) : (⟨S261657x2x64, .f32⟩ : BufTy).Contents (Elt F) → (⟨S64x1, .f32⟩ : BufTy).Contents (Elt F) → (⟨S261657x2x1, .f32⟩ : BufTy).Contents (Elt F)),
    StableHlo.reshape main_v29 main_v30 rfl shapeCasts_S261657x2x1_S261657x2,
    StableHlo.nullary main_cst (constant S_ .f32 0xFF800000#32),
    StableHlo.binary main_v30 main_cst main_v31 ((fun x v => Host.reduce FloatOps.maximumf x v reducesTo_S261657x2_S2_d0 h_S_) : (⟨S261657x2, .f32⟩ : BufTy).Contents (Elt F) → (⟨S_, .f32⟩ : BufTy).Contents (Elt F) → (⟨S2, .f32⟩ : BufTy).Contents (Elt F)),
    StableHlo.nullary main_cst_3 (constant S_ .f32 0xFF800000#32),
    StableHlo.unary main_cst_3 main_v32 (broadcastInDim S2 ![] bcast_S_S2 : (⟨S_, .f32⟩ : BufTy).Contents (Elt F) → (⟨S2, .f32⟩ : BufTy).Contents (Elt F)),
    StableHlo.binary main_v32 main_v31 main_v33 (maximumf : (⟨S2, .f32⟩ : BufTy).Contents (Elt F) → (⟨S2, .f32⟩ : BufTy).Contents (Elt F) → (⟨S2, .f32⟩ : BufTy).Contents (Elt F)),
    StableHlo.unary main_v33 main_v34 (broadcastInDim S1x2 ![1] bcast_S2_S1x2_1 : (⟨S2, .f32⟩ : BufTy).Contents (Elt F) → (⟨S1x2, .f32⟩ : BufTy).Contents (Elt F)),
    StableHlo.unary main_v34 main_v35 (broadcastInDim S261657x2 ![0, 1] bcast_S1x2_S261657x2_0_1 : (⟨S1x2, .f32⟩ : BufTy).Contents (Elt F) → (⟨S261657x2, .f32⟩ : BufTy).Contents (Elt F)),
    StableHlo.binary main_v30 main_v35 main_v36 (subf : (⟨S261657x2, .f32⟩ : BufTy).Contents (Elt F) → (⟨S261657x2, .f32⟩ : BufTy).Contents (Elt F) → (⟨S261657x2, .f32⟩ : BufTy).Contents (Elt F)),
    StableHlo.unary main_v36 main_v37 (Host.exp : (⟨S261657x2, .f32⟩ : BufTy).Contents (Elt F) → (⟨S261657x2, .f32⟩ : BufTy).Contents (Elt F)),
    StableHlo.nullary main_cst_4 (constant S_ .f32 0x00000000#32),
    StableHlo.binary main_v37 main_cst_4 main_v38 ((fun x v => Host.reduceAdd x v reducesTo_S261657x2_S2_d0 h_S_) : (⟨S261657x2, .f32⟩ : BufTy).Contents (Elt F) → (⟨S_, .f32⟩ : BufTy).Contents (Elt F) → (⟨S2, .f32⟩ : BufTy).Contents (Elt F)),
    StableHlo.unary main_v38 main_v39 (broadcastInDim S1x2 ![1] bcast_S2_S1x2_1 : (⟨S2, .f32⟩ : BufTy).Contents (Elt F) → (⟨S1x2, .f32⟩ : BufTy).Contents (Elt F)),
    StableHlo.unary main_v39 main_v40 (broadcastInDim S261657x2 ![0, 1] bcast_S1x2_S261657x2_0_1 : (⟨S1x2, .f32⟩ : BufTy).Contents (Elt F) → (⟨S261657x2, .f32⟩ : BufTy).Contents (Elt F)),
    StableHlo.binary main_v37 main_v40 main_v41 (Host.divf : (⟨S261657x2, .f32⟩ : BufTy).Contents (Elt F) → (⟨S261657x2, .f32⟩ : BufTy).Contents (Elt F) → (⟨S261657x2, .f32⟩ : BufTy).Contents (Elt F)) ]

/-- The gathered destination features, the messages, the scatter, the sum over heads, the halving. -/
abbrev opsC : List (HloOp τ sig (Elt F)) :=
  [ StableHlo.unary main_v41 main_v42 (broadcastInDim S261657x2x1 ![0, 1] bcast_S261657x2_S261657x2x1_0_1 : (⟨S261657x2, .f32⟩ : BufTy).Contents (Elt F) → (⟨S261657x2x1, .f32⟩ : BufTy).Contents (Elt F)),
    StableHlo.nullary main_c_5 (constantI S_ 32 0#32),
    StableHlo.unary main_c_5 main_v43 (broadcastInDim S261657 ![] bcast_S_S261657 : (⟨S_, .i32⟩ : BufTy).Contents (Elt F) → (⟨S261657, .i32⟩ : BufTy).Contents (Elt F)),
    StableHlo.binary main_v8 main_v43 main_v44 (cmpi .slt : (⟨S261657, .i32⟩ : BufTy).Contents (Elt F) → (⟨S261657, .i32⟩ : BufTy).Contents (Elt F) → (⟨S261657, .i1⟩ : BufTy).Contents (Elt F)),
    StableHlo.nullary main_c_6 (constantI S_ 32 8192#32),
    StableHlo.unary main_c_6 main_v45 (broadcastInDim S261657 ![] bcast_S_S261657 : (⟨S_, .i32⟩ : BufTy).Contents (Elt F) → (⟨S261657, .i32⟩ : BufTy).Contents (Elt F)),
    StableHlo.binary main_v8 main_v45 main_v46 (addi : (⟨S261657, .i32⟩ : BufTy).Contents (Elt F) → (⟨S261657, .i32⟩ : BufTy).Contents (Elt F) → (⟨S261657, .i32⟩ : BufTy).Contents (Elt F)),
    StableHlo.ternary main_v44 main_v46 main_v8 main_v47 (select : (⟨S261657, .i1⟩ : BufTy).Contents (Elt F) → (⟨S261657, .i32⟩ : BufTy).Contents (Elt F) → (⟨S261657, .i32⟩ : BufTy).Contents (Elt F) → (⟨S261657, .i32⟩ : BufTy).Contents (Elt F)),
    StableHlo.unary main_v47 main_v48 (broadcastInDim S261657x1 ![0] bcast_S261657_S261657x1_0 : (⟨S261657, .i32⟩ : BufTy).Contents (Elt F) → (⟨S261657x1, .i32⟩ : BufTy).Contents (Elt F)),
    StableHlo.binary main_v4 main_v48 main_v49 ((fun x i => Host.gather gather_S8192x2x128_S261657x1_S261657x2x128_12_0_n_n_0_1_12128 x i) : (⟨S8192x2x128, .f32⟩ : BufTy).Contents (Elt F) → (⟨S261657x1, .i32⟩ : BufTy).Contents (Elt F) → (⟨S261657x2x128, .f32⟩ : BufTy).Contents (Elt F)),
    StableHlo.unary main_v42 main_v50 (broadcastInDim S261657x2x128 ![0, 1, 2] bcast_S261657x2x1_S261657x2x128_0_1_2 : (⟨S261657x2x1, .f32⟩ : BufTy).Contents (Elt F) → (⟨S261657x2x128, .f32⟩ : BufTy).Contents (Elt F)),
    StableHlo.binary main_v50 main_v49 main_v51 (mulf : (⟨S261657x2x128, .f32⟩ : BufTy).Contents (Elt F) → (⟨S261657x2x128, .f32⟩ : BufTy).Contents (Elt F) → (⟨S261657x2x128, .f32⟩ : BufTy).Contents (Elt F)),
    StableHlo.nullary main_cst_7 (constant S_ .f32 0x00000000#32),
    StableHlo.unary main_cst_7 main_v52 (broadcastInDim S8192x2x128 ![] bcast_S_S8192x2x128 : (⟨S_, .f32⟩ : BufTy).Contents (Elt F) → (⟨S8192x2x128, .f32⟩ : BufTy).Contents (Elt F)),
    StableHlo.nullary main_c_8 (constantI S_ 32 0#32),
    StableHlo.unary main_c_8 main_v53 (broadcastInDim S261657 ![] bcast_S_S261657 : (⟨S_, .i32⟩ : BufTy).Contents (Elt F) → (⟨S261657, .i32⟩ : BufTy).Contents (Elt F)),
    StableHlo.binary main_v6 main_v53 main_v54 (cmpi .slt : (⟨S261657, .i32⟩ : BufTy).Contents (Elt F) → (⟨S261657, .i32⟩ : BufTy).Contents (Elt F) → (⟨S261657, .i1⟩ : BufTy).Contents (Elt F)),
    StableHlo.nullary main_c_9 (constantI S_ 32 8192#32),
    StableHlo.unary main_c_9 main_v55 (broadcastInDim S261657 ![] bcast_S_S261657 : (⟨S_, .i32⟩ : BufTy).Contents (Elt F) → (⟨S261657, .i32⟩ : BufTy).Contents (Elt F)),
    StableHlo.binary main_v6 main_v55 main_v56 (addi : (⟨S261657, .i32⟩ : BufTy).Contents (Elt F) → (⟨S261657, .i32⟩ : BufTy).Contents (Elt F) → (⟨S261657, .i32⟩ : BufTy).Contents (Elt F)),
    StableHlo.ternary main_v54 main_v56 main_v6 main_v57 (select : (⟨S261657, .i1⟩ : BufTy).Contents (Elt F) → (⟨S261657, .i32⟩ : BufTy).Contents (Elt F) → (⟨S261657, .i32⟩ : BufTy).Contents (Elt F) → (⟨S261657, .i32⟩ : BufTy).Contents (Elt F)),
    StableHlo.unary main_v57 main_v58 (broadcastInDim S261657x1 ![0] bcast_S261657_S261657x1_0 : (⟨S261657, .i32⟩ : BufTy).Contents (Elt F) → (⟨S261657x1, .i32⟩ : BufTy).Contents (Elt F)),
    StableHlo.ternary main_v52 main_v58 main_v51 main_v59 ((fun x i u => Host.scatterAdd scatter_S8192x2x128_S261657x1_S261657x2x128_12_0_0_1 x i u) : (⟨S8192x2x128, .f32⟩ : BufTy).Contents (Elt F) → (⟨S261657x1, .i32⟩ : BufTy).Contents (Elt F) → (⟨S261657x2x128, .f32⟩ : BufTy).Contents (Elt F) → (⟨S8192x2x128, .f32⟩ : BufTy).Contents (Elt F)),
    StableHlo.nullary main_cst_10 (constant S_ .f32 0x00000000#32),
    StableHlo.binary main_v59 main_cst_10 main_v60 ((fun x v => Host.reduceAdd x v reducesTo_S8192x2x128_S8192x128_d1 h_S_) : (⟨S8192x2x128, .f32⟩ : BufTy).Contents (Elt F) → (⟨S_, .f32⟩ : BufTy).Contents (Elt F) → (⟨S8192x128, .f32⟩ : BufTy).Contents (Elt F)),
    StableHlo.nullary main_cst_11 (constant S_ .f32 0x40000000#32),
    StableHlo.unary main_cst_11 main_v61 (broadcastInDim S8192x128 ![] bcast_S_S8192x128 : (⟨S_, .f32⟩ : BufTy).Contents (Elt F) → (⟨S8192x128, .f32⟩ : BufTy).Contents (Elt F)),
    StableHlo.binary main_v60 main_v61 main_v62 (Host.divf : (⟨S8192x128, .f32⟩ : BufTy).Contents (Elt F) → (⟨S8192x128, .f32⟩ : BufTy).Contents (Elt F) → (⟨S8192x128, .f32⟩ : BufTy).Contents (Elt F)) ]

/-- @main is the three stretches in order: the two windows' bodies, the rectifier's and the select's unfolded at their
    calls, are one right-nested chain of the same host steps as the concatenated list's. -/
theorem main_eq (c : Dev nD) : main (F := F) c = seq (opsA ++ opsB ++ opsC) := by
  chain_rfl

/-- The signature scopes no buffer and no semaphore: by enumeration. -/
private theorem scopedRefs_eq : (Finset.univ.filter fun b : Ref sig .tc => b.isScoped) = ∅ := by decide
private theorem scopedSems_eq : (Finset.univ.filter fun sm : SemLoc sig => sm.isScoped .tc) = ∅ := by decide

/-- Every operation of a stretch touches TensorCore buffers only: one fact per operation, in order. -/
private theorem opsA_sub : (opsA : List (HloOp τ sig (Elt F))).Forall fun op => op.bufs ⊆ tcRefs τ sig :=
  ⟨binary_bufs_sub .., unary_bufs_sub .., unary_bufs_sub .., binary_bufs_sub .., reshape_bufs_sub .., unary_bufs_sub ..,
    reshape_bufs_sub .., unary_bufs_sub .., reshape_bufs_sub .., unary_bufs_sub .., binary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub ..⟩
private theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., binary_bufs_sub .., reshape_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub ..⟩
private theorem opsC_sub : (opsC : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    binary_bufs_sub .., nullary_bufs_sub .., unary_bufs_sub .., binary_bufs_sub ..⟩
private theorem ops_sub : (opsA ++ opsB ++ opsC : List (HloOp τ sig (Elt F))).Forall fun op => op.bufs ⊆ tcRefs τ sig :=
  List.forall_append.mpr ⟨List.forall_append.mpr ⟨opsA_sub, opsB_sub⟩, opsC_sub⟩

/-- Every operation determines its results (none allocates an undetermined buffer): by computation, one per operation. -/
private theorem opsA_fresh : (opsA : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩
private theorem opsB_fresh : (opsB : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl⟩
private theorem opsC_fresh : (opsC : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl⟩
private theorem ops_fresh : ∀ op ∈ (opsA ++ opsB ++ opsC : List (HloOp τ sig (Elt F))), op.fresh = ∅ :=
  List.forall_iff_forall_mem.mp (List.forall_append.mpr ⟨List.forall_append.mpr ⟨opsA_fresh, opsB_fresh⟩, opsC_fresh⟩)

/-- Every weakly fair execution of the reference terminates, nothing faulting, with each buffer at the fold of the three
    stretches over what the launch dealt it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsC (after opsB (after opsA (launchContents m d))) (Proc.devRef .tc b) :=
  (θ_run defs _ _).mono
    (fun _ h d b => (h d b).trans (by rw [StableHlo.after_append, StableHlo.after_append]))
    (run_seq scopedRefs_eq scopedSems_eq defs main (fun _ => opsA ++ opsB ++ opsC) main_eq (fun _ => ops_sub) m ρ
      (fun _ => ops_fresh))

/-- No operation writes an argument's buffer: each ends as launched. -/
theorem kept (m : (ℓ : Loc nD τ sig) → Buf (Elt F) ℓ) (d : Dev nD) (b : Ref sig .tc)
    (hb : b = main_arg0 ∨ b = main_arg1 ∨ b = main_arg2 ∨ b = main_arg3 ∨ b = main_arg4 ∨ b = main_arg5 ∨ b = main_arg6) :
    after (opsC (F := F)) (after opsB (after opsA (launchContents m d))) (Proc.devRef .tc b) = m ((d.tc : Thread nD τ).loc b) := by
  -- an argument's buffer is the result of no operation of the three stretches: the fold leaves it at each
  rcases hb with rfl | rfl | rfl | rfl | rfl | rfl | rfl
  all_goals
    refine (StableHlo.after_of_forall_not_mem _ _ (List.forall_iff_forall_mem.mp (by
      simp only [opsC, List.Forall, StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton]
      repeat' apply And.intro
      all_goals exact StableHlo.devRef_ne_of_ne (by decide)))).trans ?_
    refine (StableHlo.after_of_forall_not_mem _ _ (List.forall_iff_forall_mem.mp (by
      simp only [opsB, List.Forall, StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton]
      repeat' apply And.intro
      all_goals exact StableHlo.devRef_ne_of_ne (by decide)))).trans ?_
    exact StableHlo.after_of_forall_not_mem _ _ (List.forall_iff_forall_mem.mp (by
      simp only [opsA, List.Forall, StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton]
      repeat' apply And.intro
      all_goals exact StableHlo.devRef_ne_of_ne (by decide)))

end Cert.ReferenceIdeal.Val

end
-- ==== Proof.RValA.lean ====
/-
  The reference's first stretch read as values: the projected features by head, the two projections of every node
  gathered at an edge's source and destination and added, and the edge list's two rows. A gather clamps its start row
  into the table after the negative-index normalisation; on node numbers already in range it reads that row.
-/
import proofs.«401063_j42442866819268_2_alg».proof.Proof.RRun
import proofs.«401063_j42442866819268_2_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.ReferenceIdeal.Val

open Cert.ReferenceIdeal Cert.ReferenceIdeal.Gen
open Idealize.ShloMosaic Idealize.ShloMosaic.TcCoe Idealize.ShloMosaic.ValueIdx Idealize.ShloMosaic.StableHlo
open Idealize.SL.Sem

variable (Wa : Valuation τ sig (Elt Ideal))

/-! ## The edge list's rows -/

/-- Row `r` of a two-row table, cut out as a one-row table and read as a vector, is the table's row `r`. -/
private theorem row_apply (x : S2x261657.Idx → BitVec 32) (o : Nat) (r : Fin 2) (hr : r.val = o)
    (hs : S2x261657.Slices ![o, 0] S1x261657) (hc : S1x261657.ShapeCasts S261657) (e : Fin 261657) :
    shapeCast S261657 (extractStridedSlice S1x261657 ![o, 0] x hs) hc (ix1 e) = x (ix2 r e) :=
  (shapeCast_1a_a_apply _ hc e).trans (slice2_axis0_apply o x hs (0 : Fin 1) e r (by rw [hr]; rfl))

/-! ## The projected features -/

/-- `x · W` at (n, k): the sum over the 128 input features. -/
private theorem xw_apply (x : FVec Ideal S8192x128 .f32) (W : FVec Ideal S128x256 .f32) (n : Fin 8192) (k : Fin 256) :
    Host.dotGeneral dot_S8192x128_S128x256_S8192x256_1_0_0_1_n_n none x W (ix2 n k)
      = ∑ j : Fin 128, x (ix2 n j) * W (ix2 j k) := by
  show FloatOps.dotGeneral _ none _ x W (ix2 n k) = _
  rw [Ideal.dotGeneral_apply,
    ← Equiv.sum_comp (contrEquiv1 dot_S8192x128_S128x256_S8192x256_1_0_0_1_n_n 128 rfl rfl).symm]
  refine Finset.sum_congr rfl fun c _ => ?_
  have c2 := contrEquiv1_symm_val dot_S8192x128_S128x256_S8192x256_1_0_0_1_n_n 128 rfl rfl c
  have l2 : dot_S8192x128_S128x256_S8192x256_1_0_0_1_n_n.lhsIdx (ix2 n k) ((contrEquiv1 _ 128 rfl rfl).symm c) = ix2 n c := by
    funext ax; apply Fin.ext
    match ax with
    | ⟨0, _⟩ => simp [DotDims.lhsIdx, dot_S8192x128_S128x256_S8192x256_1_0_0_1_n_n]; rfl
    | ⟨1, _⟩ => simp [DotDims.lhsIdx, dot_S8192x128_S128x256_S8192x256_1_0_0_1_n_n]; exact c2
  have r2 : dot_S8192x128_S128x256_S8192x256_1_0_0_1_n_n.rhsIdx (ix2 n k) ((contrEquiv1 _ 128 rfl rfl).symm c) = ix2 c k := by
    funext ax; apply Fin.ext
    match ax with
    | ⟨0, _⟩ => simp [DotDims.rhsIdx, dot_S8192x128_S128x256_S8192x256_1_0_0_1_n_n]; exact c2
    | ⟨1, _⟩ => simp [DotDims.rhsIdx, dot_S8192x128_S128x256_S8192x256_1_0_0_1_n_n]; rfl
  rw [l2, r2]

/-- The bias laid along every row: at (n, k) it is `b k`. -/
private theorem bias_apply (b : FVec Ideal S256 .f32) (h1 : S256.BroadcastsInDim S1x256 ![1])
    (h2 : S1x256.BroadcastsInDim S8192x256 ![0, 1]) (n : Fin 8192) (k : Fin 256) :
    broadcastInDim S8192x256 ![0, 1] h2 (broadcastInDim S1x256 ![1] h1 b) (ix2 n k) = b (ix1 k) :=
  (broadcastInDim_apply _ h2 _ (ix2 n k) (ix2 (0 : Fin 1) k) (fun a => match a with | ⟨0, _⟩ => rfl | ⟨1, _⟩ => rfl)).trans
    (broadcastInDim_apply _ h1 b (ix2 (0 : Fin 1) k) (ix1 k) (fun a => match a with | ⟨0, _⟩ => rfl))

/-- The reshape [8192, 256] → [8192, 2, 128] reads (n, head, d) at column `128 · head + d` of row n: the same
    row-major position, `256 n + (128 head + d) = 128 (2 n + head) + d`. -/
private theorem heads_apply (y : FVec Ideal S8192x256 .f32) (h : S8192x256.ShapeCasts S8192x2x128)
    (n : Fin 8192) (hd : Fin 2) (d : Fin 128) :
    shapeCast S8192x2x128 y h (ix3 n hd d) = y (ix2 n (Cert.Spec.hk hd d)) :=
  shapeCast_apply y h _ _ (by
    rw [Shape.rowMajor_val_two, Shape.rowMajor_val_three]
    show n.val * 256 + (hd.val * 128 + d.val) = (n.val * 2 + hd.val) * 128 + d.val
    omega)

/-- The projected features by head as the stretch computes them: `x · W` plus the bias row, reshaped. -/
private def T4 (x : FVec Ideal S8192x128 .f32) (W : FVec Ideal S128x256 .f32) (b : FVec Ideal S256 .f32) :
    FVec Ideal S8192x2x128 .f32 :=
  shapeCast S8192x2x128
    (addf (Host.dotGeneral dot_S8192x128_S128x256_S8192x256_1_0_0_1_n_n none x W)
      (broadcastInDim S8192x256 ![0, 1] bcast_S1x256_S8192x256_0_1 (broadcastInDim S1x256 ![1] bcast_S256_S1x256_1 b)))
    shapeCasts_S8192x256_S8192x2x128

private theorem T4_apply (x : FVec Ideal S8192x128 .f32) (W : FVec Ideal S128x256 .f32) (b : FVec Ideal S256 .f32)
    (n : Fin 8192) (hd : Fin 2) (d : Fin 128) : T4 x W b (ix3 n hd d) = Cert.Spec.R.h3 x W b n hd d := by
  unfold T4
  rw [heads_apply, addf_apply, xw_apply, bias_apply]
  rfl

/-- What the stretch leaves in the buffer of the projected features. -/
private theorem after_v4 :
    after (opsA (F := Ideal)) Wa (Proc.devRef .tc main_v4)
      = T4 (Wa (Proc.devRef .tc main_arg0)) (Wa (Proc.devRef .tc main_arg2)) (Wa (Proc.devRef .tc main_arg3)) := by
  after_results
  rfl

/-! ## The two projections of a node's features, gathered at an edge's ends -/

/-- A head's 128 features against a 128 × 64 table: at (n, head, f) the sum over the 128 features. -/
private theorem proj_apply (h : FVec Ideal S8192x2x128 .f32) (A : FVec Ideal S128x64 .f32) (n : Fin 8192) (hd : Fin 2) (f : Fin 64) :
    Host.dotGeneral dot_S8192x2x128_S128x64_S8192x2x64_2_0_01_1_n_n none h A (ix3 n hd f)
      = ∑ d : Fin 128, h (ix3 n hd d) * A (ix2 d f) := by
  show FloatOps.dotGeneral _ none _ h A (ix3 n hd f) = _
  rw [Ideal.dotGeneral_apply,
    ← Equiv.sum_comp (contrEquiv1 dot_S8192x2x128_S128x64_S8192x2x64_2_0_01_1_n_n 128 rfl rfl).symm]
  refine Finset.sum_congr rfl fun c _ => ?_
  have c2 := contrEquiv1_symm_val dot_S8192x2x128_S128x64_S8192x2x64_2_0_01_1_n_n 128 rfl rfl c
  have l2 : dot_S8192x2x128_S128x64_S8192x2x64_2_0_01_1_n_n.lhsIdx (ix3 n hd f) ((contrEquiv1 _ 128 rfl rfl).symm c) = ix3 n hd c := by
    funext ax; apply Fin.ext
    match ax with
    | ⟨0, _⟩ => simp [DotDims.lhsIdx, dot_S8192x2x128_S128x64_S8192x2x64_2_0_01_1_n_n]; rfl
    | ⟨1, _⟩ => simp [DotDims.lhsIdx, dot_S8192x2x128_S128x64_S8192x2x64_2_0_01_1_n_n]; rfl
    | ⟨2, _⟩ => simp [DotDims.lhsIdx, dot_S8192x2x128_S128x64_S8192x2x64_2_0_01_1_n_n]; exact c2
  have r2 : dot_S8192x2x128_S128x64_S8192x2x64_2_0_01_1_n_n.rhsIdx (ix3 n hd f) ((contrEquiv1 _ 128 rfl rfl).symm c) = ix2 c f := by
    funext ax; apply Fin.ext
    match ax with
    | ⟨0, _⟩ => simp [DotDims.rhsIdx, dot_S8192x2x128_S128x64_S8192x2x64_2_0_01_1_n_n]; exact c2
    | ⟨1, _⟩ => simp [DotDims.rhsIdx, dot_S8192x2x128_S128x64_S8192x2x64_2_0_01_1_n_n]; rfl
  rw [l2, r2]

/-- The top 128 rows of `A1`. -/
private theorem top_apply (A1 : FVec Ideal S256x64 .f32) (hs : S256x64.Slices ![0, 0] S128x64) (d : Fin 128) (f : Fin 64) :
    extractStridedSlice S128x64 ![0, 0] A1 hs (ix2 d f) = A1 (ix2 (Cert.Spec.lo128 d) f) :=
  slice2_axis0_apply 0 A1 hs d f (Cert.Spec.lo128 d) (by show d.val = 0 + d.val; omega)

/-- The bottom 128 rows of `A1`. -/
private theorem bottom_apply (A1 : FVec Ideal S256x64 .f32) (hs : S256x64.Slices ![128, 0] S128x64) (d : Fin 128) (f : Fin 64) :
    extractStridedSlice S128x64 ![128, 0] A1 hs (ix2 d f) = A1 (ix2 (Cert.Spec.hi128 d) f) :=
  slice2_axis0_apply 128 A1 hs d f (Cert.Spec.hi128 d) rfl

/-- A node number in range is not negative as a signed word: the normalisation `w <s 0 ? w + 8192 : w` keeps it. -/
private theorem norm_word (w : BitVec 32) (hw : w.toNat < 8192) :
    Scalar.select (IntOp.cmpi .slt w 0#32) (IntOp.addi w 8192#32) w = w := by
  have h : ¬ IntOp.cmpi .slt w 0#32 = 1#1 := fun h => by
    have := (Predicate.slt_iff_toNat (a := w) (b := 0#32) (by omega) (by decide)).mp h
    simp at this
  rw [eq_zero_of_ne_one h, select_zero]

/-- The start-index column the stretch builds from a vector of node numbers: normalised, then laid as a column. -/
private def NormIdx (v : IVec S261657 32) : IVec S261657x1 32 :=
  broadcastInDim S261657x1 ![0] bcast_S261657_S261657x1_0
    (select (cmpi .slt v (broadcastInDim S261657 ![] bcast_S_S261657 (constantI S_ 32 0#32)))
      (addi v (broadcastInDim S261657 ![] bcast_S_S261657 (constantI S_ 32 8192#32))) v)

private theorem NormIdx_apply (v : IVec S261657 32) (e : Fin 261657) (hv : (v (ix1 e)).toNat < 8192) :
    NormIdx v (ix2 e (0 : Fin 1)) = v (ix1 e) := by
  unfold NormIdx
  refine (broadcastInDim_apply _ _ _ (ix2 e (0 : Fin 1)) (ix1 e) (fun a => match a with | ⟨0, _⟩ => rfl)).trans ?_
  exact norm_word _ hv

/-- The gather of whole [2, 64] rows: at (e, head, f) the table's row is the start index of `e`, read signed and
    clamped into the table. -/
private theorem gather_apply (t : FVec Ideal S8192x2x64 .f32) (idx : IVec S261657x1 32) (e : Fin 261657) (hd : Fin 2) (f : Fin 64)
    (r : Fin 8192) (hr : r.val = min (idx (ix2 e (0 : Fin 1))).toInt.toNat 8191) :
    Host.gather gather_S8192x2x64_S261657x1_S261657x2x64_12_0_n_n_0_1_1264 t idx (ix3 e hd f) = t (ix3 r hd f) := by
  unfold Host.gather
  refine congrArg t (funext fun a => Fin.ext ?_)
  have hk0 : List.idxOf (1 : Fin 3) gather_S8192x2x64_S261657x1_S261657x2x64_12_0_n_n_0_1_1264.sKept = 0 := by decide
  have hk1 : List.idxOf (2 : Fin 3) gather_S8192x2x64_S261657x1_S261657x2x64_12_0_n_n_0_1_1264.sKept = 1 := by decide
  match a with
  | ⟨0, _⟩ =>
    show gather_S8192x2x64_S261657x1_S261657x2x64_12_0_n_n_0_1_1264.start (ix3 e hd f) idx 0
      + gather_S8192x2x64_S261657x1_S261657x2x64_12_0_n_n_0_1_1264.batchCoord (ix3 e hd f) 0
      + gather_S8192x2x64_S261657x1_S261657x2x64_12_0_n_n_0_1_1264.offCoord (ix3 e hd f) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S8192x2x64_S261657x1_S261657x2x64_12_0_n_n_0_1_1264.startIndexMap from List.mem_singleton.mpr rfl)]
    have hsi : gather_S8192x2x64_S261657x1_S261657x2x64_12_0_n_n_0_1_1264.siIdx (ix3 e hd f)
        ⟨List.idxOf (0 : Fin 3) gather_S8192x2x64_S261657x1_S261657x2x64_12_0_n_n_0_1_1264.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    exact hr.symm
  | ⟨1, _⟩ =>
    show gather_S8192x2x64_S261657x1_S261657x2x64_12_0_n_n_0_1_1264.start (ix3 e hd f) idx 1
      + gather_S8192x2x64_S261657x1_S261657x2x64_12_0_n_n_0_1_1264.batchCoord (ix3 e hd f) 1
      + gather_S8192x2x64_S261657x1_S261657x2x64_12_0_n_n_0_1_1264.offCoord (ix3 e hd f) 1 = hd.val
    rw [GatherDims.batchCoord_eq_zero _ _ _ List.not_mem_nil]
    unfold GatherDims.start GatherDims.offCoord
    rw [dif_neg (show (1 : Fin 3) ∉ gather_S8192x2x64_S261657x1_S261657x2x64_12_0_n_n_0_1_1264.startIndexMap by decide),
      dif_pos (show (1 : Fin 3) ∈ gather_S8192x2x64_S261657x1_S261657x2x64_12_0_n_n_0_1_1264.sKept by decide)]
    simp only [Nat.zero_add, Nat.add_zero]
    have key : ∀ (p : Nat) (hp : p < gather_S8192x2x64_S261657x1_S261657x2x64_12_0_n_n_0_1_1264.offsetDims.length), p = 0 →
        ((ix3 e hd f : S261657x2x64.Idx) (gather_S8192x2x64_S261657x1_S261657x2x64_12_0_n_n_0_1_1264.offsetDims[p]'hp)).val = hd.val :=
      fun p hp h => by subst h; rfl
    exact key _ _ hk0
  | ⟨2, _⟩ =>
    show gather_S8192x2x64_S261657x1_S261657x2x64_12_0_n_n_0_1_1264.start (ix3 e hd f) idx 2
      + gather_S8192x2x64_S261657x1_S261657x2x64_12_0_n_n_0_1_1264.batchCoord (ix3 e hd f) 2
      + gather_S8192x2x64_S261657x1_S261657x2x64_12_0_n_n_0_1_1264.offCoord (ix3 e hd f) 2 = f.val
    rw [GatherDims.batchCoord_eq_zero _ _ _ List.not_mem_nil]
    unfold GatherDims.start GatherDims.offCoord
    rw [dif_neg (show (2 : Fin 3) ∉ gather_S8192x2x64_S261657x1_S261657x2x64_12_0_n_n_0_1_1264.startIndexMap by decide),
      dif_pos (show (2 : Fin 3) ∈ gather_S8192x2x64_S261657x1_S261657x2x64_12_0_n_n_0_1_1264.sKept by decide)]
    simp only [Nat.zero_add, Nat.add_zero]
    have key : ∀ (p : Nat) (hp : p < gather_S8192x2x64_S261657x1_S261657x2x64_12_0_n_n_0_1_1264.offsetDims.length), p = 1 →
        ((ix3 e hd f : S261657x2x64.Idx) (gather_S8192x2x64_S261657x1_S261657x2x64_12_0_n_n_0_1_1264.offsetDims[p]'hp)).val = f.val :=
      fun p hp h => by subst h; rfl
    exact key _ _ hk1

/-- One end's gathered projection as the stretch computes it: the projected features against a half of `A1`, the
    rows read at the normalised node numbers. -/
private def Side (x : FVec Ideal S8192x128 .f32) (W : FVec Ideal S128x256 .f32) (b : FVec Ideal S256 .f32)
    (A : FVec Ideal S128x64 .f32) (v : IVec S261657 32) : FVec Ideal S261657x2x64 .f32 :=
  Host.gather gather_S8192x2x64_S261657x1_S261657x2x64_12_0_n_n_0_1_1264
    (Host.dotGeneral dot_S8192x2x128_S128x64_S8192x2x64_2_0_01_1_n_n none (T4 x W b) A) (NormIdx v)

/-- At an edge whose node number `w` is in range it is that node's row: the clamp `min w 8191` is `w`. -/
private theorem Side_apply (x : FVec Ideal S8192x128 .f32) (W : FVec Ideal S128x256 .f32) (b : FVec Ideal S256 .f32)
    (A : FVec Ideal S128x64 .f32) (v : IVec S261657 32) (e : Fin 261657) (hd : Fin 2) (f : Fin 64)
    (w : BitVec 32) (hw : v (ix1 e) = w) (hlt : w.toNat < 8192) :
    Side x W b A v (ix3 e hd f) = ∑ d : Fin 128, Cert.Spec.R.h3 x W b ⟨w.toNat, hlt⟩ hd d * A (ix2 d f) := by
  unfold Side
  refine (gather_apply _ _ e hd f ⟨w.toNat, hlt⟩ ?_).trans ?_
  · show w.toNat = min (NormIdx v (ix2 e (0 : Fin 1))).toInt.toNat 8191
    rw [NormIdx_apply v e (by rw [hw]; exact hlt), hw, Predicate.toInt_eq_toNat_of_lt (by omega), Int.toNat_natCast,
      Nat.min_eq_left (by omega)]
  · rw [proj_apply]
    exact Finset.sum_congr rfl fun d _ => by rw [T4_apply]

/-- What the stretch leaves in the buffer of the summed projections. -/
private theorem after_v27 :
    after (opsA (F := Ideal)) Wa (Proc.devRef .tc main_v27)
      = addf
          (Side (Wa (Proc.devRef .tc main_arg0)) (Wa (Proc.devRef .tc main_arg2)) (Wa (Proc.devRef .tc main_arg3))
            (extractStridedSlice S128x64 ![0, 0] (Wa (Proc.devRef .tc main_arg4)) slices_S256x64_S128x64_0_0)
            (shapeCast S261657 (extractStridedSlice S1x261657 ![0, 0] (Wa (Proc.devRef .tc main_arg6)) slices_S2x261657_S1x261657_0_0)
              shapeCasts_S1x261657_S261657))
          (Side (Wa (Proc.devRef .tc main_arg0)) (Wa (Proc.devRef .tc main_arg2)) (Wa (Proc.devRef .tc main_arg3))
            (extractStridedSlice S128x64 ![128, 0] (Wa (Proc.devRef .tc main_arg4)) slices_S256x64_S128x64_128_0)
            (shapeCast S261657 (extractStridedSlice S1x261657 ![1, 0] (Wa (Proc.devRef .tc main_arg6)) slices_S2x261657_S1x261657_1_0)
              shapeCasts_S1x261657_S261657)) := by
  after_results_simp
  rfl

/-- The projected features by head: a reshape of `x · W + b`. -/
theorem a_v4 :
    (after (opsA (F := Ideal)) Wa (Proc.devRef .tc main_v4) : S8192x2x128.Idx → EReal)
      = fun i => Cert.Spec.R.h3 (Wa (Proc.devRef .tc main_arg0)) (Wa (Proc.devRef .tc main_arg2)) (Wa (Proc.devRef .tc main_arg3))
          (i 0) (i 1) (i 2) := by
  funext i
  obtain ⟨n, hd, d, rfl⟩ : ∃ (n : Fin 8192) (hd : Fin 2) (d : Fin 128), i = ix3 n hd d := ⟨i 0, i 1, i 2, eq_ix3 i⟩
  exact (congrFun (after_v4 Wa) _).trans (T4_apply _ _ _ n hd d)

/-- Row 0 of the edge list (the sources). -/
theorem a_v6 :
    (after (opsA (F := Ideal)) Wa (Proc.devRef .tc main_v6) : S261657.Idx → BitVec 32)
      = fun i => Wa (Proc.devRef .tc main_arg6) (ix2 (0 : Fin 2) (i 0)) := by
  after_results
  funext i
  obtain ⟨e, rfl⟩ : ∃ e : Fin 261657, i = ix1 e := ⟨i 0, eq_ix1 i⟩
  exact row_apply _ 0 0 rfl _ _ e

/-- Row 1 of the edge list (the destinations). -/
theorem a_v8 :
    (after (opsA (F := Ideal)) Wa (Proc.devRef .tc main_v8) : S261657.Idx → BitVec 32)
      = fun i => Wa (Proc.devRef .tc main_arg6) (ix2 (1 : Fin 2) (i 0)) := by
  after_results
  funext i
  obtain ⟨e, rfl⟩ : ∃ e : Fin 261657, i = ix1 e := ⟨i 0, eq_ix1 i⟩
  exact row_apply _ 1 1 rfl _ _ e

/-- The summed projections of an edge's two ends, the node numbers in range. -/
theorem a_v27 (hr : ∀ i, (Wa (Proc.devRef .tc main_arg6) i).toNat < 8192) :
    (after (opsA (F := Ideal)) Wa (Proc.devRef .tc main_v27) : S261657x2x64.Idx → EReal)
      = fun i => Cert.Spec.R.sv (Wa (Proc.devRef .tc main_arg0)) (Wa (Proc.devRef .tc main_arg2)) (Wa (Proc.devRef .tc main_arg3))
          (Wa (Proc.devRef .tc main_arg4)) (Cert.Spec.nodeOf (Wa (Proc.devRef .tc main_arg6)) hr 0)
          (Cert.Spec.nodeOf (Wa (Proc.devRef .tc main_arg6)) hr 1) (i 0) (i 1) (i 2) := by
  funext i
  obtain ⟨e, hd, f, rfl⟩ : ∃ (e : Fin 261657) (hd : Fin 2) (f : Fin 64), i = ix3 e hd f := ⟨i 0, i 1, i 2, eq_ix3 i⟩
  refine (congrFun (after_v27 Wa) _).trans ?_
  rw [addf_apply,
    Side_apply _ _ _ _ _ e hd f _ (row_apply (Wa (Proc.devRef .tc main_arg6)) 0 0 rfl _ _ e) (hr (ix2 (0 : Fin 2) e)),
    Side_apply _ _ _ _ _ e hd f _ (row_apply (Wa (Proc.devRef .tc main_arg6)) 1 1 rfl _ _ e) (hr (ix2 (1 : Fin 2) e))]
  refine congrArg₂ (· + ·) (Finset.sum_congr rfl fun d _ => ?_) (Finset.sum_congr rfl fun d _ => ?_)
  · rw [top_apply]; rfl
  · rw [bottom_apply]; rfl

/-- The stretch leaves `A2` as it found it. -/
theorem a_arg5 : after (opsA (F := Ideal)) Wa (Proc.devRef .tc main_arg5) = Wa (Proc.devRef .tc main_arg5) := by
  exact StableHlo.after_of_forall_not_mem (b := Proc.devRef .tc main_arg5) _ _ (List.forall_iff_forall_mem.mp (by
    simp only [opsA, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.ReferenceIdeal.Val

end
-- ==== Proof.RValB.lean ====
/-
  The reference's second stretch read as values: the leaky rectifier of the summed projections, the product with `A2`,
  and the softmax along the edge axis (largest score from `-∞`, exponentials of the differences, their sum from 0, the
  quotient).
-/
import proofs.«401063_j42442866819268_2_alg».proof.Proof.RRun
import proofs.«401063_j42442866819268_2_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.ReferenceIdeal.Val

open Cert.ReferenceIdeal Cert.ReferenceIdeal.Gen
open Idealize.ShloMosaic Idealize.ShloMosaic.TcCoe Idealize.ShloMosaic.ValueIdx Idealize.ShloMosaic.StableHlo
open Idealize.SL.Sem

variable (Wa : Valuation τ sig (Elt Ideal))

/-! ### Each operation read at an index -/

/-- The rectifier over a table: where an entry is at least 0 the entry, else the slope times it. -/
private def lkV (v : FVec Ideal S261657x2x64 .f32) : FVec Ideal S261657x2x64 .f32 :=
  select (cmpf .oge v (broadcastInDim S261657x2x64 ![] bcast_S_S261657x2x64 (constant S_ .f32 0x00000000#32))) v
    (mulf (broadcastInDim S261657x2x64 ![] bcast_S_S261657x2x64 (constant S_ .f32 0x3C23D70A#32)) v)

private theorem lkV_apply (v : FVec Ideal S261657x2x64 .f32) (j : S261657x2x64.Idx) :
    lkV v j = Cert.Spec.leaky (v j) := rfl

/-- The product with the 64 × 1 table at (e, hd, 0): the sum over the 64 features. -/
private theorem dot_apply (L : FVec Ideal S261657x2x64 .f32) (a2 : FVec Ideal S64x1 .f32) (e : Fin 261657) (hd : Fin 2) :
    Host.dotGeneral dot_S261657x2x64_S64x1_S261657x2x1_2_0_01_1_n_n none L a2 (ix3 e hd (0 : Fin 1))
      = ∑ f : Fin 64, L (ix3 e hd f) * a2 (ix2 f (0 : Fin 1)) := by
  show FloatOps.dotGeneral _ none _ L a2 (ix3 e hd (0 : Fin 1)) = _
  rw [Ideal.dotGeneral_apply,
    ← Equiv.sum_comp (contrEquiv1 dot_S261657x2x64_S64x1_S261657x2x1_2_0_01_1_n_n 64 rfl rfl).symm]
  refine Finset.sum_congr rfl fun c _ => ?_
  have c3 := contrEquiv1_symm_val dot_S261657x2x64_S64x1_S261657x2x1_2_0_01_1_n_n 64 rfl rfl c
  have l3 : dot_S261657x2x64_S64x1_S261657x2x1_2_0_01_1_n_n.lhsIdx (ix3 e hd (0 : Fin 1))
      ((contrEquiv1 _ 64 rfl rfl).symm c) = ix3 e hd c := by
    funext ax; apply Fin.ext
    match ax with
    | ⟨0, _⟩ => simp [DotDims.lhsIdx, dot_S261657x2x64_S64x1_S261657x2x1_2_0_01_1_n_n] <;> rfl
    | ⟨1, _⟩ => simp [DotDims.lhsIdx, dot_S261657x2x64_S64x1_S261657x2x1_2_0_01_1_n_n] <;> rfl
    | ⟨2, _⟩ => simp [DotDims.lhsIdx, dot_S261657x2x64_S64x1_S261657x2x1_2_0_01_1_n_n] <;> exact c3
  have r3 : dot_S261657x2x64_S64x1_S261657x2x1_2_0_01_1_n_n.rhsIdx (ix3 e hd (0 : Fin 1))
      ((contrEquiv1 _ 64 rfl rfl).symm c) = ix2 c (0 : Fin 1) := by
    funext ax; apply Fin.ext
    match ax with
    | ⟨0, _⟩ => simp [DotDims.rhsIdx, dot_S261657x2x64_S64x1_S261657x2x1_2_0_01_1_n_n] <;> exact c3
    | ⟨1, _⟩ => simp [DotDims.rhsIdx, dot_S261657x2x64_S64x1_S261657x2x1_2_0_01_1_n_n] <;> rfl
  rw [l3, r3]

/-- Dropping the trailing unit axis keeps the row-major position. -/
private theorem reshape_apply (x : FVec Ideal S261657x2x1 .f32) (e : Fin 261657) (hd : Fin 2) :
    shapeCast S261657x2 x shapeCasts_S261657x2x1_S261657x2 (ix2 e hd) = x (ix3 e hd (0 : Fin 1)) :=
  shapeCast_apply x _ _ _ (by
    rw [Shape.rowMajor_val_three, Shape.rowMajor_val_two]
    show (e.val * 2 + hd.val) * 1 + 0 = e.val * 2 + hd.val
    omega)

private theorem redS : S261657x2.Reduces [0] S2 := by decide

private theorem lift_eq (hd : Fin 2) (e : Fin 261657) : redS.lift (ix1 hd) e = ix2 e hd := by
  funext c; apply Fin.ext
  match c with
  | ⟨0, _⟩ => rfl
  | ⟨1, _⟩ => rfl

private theorem negInf : Ideal.ofBits .f32 0xFF800000#32 = (⊥ : EReal) := by simp [Ideal.ofBits, Ideal.ieee]

/-- A table of the word of -∞ reads -∞. -/
private theorem bcast_negInf (j : S2.Idx) :
    broadcastInDim S2 ![] bcast_S_S2 (constant (F := Ideal) S_ .f32 0xFF800000#32) j = (⊥ : EReal) :=
  (show _ = Ideal.ofBits .f32 0xFF800000#32 from rfl).trans negInf

/-- A column's largest entry from -∞ is the fold of max over the rows. -/
private theorem reduce_max_apply (s : FVec Ideal S261657x2 .f32) (hd : Fin 2) :
    Host.reduce FloatOps.maximumf s (constant S_ .f32 0xFF800000#32) reducesTo_S261657x2_S2_d0 h_S_ (ix1 hd)
      = (Finset.univ : Finset (Fin 261657)).fold max ⊥ (fun e => s (ix2 e hd)) := by
  refine (Host.reduce_eq_fold_single FloatOps.maximumf s _ reducesTo_S261657x2_S2_d0 redS h_S_ (ix1 hd)).trans ?_
  show (Finset.univ : Finset (Fin 261657)).fold max (Ideal.ofBits .f32 0xFF800000#32) (s ∘ redS.lift (ix1 hd)) = _
  rw [negInf]
  exact congrArg (fun g => (Finset.univ : Finset (Fin 261657)).fold max ⊥ g) (funext fun e => congrArg s (lift_eq hd e))

/-- The largest entry of a column from -∞, then its maximum with -∞ (max ⊥ y = y): the fold of max over the rows. -/
private theorem max_apply (s : FVec Ideal S261657x2 .f32) (hd : Fin 2) :
    maximumf (broadcastInDim S2 ![] bcast_S_S2 (constant S_ .f32 0xFF800000#32))
      (Host.reduce FloatOps.maximumf s (constant S_ .f32 0xFF800000#32) reducesTo_S261657x2_S2_d0 h_S_) (ix1 hd)
      = (Finset.univ : Finset (Fin 261657)).fold max ⊥ (fun e => s (ix2 e hd)) := by
  rw [maximumf_apply, reduce_max_apply, bcast_negInf]
  exact max_bot_left _

/-- A column table spread over the rows reads its column's entry. -/
private theorem spread_apply (m : FVec Ideal S2 .f32) (e : Fin 261657) (hd : Fin 2) :
    broadcastInDim S261657x2 ![0, 1] bcast_S1x2_S261657x2_0_1 (broadcastInDim S1x2 ![1] bcast_S2_S1x2_1 m) (ix2 e hd)
      = m (ix1 hd) := by
  refine (broadcastInDim_apply _ _ _ (ix2 e hd) (ix2 (0 : Fin 1) hd) fun a => ?_).trans ?_
  · match a with
    | ⟨0, _⟩ => rfl
    | ⟨1, _⟩ => rfl
  · refine broadcastInDim_apply _ _ _ (ix2 (0 : Fin 1) hd) (ix1 hd) fun a => ?_
    match a with
    | ⟨0, _⟩ => rfl

/-- The sum of a column from 0. -/
private theorem sum_apply (x : FVec Ideal S261657x2 .f32) (hd : Fin 2) :
    Host.reduceAdd x (constant S_ .f32 0x00000000#32) reducesTo_S261657x2_S2_d0 h_S_ (ix1 hd)
      = ∑ e : Fin 261657, x (ix2 e hd) := by
  show Ideal.hostReduceAdd reducesTo_S261657x2_S2_d0 x (Ideal.ofBits .f32 0x00000000#32) (ix1 hd) = _
  rw [Ideal.hostReduceAdd_single reducesTo_S261657x2_S2_d0 redS, Ideal.ofBits_zero_f32, zero_add]
  exact Finset.sum_congr rfl fun e _ => congrArg x (lift_eq hd e)

/-! ### The stretch as one function of the summed projections and `A2` -/

/-- The scores: the rectified table times `A2`, the unit axis dropped. -/
private def scV (v : FVec Ideal S261657x2x64 .f32) (a2 : FVec Ideal S64x1 .f32) : FVec Ideal S261657x2 .f32 :=
  fun i => shapeCast S261657x2 (Host.dotGeneral dot_S261657x2x64_S64x1_S261657x2x1_2_0_01_1_n_n none (lkV v) a2)
    shapeCasts_S261657x2x1_S261657x2 i

private theorem scV_apply (v : FVec Ideal S261657x2x64 .f32) (a2 : FVec Ideal S64x1 .f32) (e : Fin 261657) (hd : Fin 2) :
    scV v a2 (ix2 e hd) = ∑ f : Fin 64, Cert.Spec.leaky (v (ix3 e hd f)) * a2 (ix2 f (0 : Fin 1)) :=
  (reshape_apply _ e hd).trans (dot_apply (lkV v) a2 e hd)

/-- The largest score of each head. -/
private def mxV (s : FVec Ideal S261657x2 .f32) : FVec Ideal S2 .f32 :=
  maximumf (broadcastInDim S2 ![] bcast_S_S2 (constant S_ .f32 0xFF800000#32))
    (Host.reduce FloatOps.maximumf s (constant S_ .f32 0xFF800000#32) reducesTo_S261657x2_S2_d0 h_S_)

/-- The exponentials of the scores less their head's largest. -/
private def exV (s : FVec Ideal S261657x2 .f32) : FVec Ideal S261657x2 .f32 :=
  Host.exp (subf s (broadcastInDim S261657x2 ![0, 1] bcast_S1x2_S261657x2_0_1
    (broadcastInDim S1x2 ![1] bcast_S2_S1x2_1 (mxV s))))

private theorem exV_apply (s : FVec Ideal S261657x2 .f32) (e : Fin 261657) (hd : Fin 2) :
    exV s (ix2 e hd)
      = Ideal.exp (s (ix2 e hd) - (Finset.univ : Finset (Fin 261657)).fold max ⊥ (fun e' => s (ix2 e' hd))) := by
  show Ideal.exp (s (ix2 e hd) - broadcastInDim S261657x2 ![0, 1] bcast_S1x2_S261657x2_0_1
    (broadcastInDim S1x2 ![1] bcast_S2_S1x2_1 (mxV s)) (ix2 e hd)) = _
  rw [spread_apply]
  exact congrArg (fun t => Ideal.exp (s (ix2 e hd) - t)) (max_apply s hd)

/-- A quotient of tables at an index is the quotient of the entries. -/
private theorem divf_at (a b : FVec Ideal S261657x2 .f32) (i : S261657x2.Idx) : Host.divf a b i = Ideal.div (a i) (b i) := rfl

/-- The exponentials over their head's sum. -/
private def attV (s : FVec Ideal S261657x2 .f32) : FVec Ideal S261657x2 .f32 :=
  Host.divf (exV s) (broadcastInDim S261657x2 ![0, 1] bcast_S1x2_S261657x2_0_1
    (broadcastInDim S1x2 ![1] bcast_S2_S1x2_1
      (Host.reduceAdd (exV s) (constant S_ .f32 0x00000000#32) reducesTo_S261657x2_S2_d0 h_S_)))

private theorem attV_apply (s : FVec Ideal S261657x2 .f32) (e : Fin 261657) (hd : Fin 2) :
    attV s (ix2 e hd) = Ideal.div (exV s (ix2 e hd)) (∑ e' : Fin 261657, exV s (ix2 e' hd)) := by
  unfold attV
  rw [divf_at, spread_apply, sum_apply]

/-- The stretch's last buffer is that function of the two it reads. -/
private theorem b_v41_fn :
    (after (opsB (F := Ideal)) Wa (Proc.devRef .tc main_v41) : S261657x2.Idx → EReal)
      = attV (scV (Wa (Proc.devRef .tc main_v27)) (Wa (Proc.devRef .tc main_arg5))) := by
  after_results_simp
  simp only [TRef.ofBuf, TRef.toBuf, cast_eq]
  rfl

/-- The edges' weights, from the summed projections and `A2` as the stretch finds them. -/
theorem b_v41 :
    (after (opsB (F := Ideal)) Wa (Proc.devRef .tc main_v41) : S261657x2.Idx → EReal)
      = fun i => Cert.Spec.R.attT (Wa (Proc.devRef .tc main_arg5))
          (fun e hd f => Wa (Proc.devRef .tc main_v27) (ix3 e hd f)) (i 0) (i 1) := by
  rw [b_v41_fn]
  funext i
  obtain ⟨e, hd, rfl⟩ : ∃ (e : Fin 261657) (hd : Fin 2), i = ix2 e hd := ⟨i 0, i 1, eq_ix2 i⟩
  show attV _ (ix2 e hd) = Cert.Spec.R.attT _ _ e hd
  have hs : ∀ (e : Fin 261657) (hd : Fin 2),
      scV (Wa (Proc.devRef .tc main_v27)) (Wa (Proc.devRef .tc main_arg5)) (ix2 e hd)
        = Cert.Spec.R.scoreT (Wa (Proc.devRef .tc main_arg5))
            (fun e hd f => Wa (Proc.devRef .tc main_v27) (ix3 e hd f)) e hd :=
    fun e hd => scV_apply _ _ e hd
  rw [attV_apply]
  simp only [exV_apply, hs]
  rfl

/-- The stretch leaves the projected features and the edge list's rows as it found them. -/
theorem b_v4 : after (opsB (F := Ideal)) Wa (Proc.devRef .tc main_v4) = Wa (Proc.devRef .tc main_v4) :=
  StableHlo.after_of_forall_not_mem (b := Proc.devRef .tc main_v4) _ _ (List.forall_iff_forall_mem.mp (by
    simp only [opsB, StableHlo.TRef.nullary, StableHlo.TRef.unary, StableHlo.TRef.binary, StableHlo.TRef.ternary,
      List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem b_v6 : after (opsB (F := Ideal)) Wa (Proc.devRef .tc main_v6) = Wa (Proc.devRef .tc main_v6) :=
  StableHlo.after_of_forall_not_mem (b := Proc.devRef .tc main_v6) _ _ (List.forall_iff_forall_mem.mp (by
    simp only [opsB, StableHlo.TRef.nullary, StableHlo.TRef.unary, StableHlo.TRef.binary, StableHlo.TRef.ternary,
      List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem b_v8 : after (opsB (F := Ideal)) Wa (Proc.devRef .tc main_v8) = Wa (Proc.devRef .tc main_v8) :=
  StableHlo.after_of_forall_not_mem (b := Proc.devRef .tc main_v8) _ _ (List.forall_iff_forall_mem.mp (by
    simp only [opsB, StableHlo.TRef.nullary, StableHlo.TRef.unary, StableHlo.TRef.binary, StableHlo.TRef.ternary,
      List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

end Cert.ReferenceIdeal.Val

end
-- ==== Proof.RValC.lean ====
/-
  The reference's third stretch read as values: each edge's weight times its destination's features (a gather, the node
  numbers in range), scattered with addition onto the edge's source node from a zero table (an update lands on the node
  its in-range index names; the sum over the updates landing on an entry is the sum over the edges whose source is that
  node), summed over the two heads from 0 and divided by the word of 2.
-/
import proofs.«401063_j42442866819268_2_alg».proof.Proof.RRun
import proofs.«401063_j42442866819268_2_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.ReferenceIdeal.Val

open Cert.ReferenceIdeal Cert.ReferenceIdeal.Gen
open Idealize.ShloMosaic Idealize.ShloMosaic.TcCoe Idealize.ShloMosaic.ValueIdx Idealize.ShloMosaic.StableHlo
open Idealize.SL.Sem

variable (Wa : Valuation τ sig (Elt Ideal))

/-- A node word made non-negative the way the program does it: the word plus 8192 where it reads negative, the word itself
    elsewhere; laid as a one-column table. -/
private def normC (w : IVec S261657 32) : IVec S261657x1 32 :=
  broadcastInDim S261657x1 ![0] bcast_S261657_S261657x1_0
    (select (cmpi CmpIPredicate.slt w (broadcastInDim S261657 ![] bcast_S_S261657 (constantI S_ 32 0#32)))
      (addi w (broadcastInDim S261657 ![] bcast_S_S261657 (constantI S_ 32 8192#32))) w)

/-- A vector laid as a one-column table reads, at row e, the vector at e. -/
private theorem col_apply {α : Type} (v : S261657.Idx → α) (e : Fin 261657) (z : Fin 1) :
    broadcastInDim S261657x1 ![0] bcast_S261657_S261657x1_0 v (ix2 e z) = v (ix1 e) := by
  simp only [broadcastInDim]
  congr 1
  funext a
  match a with
  | ⟨0, _⟩ =>
    apply Fin.ext
    split
    · next h1 => exact absurd h1 (show ¬ (261657 : Nat) = 1 by decide)
    · rfl

/-- An in-range word is not negative, so the normalised table holds the word itself. -/
private theorem normC_apply (w : IVec S261657 32) (e : Fin 261657) (z : Fin 1) (h : (w (ix1 e)).toNat < 8192) :
    normC w (ix2 e z) = w (ix1 e) := by
  unfold normC
  rw [col_apply]
  show Scalar.select (IntOp.cmpi .slt (w (ix1 e)) 0#32) (IntOp.addi (w (ix1 e)) 8192#32) (w (ix1 e)) = w (ix1 e)
  have hn : ¬ IntOp.cmpi .slt (w (ix1 e)) 0#32 = 1#1 := by
    rw [Predicate.slt_iff_toNat (by omega) (by decide)]
    simp
  rw [eq_zero_of_ne_one hn, select_zero]

/-- The gather of whole [2,128] rows of a node table at a one-column table of row numbers reads, at (e, hd, d), the table
    at (the row number of e clamped to the last row, hd, d); an in-range number is its own clamp. -/
private theorem gatherC_apply {α : Type} (x : S8192x2x128.Idx → α) (idx : IVec S261657x1 32) (e : Fin 261657) (hd : Fin 2) (d : Fin 128)
    (h : (idx (ix2 e 0)).toNat < 8192) :
    Host.gather gather_S8192x2x128_S261657x1_S261657x2x128_12_0_n_n_0_1_12128 x idx (ix3 e hd d)
      = x (ix3 (⟨(idx (ix2 e 0)).toNat, h⟩ : Fin 8192) hd d) := by
  unfold Host.gather
  congr 1
  funext a
  apply Fin.ext
  match a with
  | ⟨0, _⟩ =>
    show GatherDims.start _ (ix3 e hd d) idx 0 + GatherDims.batchCoord _ (ix3 e hd d) 0 + GatherDims.offCoord _ (ix3 e hd d) 0 = (idx (ix2 e 0)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S8192x2x128_S261657x1_S261657x2x128_12_0_n_n_0_1_12128.startIndexMap from List.mem_singleton.mpr rfl)]
    have hsi : gather_S8192x2x128_S261657x1_S261657x2x128_12_0_n_n_0_1_12128.siIdx (ix3 e hd d)
        ⟨List.idxOf (0 : Fin 3) gather_S8192x2x128_S261657x1_S261657x2x128_12_0_n_n_0_1_12128.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi, Predicate.toInt_eq_toNat_of_lt (by omega), Int.toNat_natCast]
    show min (idx (ix2 e 0)).toNat (8192 - 1) = _
    omega
  | ⟨1, _⟩ =>
    show GatherDims.start _ (ix3 e hd d) idx 1 + GatherDims.batchCoord _ (ix3 e hd d) 1 + GatherDims.offCoord _ (ix3 e hd d) 1 = hd.val
    rw [GatherDims.batchCoord_eq_zero _ _ _ List.not_mem_nil]
    unfold GatherDims.start GatherDims.offCoord
    rw [dif_neg (by decide), dif_pos (by decide)]
    simp only [Nat.add_zero, Nat.zero_add]
    rfl
  | ⟨2, _⟩ =>
    show GatherDims.start _ (ix3 e hd d) idx 2 + GatherDims.batchCoord _ (ix3 e hd d) 2 + GatherDims.offCoord _ (ix3 e hd d) 2 = d.val
    rw [GatherDims.batchCoord_eq_zero _ _ _ List.not_mem_nil]
    unfold GatherDims.start GatherDims.offCoord
    rw [dif_neg (by decide), dif_pos (by decide)]
    simp only [Nat.add_zero, Nat.zero_add]
    rfl

private abbrev SD := scatter_S8192x2x128_S261657x1_S261657x2x128_12_0_0_1

/-- Where an update lands: its edge's row number read signed (no clamp) on the node axis, its own head and feature. -/
private theorem scat_start0 (idx : IVec S261657x1 32) (e : Fin 261657) (hd : Fin 2) (d : Fin 128)
    (h : (idx (ix2 e 0)).toNat < 8192) :
    SD.start (ix3 e hd d) idx 0 = ((idx (ix2 e 0)).toNat : Int) := by
  unfold ScatterDims.start
  rw [dif_pos (show (0 : Fin 3) ∈ SD.scatterDimsToOperandDims from List.mem_singleton.mpr rfl)]
  have hsi : SD.siIdx (ix3 e hd d)
      ⟨List.idxOf (0 : Fin 3) SD.scatterDimsToOperandDims, List.idxOf_lt_length_iff.2 (List.mem_singleton.mpr rfl)⟩ = ix2 e 0 := by
    funext b; refine Fin.ext ?_
    match b with
    | ⟨0, _⟩ => rfl
    | ⟨1, _⟩ => rfl
  rw [hsi, Predicate.toInt_eq_toNat_of_lt (by omega)]

private theorem scat_start1 (idx : IVec S261657x1 32) (j : S261657x2x128.Idx) : SD.start j idx 1 = 0 := by
  unfold ScatterDims.start
  rw [dif_neg (by decide)]

private theorem scat_start2 (idx : IVec S261657x1 32) (j : S261657x2x128.Idx) : SD.start j idx 2 = 0 := by
  unfold ScatterDims.start
  rw [dif_neg (by decide)]

private theorem scat_window0 (j : S261657x2x128.Idx) : SD.window j 0 = 0 := by
  unfold ScatterDims.window
  rw [dif_neg (by decide)]

private theorem scat_window1 (e : Fin 261657) (hd : Fin 2) (d : Fin 128) : SD.window (ix3 e hd d) 1 = hd.val := by
  unfold ScatterDims.window
  rw [dif_pos (by decide)]
  rfl

private theorem scat_window2 (e : Fin 261657) (hd : Fin 2) (d : Fin 128) : SD.window (ix3 e hd d) 2 = d.val := by
  unfold ScatterDims.window
  rw [dif_pos (by decide)]
  rfl

private theorem scat_resultIdx (idx : IVec S261657x1 32) (e : Fin 261657) (hd : Fin 2) (d : Fin 128)
    (h : (idx (ix2 e 0)).toNat < 8192) :
    SD.resultIdx? (ix3 e hd d) idx = some (ix3 (⟨(idx (ix2 e 0)).toNat, h⟩ : Fin 8192) hd d) := by
  have hall : ∀ a : Fin S8192x2x128.rank, 0 ≤ SD.start (ix3 e hd d) idx a + (SD.window (ix3 e hd d) a : Int)
      ∧ SD.start (ix3 e hd d) idx a + (SD.window (ix3 e hd d) a : Int) < (S8192x2x128.size a : Int) := by
    intro a
    match a with
    | ⟨0, _⟩ =>
      show 0 ≤ SD.start (ix3 e hd d) idx 0 + (SD.window (ix3 e hd d) 0 : Int)
        ∧ SD.start (ix3 e hd d) idx 0 + (SD.window (ix3 e hd d) 0 : Int) < ((8192 : Nat) : Int)
      rw [scat_start0 idx e hd d h, scat_window0]; omega
    | ⟨1, _⟩ =>
      show 0 ≤ SD.start (ix3 e hd d) idx 1 + (SD.window (ix3 e hd d) 1 : Int)
        ∧ SD.start (ix3 e hd d) idx 1 + (SD.window (ix3 e hd d) 1 : Int) < ((2 : Nat) : Int)
      rw [scat_start1, scat_window1]; have := hd.isLt; omega
    | ⟨2, _⟩ =>
      show 0 ≤ SD.start (ix3 e hd d) idx 2 + (SD.window (ix3 e hd d) 2 : Int)
        ∧ SD.start (ix3 e hd d) idx 2 + (SD.window (ix3 e hd d) 2 : Int) < ((128 : Nat) : Int)
      rw [scat_start2, scat_window2]; have := d.isLt; omega
  unfold ScatterDims.resultIdx?
  rw [dif_pos hall]
  congr 1
  funext a
  apply Fin.ext
  match a with
  | ⟨0, _⟩ =>
    show (SD.start (ix3 e hd d) idx 0 + (SD.window (ix3 e hd d) 0 : Int)).toNat = (idx (ix2 e 0)).toNat
    rw [scat_start0 idx e hd d h, scat_window0]; omega
  | ⟨1, _⟩ =>
    show (SD.start (ix3 e hd d) idx 1 + (SD.window (ix3 e hd d) 1 : Int)).toNat = hd.val
    rw [scat_start1, scat_window1]; omega
  | ⟨2, _⟩ =>
    show (SD.start (ix3 e hd d) idx 2 + (SD.window (ix3 e hd d) 2 : Int)).toNat = d.val
    rw [scat_start2, scat_window2]; omega

/-- The weights laid along the feature axis read, at (e, hd, d), the weight of (e, hd). -/
private theorem wts_apply {α : Type} (v : S261657x2.Idx → α) (e : Fin 261657) (hd : Fin 2) (d : Fin 128) :
    broadcastInDim S261657x2x128 ![0, 1, 2] bcast_S261657x2x1_S261657x2x128_0_1_2
      (broadcastInDim S261657x2x1 ![0, 1] bcast_S261657x2_S261657x2x1_0_1 v) (ix3 e hd d) = v (ix2 e hd) := by
  simp only [broadcastInDim]
  congr 1
  funext a
  match a with
  | ⟨0, _⟩ =>
    apply Fin.ext
    split
    · next h1 => exact absurd h1 (show ¬ (261657 : Nat) = 1 by decide)
    · split
      · next h2 => exact absurd h2 (show ¬ (261657 : Nat) = 1 by decide)
      · rfl
  | ⟨1, _⟩ =>
    apply Fin.ext
    split
    · next h1 => exact absurd h1 (show ¬ (2 : Nat) = 1 by decide)
    · split
      · next h2 => exact absurd h2 (show ¬ (2 : Nat) = 1 by decide)
      · rfl

/-- The messages: each edge's weight, laid along the features, times its destination's gathered row. -/
private def msgC (w41 : FVec Ideal S261657x2 .f32) (t4 : FVec Ideal S8192x2x128 .f32) (i8 : IVec S261657 32) :
    FVec Ideal S261657x2x128 .f32 :=
  mulf
    (broadcastInDim S261657x2x128 ![0, 1, 2] bcast_S261657x2x1_S261657x2x128_0_1_2
      (broadcastInDim S261657x2x1 ![0, 1] bcast_S261657x2_S261657x2x1_0_1 w41))
    (Host.gather gather_S8192x2x128_S261657x1_S261657x2x128_12_0_n_n_0_1_12128 t4 (normC i8))

/-- A message at (e, hd, d): the weight of (e, hd) times the destination node's feature (hd, d). -/
private theorem msgC_apply (w41 : FVec Ideal S261657x2 .f32) (t4 : FVec Ideal S8192x2x128 .f32) (i8 : IVec S261657 32)
    (e : Fin 261657) (hd : Fin 2) (d : Fin 128) (h : (i8 (ix1 e)).toNat < 8192) :
    msgC w41 t4 i8 (ix3 e hd d) = w41 (ix2 e hd) * t4 (ix3 (⟨(i8 (ix1 e)).toNat, h⟩ : Fin 8192) hd d) := by
  unfold msgC
  rw [mulf_apply, wts_apply]
  have hn := normC_apply i8 e 0 h
  have h' : (normC i8 (ix2 e 0)).toNat < 8192 := by rw [hn]; exact h
  rw [gatherC_apply t4 (normC i8) e hd d h']
  have key : (⟨(normC i8 (ix2 e 0)).toNat, h'⟩ : Fin 8192) = ⟨(i8 (ix1 e)).toNat, h⟩ := Fin.ext (congrArg BitVec.toNat hn)
  rw [key]

/-- The scatter with addition at (n, hd, d): the table's entry plus the updates (e, hd, d) of the edges e whose in-range
    row number is n — an update lands at its row number, its own head and its own feature, so the updates landing on
    (n, hd, d) are exactly those. -/
private theorem scatC_apply (x : FVec Ideal S8192x2x128 .f32) (idx : IVec S261657x1 32) (upd : FVec Ideal S261657x2x128 .f32)
    (hin : ∀ e : Fin 261657, (idx (ix2 e 0)).toNat < 8192) (n : Fin 8192) (hd : Fin 2) (d : Fin 128) :
    Host.scatterAdd (F := Ideal) SD x idx upd (ix3 n hd d)
      = x (ix3 n hd d)
        + ∑ e ∈ Finset.univ.filter (fun e : Fin 261657 => (⟨(idx (ix2 e 0)).toNat, hin e⟩ : Fin 8192) = n), upd (ix3 e hd d) := by
  show Ideal.hostScatterAdd SD x idx upd (ix3 n hd d) = _
  unfold Ideal.hostScatterAdd
  refine congrArg (x (ix3 n hd d) + ·) ?_
  have hland : ∀ j : S261657x2x128.Idx, SD.resultIdx? j idx = some (ix3 n hd d) →
      (⟨(idx (ix2 (j 0 : Fin 261657) 0)).toNat, hin _⟩ : Fin 8192) = n ∧ ix3 (j 0 : Fin 261657) hd d = j := by
    intro j hj
    obtain ⟨e, hd', d', rfl⟩ : ∃ (e : Fin 261657) (hd' : Fin 2) (d' : Fin 128), j = ix3 e hd' d' := ⟨j 0, j 1, j 2, eq_ix3 j⟩
    rw [scat_resultIdx idx e hd' d' (hin e)] at hj
    have hj' := Option.some.inj hj
    have h0 : (⟨(idx (ix2 e 0)).toNat, hin e⟩ : Fin 8192) = n := congrFun hj' 0
    have h1 : hd' = hd := congrFun hj' 1
    have h2 : d' = d := congrFun hj' 2
    subst h1; subst h2
    exact ⟨h0, rfl⟩
  refine Finset.sum_nbij' (fun j => (j 0 : Fin 261657)) (fun e => ix3 e hd d) ?_ ?_ ?_ ?_ ?_
  · intro j hj
    exact Finset.mem_filter.mpr ⟨Finset.mem_univ _, (hland j (Finset.mem_filter.mp hj).2).1⟩
  · intro e he
    refine Finset.mem_filter.mpr ⟨Finset.mem_univ _, ?_⟩
    rw [scat_resultIdx idx e hd d (hin e), (Finset.mem_filter.mp he).2]
  · intro j hj
    exact (hland j (Finset.mem_filter.mp hj).2).2
  · intro e he
    rfl
  · intro j hj
    exact congrArg upd (hland j (Finset.mem_filter.mp hj).2).2.symm

/-- The sum over the head axis from the word of 0, at (n, d): the two heads' entries added. -/
private theorem redC_apply (X : FVec Ideal S8192x2x128 .f32) (n : Fin 8192) (d : Fin 128) :
    Host.reduceAdd (F := Ideal) X (constant (F := Ideal) S_ .f32 0x00000000#32) reducesTo_S8192x2x128_S8192x128_d1 h_S_ (ix2 n d)
      = ∑ hd : Fin 2, X (ix3 n hd d) := by
  have hR : S8192x2x128.Reduces [1] S8192x128 := by decide
  show Ideal.hostReduceAdd reducesTo_S8192x2x128_S8192x128_d1 X (Ideal.ofBits .f32 0x00000000#32) (ix2 n d) = _
  rw [Ideal.hostReduceAdd_single _ hR, Ideal.ofBits_zero_f32, zero_add]
  refine Finset.sum_congr rfl fun hd _ => congrArg X ?_
  funext c
  apply Fin.ext
  match c with
  | ⟨0, _⟩ => rfl
  | ⟨1, _⟩ => rfl
  | ⟨2, _⟩ => rfl

/-- The stretch as one function of the four tables it reads. -/
private def resC (w41 : FVec Ideal S261657x2 .f32) (i8 i6 : IVec S261657 32) (t4 : FVec Ideal S8192x2x128 .f32) :
    FVec Ideal S8192x128 .f32 :=
  Host.divf (F := Ideal)
    (Host.reduceAdd (F := Ideal)
      (Host.scatterAdd (F := Ideal) scatter_S8192x2x128_S261657x1_S261657x2x128_12_0_0_1
        (broadcastInDim S8192x2x128 ![] bcast_S_S8192x2x128 (constant (F := Ideal) S_ .f32 0x00000000#32))
        (normC i6) (msgC w41 t4 i8))
      (constant (F := Ideal) S_ .f32 0x00000000#32) reducesTo_S8192x2x128_S8192x128_d1 h_S_)
    (broadcastInDim S8192x128 ![] bcast_S_S8192x128 (constant (F := Ideal) S_ .f32 0x40000000#32))

/-- The stretch at (n, d) is the specification's last stage over the tables. -/
private theorem resC_apply (w41 : FVec Ideal S261657x2 .f32) (i8 i6 : IVec S261657 32) (t4 : FVec Ideal S8192x2x128 .f32)
    (h6 : ∀ i, (i6 i).toNat < 8192) (h8 : ∀ i, (i8 i).toNat < 8192) (n : Fin 8192) (d : Fin 128) :
    resC w41 i8 i6 t4 (ix2 n d)
      = Cert.Spec.R.outT (fun e => (⟨(i6 (ix1 e)).toNat, h6 _⟩ : Fin 8192)) (fun e => (⟨(i8 (ix1 e)).toNat, h8 _⟩ : Fin 8192))
          (fun e hd => w41 (ix2 e hd)) (fun n hd d => t4 (ix3 n hd d)) n d := by
  unfold resC Cert.Spec.R.outT Cert.Spec.R.aggT
  show Ideal.div (Host.reduceAdd (F := Ideal) _ _ reducesTo_S8192x2x128_S8192x128_d1 h_S_ (ix2 n d)) (Ideal.ofBits .f32 0x40000000#32) = _
  rw [redC_apply]
  refine congrArg (fun s => Ideal.div s Cert.Spec.two) ?_
  refine Finset.sum_congr rfl fun hd _ => ?_
  have hin : ∀ e : Fin 261657, (normC i6 (ix2 e 0)).toNat < 8192 := fun e => by
    rw [normC_apply i6 e 0 (h6 _)]; exact h6 _
  rw [scatC_apply _ _ _ hin]
  have hz : broadcastInDim S8192x2x128 ![] bcast_S_S8192x2x128 (constant (F := Ideal) S_ .f32 0x00000000#32) (ix3 n hd d) = (0 : EReal) :=
    Ideal.ofBits_zero_f32
  rw [hz, zero_add]
  refine Finset.sum_congr (Finset.filter_congr fun e _ => ?_) fun e _ => msgC_apply w41 t4 i8 e hd d (h8 _)
  rw [Fin.ext_iff, Fin.ext_iff]
  show (normC i6 (ix2 e 0)).toNat = n.val ↔ (i6 (ix1 e)).toNat = n.val
  rw [normC_apply i6 e 0 (h6 _)]

/-- The result, from the weights, the projected features and the edge list's rows as the stretch finds them. -/
theorem c_v62 (hr6 : ∀ i, (Wa (Proc.devRef .tc main_v6) i).toNat < 8192) (hr8 : ∀ i, (Wa (Proc.devRef .tc main_v8) i).toNat < 8192) :
    (after (opsC (F := Ideal)) Wa (Proc.devRef .tc main_v62) : S8192x128.Idx → EReal)
      = fun i => Cert.Spec.R.outT
          (fun e => (⟨(Wa (Proc.devRef .tc main_v6) (ix1 e)).toNat, hr6 _⟩ : Fin 8192))
          (fun e => (⟨(Wa (Proc.devRef .tc main_v8) (ix1 e)).toNat, hr8 _⟩ : Fin 8192))
          (fun e hd => Wa (Proc.devRef .tc main_v41) (ix2 e hd))
          (fun n hd d => Wa (Proc.devRef .tc main_v4) (ix3 n hd d)) (i 0) (i 1) := by
  have hrun : (after (opsC (F := Ideal)) Wa (Proc.devRef .tc main_v62) : S8192x128.Idx → EReal)
      = resC (Wa (Proc.devRef .tc main_v41)) (Wa (Proc.devRef .tc main_v8)) (Wa (Proc.devRef .tc main_v6))
          (Wa (Proc.devRef .tc main_v4)) := by
    after_results_simp
    rfl
  rw [hrun]
  funext i
  obtain ⟨n, d, rfl⟩ : ∃ (n : Fin 8192) (d : Fin 128), i = ix2 n d := ⟨i 0, i 1, eq_ix2 i⟩
  exact resC_apply _ _ _ _ hr6 hr8 n d

end Cert.ReferenceIdeal.Val

end
-- ==== Proof.RValue.lean ====
/-
  The reference's result as one function of its arguments: the three stretches read in turn.
-/
import proofs.«401063_j42442866819268_2_alg».proof.Proof.RRun
import proofs.«401063_j42442866819268_2_alg».proof.Proof.Spec
import proofs.«401063_j42442866819268_2_alg».proof.Proof.RValA
import proofs.«401063_j42442866819268_2_alg».proof.Proof.RValB
import proofs.«401063_j42442866819268_2_alg».proof.Proof.RValC
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.ReferenceIdeal.Val

open Cert.ReferenceIdeal Cert.ReferenceIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The result buffer after the three stretches over the launch contents, the edge list's node numbers in range: the
    reference's spelling of the layer. -/
theorem value_v62 (d : Dev nD) (hr : ∀ i, (m ((d.tc : Thread nD τ).loc main_arg6) i).toNat < 8192) :
    (after (opsC (F := Ideal)) (after opsB (after opsA (launchContents m d))) (Proc.devRef .tc main_v62) : S8192x128.Idx → EReal)
      = fun i => Cert.Spec.R.out (m ((d.tc : Thread nD τ).loc main_arg0)) (m ((d.tc : Thread nD τ).loc main_arg2))
          (m ((d.tc : Thread nD τ).loc main_arg3)) (m ((d.tc : Thread nD τ).loc main_arg4)) (m ((d.tc : Thread nD τ).loc main_arg5))
          (Cert.Spec.nodeOf (m ((d.tc : Thread nD τ).loc main_arg6)) hr 0) (Cert.Spec.nodeOf (m ((d.tc : Thread nD τ).loc main_arg6)) hr 1)
          (i 0) (i 1) := by
  have hr0 : ∀ i, (launchContents m d (Proc.devRef .tc main_arg6) i).toNat < 8192 := hr
  -- the edge list's rows reach the third stretch untouched
  have e6 : after (opsB (F := Ideal)) (after opsA (launchContents m d)) (Proc.devRef .tc main_v6)
      = fun i => m ((d.tc : Thread nD τ).loc main_arg6) (ix2 (0 : Fin 2) (i 0)) := (b_v6 _).trans (a_v6 _)
  have e8 : after (opsB (F := Ideal)) (after opsA (launchContents m d)) (Proc.devRef .tc main_v8)
      = fun i => m ((d.tc : Thread nD τ).loc main_arg6) (ix2 (1 : Fin 2) (i 0)) := (b_v8 _).trans (a_v8 _)
  have h6 : ∀ i, (after (opsB (F := Ideal)) (after opsA (launchContents m d)) (Proc.devRef .tc main_v6) i).toNat < 8192 := by
    intro i; rw [e6]; exact hr _
  have h8 : ∀ i, (after (opsB (F := Ideal)) (after opsA (launchContents m d)) (Proc.devRef .tc main_v8) i).toNat < 8192 := by
    intro i; rw [e8]; exact hr _
  -- the projected features too
  have e4 : after (opsB (F := Ideal)) (after opsA (launchContents m d)) (Proc.devRef .tc main_v4)
      = fun i => Cert.Spec.R.h3 (m ((d.tc : Thread nD τ).loc main_arg0)) (m ((d.tc : Thread nD τ).loc main_arg2))
          (m ((d.tc : Thread nD τ).loc main_arg3)) (i 0) (i 1) (i 2) := (b_v4 _).trans (a_v4 _)
  -- the weights: the second stretch over the first's summed projections and the untouched `A2`
  have e41 : after (opsB (F := Ideal)) (after opsA (launchContents m d)) (Proc.devRef .tc main_v41)
      = fun i => Cert.Spec.R.att (m ((d.tc : Thread nD τ).loc main_arg0)) (m ((d.tc : Thread nD τ).loc main_arg2))
          (m ((d.tc : Thread nD τ).loc main_arg3)) (m ((d.tc : Thread nD τ).loc main_arg4)) (m ((d.tc : Thread nD τ).loc main_arg5))
          (Cert.Spec.nodeOf (m ((d.tc : Thread nD τ).loc main_arg6)) hr 0) (Cert.Spec.nodeOf (m ((d.tc : Thread nD τ).loc main_arg6)) hr 1)
          (i 0) (i 1) := by
    refine (b_v41 _).trans ?_
    rw [a_arg5, a_v27 (launchContents m d) hr0]
    rfl
  refine (c_v62 _ h6 h8).trans ?_
  funext i
  unfold Cert.Spec.R.out
  have s6 : (fun e : Fin 261657 => (⟨(after (opsB (F := Ideal)) (after opsA (launchContents m d)) (Proc.devRef .tc main_v6) (ix1 e)).toNat, h6 _⟩ : Fin 8192))
      = Cert.Spec.nodeOf (m ((d.tc : Thread nD τ).loc main_arg6)) hr 0 :=
    funext fun e => Fin.ext (show (after (opsB (F := Ideal)) (after opsA (launchContents m d)) (Proc.devRef .tc main_v6) (ix1 e)).toNat
      = (m ((d.tc : Thread nD τ).loc main_arg6) (ix2 (0 : Fin 2) e)).toNat from congrArg BitVec.toNat (congrFun e6 (ix1 e)))
  have s8 : (fun e : Fin 261657 => (⟨(after (opsB (F := Ideal)) (after opsA (launchContents m d)) (Proc.devRef .tc main_v8) (ix1 e)).toNat, h8 _⟩ : Fin 8192))
      = Cert.Spec.nodeOf (m ((d.tc : Thread nD τ).loc main_arg6)) hr 1 :=
    funext fun e => Fin.ext (show (after (opsB (F := Ideal)) (after opsA (launchContents m d)) (Proc.devRef .tc main_v8) (ix1 e)).toNat
      = (m ((d.tc : Thread nD τ).loc main_arg6) (ix2 (1 : Fin 2) e)).toNat from congrArg BitVec.toNat (congrFun e8 (ix1 e)))
  rw [s6, s8, e41, e4]
  rfl

end Cert.ReferenceIdeal.Val

end
-- ==== Proof.BridgeScore.lean ====
/-
  The 0/1-row products read a node's row, the folded weight tables compute each head's projection, and so an edge's
  score is the same in both spellings.
-/
import proofs.«401063_j42442866819268_2_alg».proof.Proof.Spec

noncomputable section

open scoped BigOperators

namespace Cert.Spec

open Idealize.ShloMosaic Idealize.ShloMosaic.ValueIdx

variable (x : (⟨2, ![8192, 128]⟩ : Shape).Idx → EReal) (W : (⟨2, ![128, 256]⟩ : Shape).Idx → EReal)
  (b : (⟨1, ![256]⟩ : Shape).Idx → EReal) (A1 : (⟨2, ![256, 64]⟩ : Shape).Idx → EReal)
  (A2 : (⟨2, ![64, 1]⟩ : Shape).Idx → EReal)
variable (sN dN : Fin 261657 → Fin 8192) (sP dP : Fin 262144 → ℕ)

/-! ## Sums whose terms vanish off one block -/

/-- A sum whose terms vanish off the image of an injection is the sum over the injection's domain. -/
private theorem sum_of_inj_support {α β : Type} [Fintype α] [Fintype β] [DecidableEq β] (φ : α → β)
    (hφ : Function.Injective φ) (g : β → EReal) (h0 : ∀ k : β, (∀ a, φ a ≠ k) → g k = 0) :
    (∑ k : β, g k) = ∑ a : α, g (φ a) := by
  rw [← Finset.sum_image (s := Finset.univ) (g := φ) (f := g) (fun a _ c _ h => hφ h)]
  symm
  refine Finset.sum_subset (Finset.subset_univ _) ?_
  intro k _ hk'
  exact h0 k (fun a ha => hk' (Finset.mem_image.mpr ⟨a, Finset.mem_univ _, ha⟩))

private theorem hk_inj (hd : Fin 2) : Function.Injective (hk hd) := by
  intro d d' h
  have h' : hd.val * 128 + d.val = hd.val * 128 + d'.val := congrArg Fin.val h
  exact Fin.ext (by omega)

private theorem hf_inj (hd : Fin 2) : Function.Injective (hf hd) := by
  intro f f' h
  have h' : hd.val * 64 + f.val = hd.val * 64 + f'.val := congrArg Fin.val h
  exact Fin.ext (by omega)

/-- A sum over the 256 columns whose terms vanish off head `hd`'s 128 columns is the sum over `d ↦ 128 · hd + d`. -/
private theorem sum_head256 (hd : Fin 2) (g : Fin 256 → EReal)
    (h0 : ∀ k : Fin 256, k.val / 128 ≠ hd.val → g k = 0) :
    (∑ k : Fin 256, g k) = ∑ d : Fin 128, g (hk hd d) := by
  refine sum_of_inj_support (hk hd) (hk_inj hd) g (fun k hk' => h0 k (fun hq => ?_))
  have hkl := k.isLt
  have hdl := hd.isLt
  refine hk' ⟨k.val - hd.val * 128, by omega⟩ (Fin.ext ?_)
  show hd.val * 128 + (k.val - hd.val * 128) = k.val
  omega

/-- A sum over the 128 folded columns whose terms vanish off head `hd`'s 64 columns is the sum over `f ↦ 64 · hd + f`. -/
private theorem sum_head128 (hd : Fin 2) (g : Fin 128 → EReal)
    (h0 : ∀ c : Fin 128, c.val / 64 ≠ hd.val → g c = 0) :
    (∑ c : Fin 128, g c) = ∑ f : Fin 64, g (hf hd f) := by
  refine sum_of_inj_support (hf hd) (hf_inj hd) g (fun c hc' => h0 c (fun hq => ?_))
  have hcl := c.isLt
  have hdl := hd.isLt
  refine hc' ⟨c.val - hd.val * 64, by omega⟩ (Fin.ext ?_)
  show hd.val * 64 + (c.val - hd.val * 64) = c.val
  omega

/-- A table read at two indices with equal coordinates. -/
private theorem A_congr {n0 n1 : ℕ} (A : (⟨2, ![n0, n1]⟩ : Shape).Idx → EReal) {a a' : Fin n0} {c c' : Fin n1}
    (ha : a.val = a'.val) (hc : c.val = c'.val) : A (ix2 a c) = A (ix2 a' c') := by
  have ha' : a = a' := Fin.ext ha
  have hc' : c = c' := Fin.ext hc
  subst ha' hc'
  rfl

/-! ## The entries of the block-diagonal tables -/

/-- On head `hd`'s diagonal block the source table holds the top half of `A1`. -/
private theorem WsB_diag (hd : Fin 2) (d : Fin 128) (f : Fin 64) :
    K.WsB A1 (hk hd d) (hf hd f) = A1 (ix2 (lo128 d) f) := by
  have hdl := hd.isLt
  have hdd := d.isLt
  have hfl := f.isLt
  have hkv : (hk hd d).val = hd.val * 128 + d.val := rfl
  have hcv : (hf hd f).val = hd.val * 64 + f.val := rfl
  unfold K.WsB
  by_cases h0 : hd.val = 0
  · have hk1 : (hk hd d).val < 128 := by omega
    have hc1 : (hf hd f).val < 64 := by omega
    rw [dif_pos hk1, dif_pos hc1]
    exact A_congr A1 (by show (hk hd d).val = d.val; omega) (by show (hf hd f).val = f.val; omega)
  · have hk1 : ¬ (hk hd d).val < 128 := by omega
    have hc1 : ¬ (hf hd f).val < 64 := by omega
    rw [dif_neg hk1, dif_neg hc1]
    exact A_congr A1 (by show (hk hd d).val - 128 = d.val; omega) (by show (hf hd f).val - 64 = f.val; omega)

/-- Off head `hd`'s rows the source table's column `64 · hd + f` is zero. -/
private theorem WsB_off (hd : Fin 2) (k : Fin 256) (f : Fin 64) (h : k.val / 128 ≠ hd.val) :
    K.WsB A1 k (hf hd f) = 0 := by
  have hkl := k.isLt
  have hdl := hd.isLt
  have hfl := f.isLt
  have hcv : (hf hd f).val = hd.val * 64 + f.val := rfl
  unfold K.WsB
  by_cases hk1 : k.val < 128
  · have hc1 : ¬ (hf hd f).val < 64 := by omega
    rw [dif_pos hk1, dif_neg hc1]
  · have hc1 : (hf hd f).val < 64 := by omega
    rw [dif_neg hk1, dif_pos hc1]

/-- On head `hd`'s diagonal block the destination table holds the bottom half of `A1`. -/
private theorem WdB_diag (hd : Fin 2) (d : Fin 128) (f : Fin 64) :
    K.WdB A1 (hk hd d) (hf hd f) = A1 (ix2 (hi128 d) f) := by
  have hdl := hd.isLt
  have hdd := d.isLt
  have hfl := f.isLt
  have hkv : (hk hd d).val = hd.val * 128 + d.val := rfl
  have hcv : (hf hd f).val = hd.val * 64 + f.val := rfl
  unfold K.WdB
  by_cases h0 : hd.val = 0
  · have hk1 : (hk hd d).val < 128 := by omega
    have hc1 : (hf hd f).val < 64 := by omega
    rw [dif_pos hk1, dif_pos hc1]
    exact A_congr A1 (by show 128 + (hk hd d).val = 128 + d.val; omega) (by show (hf hd f).val = f.val; omega)
  · have hk1 : ¬ (hk hd d).val < 128 := by omega
    have hc1 : ¬ (hf hd f).val < 64 := by omega
    rw [dif_neg hk1, dif_neg hc1]
    exact A_congr A1 (by show (hk hd d).val = 128 + d.val; omega) (by show (hf hd f).val - 64 = f.val; omega)

/-- Off head `hd`'s rows the destination table's column `64 · hd + f` is zero. -/
private theorem WdB_off (hd : Fin 2) (k : Fin 256) (f : Fin 64) (h : k.val / 128 ≠ hd.val) :
    K.WdB A1 k (hf hd f) = 0 := by
  have hkl := k.isLt
  have hdl := hd.isLt
  have hfl := f.isLt
  have hcv : (hf hd f).val = hd.val * 64 + f.val := rfl
  unfold K.WdB
  by_cases hk1 : k.val < 128
  · have hc1 : ¬ (hf hd f).val < 64 := by omega
    rw [dif_pos hk1, dif_neg hc1]
  · have hc1 : (hf hd f).val < 64 := by omega
    rw [dif_neg hk1, dif_pos hc1]

/-- On head `hd`'s block the folded `A2` table holds `A2`. -/
private theorem a2B_diag (hd : Fin 2) (f : Fin 64) :
    K.a2B A2 (hf hd f) hd = A2 (ix2 f 0) := by
  have hdl := hd.isLt
  have hfl := f.isLt
  have hcv : (hf hd f).val = hd.val * 64 + f.val := rfl
  unfold K.a2B
  by_cases h0 : hd.val = 0
  · have hc1 : (hf hd f).val < 64 := by omega
    rw [dif_pos hc1, if_pos h0]
    exact A_congr A2 (by show (hf hd f).val = f.val; omega) rfl
  · have hc1 : ¬ (hf hd f).val < 64 := by omega
    rw [dif_neg hc1, if_neg h0]
    exact A_congr A2 (by show (hf hd f).val - 64 = f.val; omega) rfl

/-- Off head `hd`'s 64 columns the folded `A2` table's column `hd` is zero. -/
private theorem a2B_off (hd : Fin 2) (c : Fin 128) (h : c.val / 64 ≠ hd.val) :
    K.a2B A2 c hd = 0 := by
  have hcl := c.isLt
  have hdl := hd.isLt
  unfold K.a2B
  by_cases hc1 : c.val < 64
  · have h0 : ¬ hd.val = 0 := by omega
    rw [dif_pos hc1, if_neg h0]
  · have h0 : hd.val = 0 := by omega
    rw [dif_neg hc1, if_pos h0]

/-! ## The padded node numbers -/

/-- On an edge's slot the padded node number is the edge's node. -/
private theorem pads_real {s : Fin 261657 → Fin 8192} {p : Fin 262144 → ℕ} (hS : Pads s p) (e : Fin 261657) :
    p (pe e) = (s e).val := by
  have h := hS (pe e)
  have he : (pe e).val < 261657 := e.isLt
  rw [dif_pos he] at h
  exact h

/-- On a padding slot the padded node number is 8192. -/
private theorem pads_pad {s : Fin 261657 → Fin 8192} {p : Fin 262144 → ℕ} (hS : Pads s p) (e : Fin 262144)
    (he : ¬ e.val < 261657) : p e = 8192 := by
  have h := hS e
  rw [dif_neg he] at h
  exact h

/-! ## The six facts -/

/-- A 0/1 row against a table reads the table's row at the node, and nothing at node number 8192. -/
theorem sum_oh (T : Fin 8192 → EReal) (v : ℕ) :
    (∑ n : Fin 8192, K.oh v n * T n) = if h : v < 8192 then T ⟨v, h⟩ else 0 := by
  by_cases h : v < 8192
  · rw [dif_pos h, Finset.sum_eq_single (⟨v, h⟩ : Fin 8192)]
    · unfold K.oh
      rw [if_pos rfl, one_mul]
    · intro n _ hn
      have hne : ¬ v = n.val := fun hv => hn (Fin.ext hv.symm)
      unfold K.oh
      rw [if_neg hne, zero_mul]
    · intro hx
      exact absurd (Finset.mem_univ _) hx
  · rw [dif_neg h]
    refine Finset.sum_eq_zero (fun n _ => ?_)
    have hne : ¬ v = n.val := by have := n.isLt; omega
    unfold K.oh
    rw [if_neg hne, zero_mul]

/-- The 0/1 row of a node number that is a node's reads that node's row. -/
private theorem gather_row (T : Fin 8192 → EReal) (v : ℕ) (n : Fin 8192) (hv : v = n.val) :
    (∑ m : Fin 8192, K.oh v m * T m) = T n := by
  subst hv
  rw [sum_oh T n.val, dif_pos n.isLt]

/-- The gathered destination features of a real edge are its destination's row. -/
theorem gh_real (hD : Pads dN dP) (e : Fin 261657) (k : Fin 256) :
    K.gh x W b dP (pe e) k = hv x W b (dN e) k := by
  unfold K.gh K.ghT
  exact gather_row (fun n => hv x W b n k) (dP (pe e)) (dN e) (pads_real hD e)

/-- A padding slot gathers the zero row. -/
theorem gh_pad (hD : Pads dN dP) (e : Fin 262144) (he : ¬ e.val < 261657) (k : Fin 256) :
    K.gh x W b dP e k = 0 := by
  unfold K.gh K.ghT
  refine (sum_oh (fun n => hv x W b n k) (dP e)).trans ?_
  have hn : ¬ dP e < 8192 := by rw [pads_pad hD e he]; omega
  exact dif_neg hn

/-- The folded source projection is the head's projection. -/
theorem psrc_fold (n : Fin 8192) (hd : Fin 2) (f : Fin 64) :
    K.psrc x W b A1 n (hf hd f) = R.psrc x W b A1 n hd f := by
  unfold K.psrc K.psrcT R.psrc
  -- only head `hd`'s 128 rows of the column `64 · hd + f` are non-zero
  refine (sum_head256 hd _ ?_).trans ?_
  · intro k hk'
    rw [WsB_off A1 hd k f hk', mul_zero]
  · refine Finset.sum_congr rfl (fun d _ => ?_)
    rw [WsB_diag A1 hd d f]

/-- The folded destination projection of a row `g` of projected features is the head's projection. -/
theorem pdst_fold (n : Fin 8192) (hd : Fin 2) (f : Fin 64) :
    (∑ k : Fin 256, hv x W b n k * K.WdB A1 k (hf hd f)) = R.pdst x W b A1 n hd f := by
  unfold R.pdst
  refine (sum_head256 hd _ ?_).trans ?_
  · intro k hk'
    rw [WdB_off A1 hd k f hk', mul_zero]
  · refine Finset.sum_congr rfl (fun d _ => ?_)
    rw [WdB_diag A1 hd d f]

/-- An edge's score is the same in both spellings. -/
theorem score_eq (hS : Pads sN sP) (hD : Pads dN dP) (e : Fin 261657) (hd : Fin 2) :
    K.score x W b A1 A2 sP dP (pe e) hd = R.score x W b A1 A2 sN dN e hd := by
  unfold K.score K.scoreT R.score R.scoreT R.sv
  -- only head `hd`'s 64 columns of the folded `A2` table are non-zero
  refine (sum_head128 hd _ ?_).trans ?_
  · intro c hc
    rw [a2B_off A2 hd c hc, mul_zero]
  · refine Finset.sum_congr rfl (fun f _ => ?_)
    have h1 : K.gpsT sP (K.psrc x W b A1) (pe e) (hf hd f) = R.psrc x W b A1 (sN e) hd f := by
      unfold K.gpsT
      exact (gather_row (fun n => K.psrc x W b A1 n (hf hd f)) (sP (pe e)) (sN e) (pads_real hS e)).trans
        (psrc_fold x W b A1 (sN e) hd f)
    have h2 : K.gpdT dP (hv x W b) (K.WdB A1) (pe e) (hf hd f) = R.pdst x W b A1 (dN e) hd f := by
      unfold K.gpdT
      refine (Finset.sum_congr rfl (fun k _ => ?_)).trans (pdst_fold x W b A1 (dN e) hd f)
      exact congrArg (· * K.WdB A1 k (hf hd f)) (gh_real x W b dN dP hD e k)
    rw [h1, h2, a2B_diag A2 hd f]

end Cert.Spec

end
-- ==== Proof.BridgeSoftmax.lean ====
/-
  The padded softmax: slots past the edge list carry the score -∞, which changes neither the maximum nor — their
  exponential being 0 — the sum, so a real edge's weight is the same in both spellings.
-/
import proofs.«401063_j42442866819268_2_alg».proof.Proof.Spec
import Mathlib.Data.Finset.Fold
import Mathlib.Data.EReal.Operations
import Mathlib.Algebra.BigOperators.Group.Finset.Basic

noncomputable section

open scoped BigOperators

namespace Cert.Spec

open Idealize.ShloMosaic Idealize.ShloMosaic.ValueIdx

/-- An edge's slot lies among the first 261657. -/
private theorem pe_lt (e : Fin 261657) : (pe e).val < 261657 := e.isLt

/-- Distinct edges sit in distinct slots. -/
private theorem pe_injective : Function.Injective pe := by
  intro a c h
  have hv : (pe a).val = (pe c).val := congrArg Fin.val h
  exact Fin.ext hv

/-- A slot among the first 261657 is the slot of the edge with its number. -/
private theorem pe_mk (e : Fin 262144) (he : e.val < 261657) : pe ⟨e.val, he⟩ = e := Fin.ext rfl

/-- The fold of `max` from `-∞` over the 262144 slots of a function that is `-∞` past the edge list equals the fold over
the 261657 edges of its values on their slots: each side is bounded by the other, term by term. -/
private theorem fold_pad (S : Fin 262144 → EReal) (f : Fin 261657 → EReal) (h : ∀ e, S (pe e) = f e) :
    (Finset.univ : Finset (Fin 262144)).fold max ⊥ (fun e => if e.val < 261657 then S e else ⊥)
      = (Finset.univ : Finset (Fin 261657)).fold max ⊥ f := by
  apply le_antisymm
  · refine (Finset.fold_max_le _).mpr ⟨bot_le, fun e _ => ?_⟩
    by_cases he : e.val < 261657
    · refine (Finset.le_fold_max _).mpr (Or.inr ⟨⟨e.val, he⟩, Finset.mem_univ _, ?_⟩)
      show (if e.val < 261657 then S e else ⊥) ≤ f ⟨e.val, he⟩
      rw [if_pos he, ← h, pe_mk e he]
    · show (if e.val < 261657 then S e else ⊥) ≤ _
      rw [if_neg he]
      exact bot_le
  · refine (Finset.fold_max_le _).mpr ⟨bot_le, fun e _ => ?_⟩
    refine (Finset.le_fold_max _).mpr (Or.inr ⟨pe e, Finset.mem_univ _, ?_⟩)
    show f e ≤ (if (pe e).val < 261657 then S (pe e) else ⊥)
    rw [if_pos (pe_lt e), h]

/-- A sum over the 262144 slots whose terms past the edge list are 0 is the sum over the 261657 edges of the terms on
their slots: the slots of edges are exactly those that may carry a nonzero term. -/
private theorem sum_pad (g : Fin 262144 → EReal) (hg : ∀ e : Fin 262144, ¬ e.val < 261657 → g e = 0) :
    ∑ e : Fin 262144, g e = ∑ e : Fin 261657, g (pe e) := by
  symm
  refine (Finset.sum_map Finset.univ ⟨pe, pe_injective⟩ g).symm.trans ?_
  refine Finset.sum_subset (Finset.subset_univ _) (fun e _ hne => hg e (fun hlt => hne ?_))
  rw [Finset.mem_map]
  exact ⟨⟨e.val, hlt⟩, Finset.mem_univ _, pe_mk e hlt⟩

variable (x : (⟨2, ![8192, 128]⟩ : Shape).Idx → EReal) (W : (⟨2, ![128, 256]⟩ : Shape).Idx → EReal)
  (b : (⟨1, ![256]⟩ : Shape).Idx → EReal) (A1 : (⟨2, ![256, 64]⟩ : Shape).Idx → EReal)
  (A2 : (⟨2, ![64, 1]⟩ : Shape).Idx → EReal)
variable (sN dN : Fin 261657 → Fin 8192) (sP dP : Fin 262144 → ℕ)

/-- Given equal scores on the real edges, the largest masked score over the padded list is the largest score. -/
theorem mx_eq (hscore : ∀ (e : Fin 261657) (hd : Fin 2), K.score x W b A1 A2 sP dP (pe e) hd = R.score x W b A1 A2 sN dN e hd)
    (hd : Fin 2) : K.mx x W b A1 A2 sP dP hd = R.mx x W b A1 A2 sN dN hd := by
  unfold K.mx K.mxT R.mx K.maskedT
  exact fold_pad (fun e => K.score x W b A1 A2 sP dP e hd) (fun e => R.score x W b A1 A2 sN dN e hd)
    (fun e => hscore e hd)

/-- A padding slot's exponential is 0. -/
theorem ex_pad (e : Fin 262144) (he : ¬ e.val < 261657) (hd : Fin 2) : K.ex x W b A1 A2 sP dP e hd = 0 := by
  unfold K.ex K.exT K.maskedT
  rw [if_neg he, EReal.bot_sub, Ideal.exp_bot]

/-- Given equal scores on the real edges, a real edge's exponential is the same in both spellings: its masked score is
its score, and the two maxima agree. -/
private theorem ex_eq (hscore : ∀ (e : Fin 261657) (hd : Fin 2), K.score x W b A1 A2 sP dP (pe e) hd = R.score x W b A1 A2 sN dN e hd)
    (e : Fin 261657) (hd : Fin 2) : K.ex x W b A1 A2 sP dP (pe e) hd = R.ex x W b A1 A2 sN dN e hd := by
  have hm := mx_eq x W b A1 A2 sN dN sP dP hscore hd
  show Ideal.exp ((if (pe e).val < 261657 then K.score x W b A1 A2 sP dP (pe e) hd else ⊥) - K.mx x W b A1 A2 sP dP hd)
    = Ideal.exp (R.score x W b A1 A2 sN dN e hd - R.mx x W b A1 A2 sN dN hd)
  rw [if_pos (pe_lt e), hscore e hd, hm]

/-- Given equal scores on the real edges, the two sums of exponentials agree: the padding slots add 0. -/
private theorem den_eq (hscore : ∀ (e : Fin 261657) (hd : Fin 2), K.score x W b A1 A2 sP dP (pe e) hd = R.score x W b A1 A2 sN dN e hd)
    (hd : Fin 2) : K.den x W b A1 A2 sP dP hd = R.den x W b A1 A2 sN dN hd := by
  show ∑ e : Fin 262144, K.ex x W b A1 A2 sP dP e hd = ∑ e : Fin 261657, R.ex x W b A1 A2 sN dN e hd
  rw [sum_pad (fun e => K.ex x W b A1 A2 sP dP e hd) (fun e he => ex_pad x W b A1 A2 sP dP e he hd)]
  exact Finset.sum_congr rfl (fun e _ => ex_eq x W b A1 A2 sN dN sP dP hscore e hd)

/-- Given equal scores on the real edges, a real edge's weight is the same in both spellings. -/
theorem att_eq (hscore : ∀ (e : Fin 261657) (hd : Fin 2), K.score x W b A1 A2 sP dP (pe e) hd = R.score x W b A1 A2 sN dN e hd)
    (e : Fin 261657) (hd : Fin 2) : K.att x W b A1 A2 sP dP (pe e) hd = R.att x W b A1 A2 sN dN e hd := by
  have h1 := ex_eq x W b A1 A2 sN dN sP dP hscore e hd
  have h2 := den_eq x W b A1 A2 sN dN sP dP hscore hd
  show Ideal.div (K.ex x W b A1 A2 sP dP (pe e) hd) (K.den x W b A1 A2 sP dP hd)
    = Ideal.div (R.ex x W b A1 A2 sN dN e hd) (R.den x W b A1 A2 sN dN hd)
  rw [h1, h2]

end Cert.Spec

end
-- ==== Proof.BridgeScatter.lean ====
/-
  The scatter as a product with the transposed 0/1 matrix: summed over all 262144 slots in blocks of 512, a node
  receives exactly the messages of the edges whose source it is; the two halves and the two heads then add up to the
  reference's sum over heads.
-/
import proofs.«401063_j42442866819268_2_alg».proof.Proof.Spec

noncomputable section

open scoped BigOperators

namespace Cert.Spec

open Idealize.ShloMosaic Idealize.ShloMosaic.ValueIdx

variable (x : (⟨2, ![8192, 128]⟩ : Shape).Idx → EReal) (W : (⟨2, ![128, 256]⟩ : Shape).Idx → EReal)
  (b : (⟨1, ![256]⟩ : Shape).Idx → EReal) (A1 : (⟨2, ![256, 64]⟩ : Shape).Idx → EReal)
  (A2 : (⟨2, ![64, 1]⟩ : Shape).Idx → EReal)
variable (sN dN : Fin 261657 → Fin 8192) (sP dP : Fin 262144 → ℕ)

/-- Half, block and position number the 262144 slots once each: (cc · 256 + i) · 512 + r is a bijection. -/
private theorem edge_bijective :
    Function.Bijective (fun p : Fin 2 × Fin 256 × Fin 512 => K.edge p.1 p.2.1 p.2.2) := by
  rw [Fintype.bijective_iff_injective_and_card]
  refine ⟨?_, ?_⟩
  · rintro ⟨a, i, r⟩ ⟨a', i', r'⟩ h
    have h' : (a.val * 256 + i.val) * 512 + r.val = (a'.val * 256 + i'.val) * 512 + r'.val := by
      simpa [K.edge] using congrArg Fin.val h
    have ha := a.isLt; have ha' := a'.isLt; have hi := i.isLt; have hi' := i'.isLt
    have hr := r.isLt; have hr' := r'.isLt
    have e1 : a = a' := Fin.ext (by omega)
    have e2 : i = i' := Fin.ext (by omega)
    have e3 : r = r' := Fin.ext (by omega)
    subst e1 e2 e3
    rfl
  · simp [Fintype.card_prod, Fintype.card_fin]

/-- A sum over the blocks and positions of both halves is the sum over all slots. -/
private theorem sum_halves {M : Type*} [AddCommMonoid M] (f : Fin 262144 → M) :
    (∑ i : Fin 256, ∑ r : Fin 512, f (K.edge 0 i r)) + (∑ i : Fin 256, ∑ r : Fin 512, f (K.edge 1 i r))
      = ∑ e : Fin 262144, f e := by
  rw [← Fintype.sum_bijective _ edge_bijective (fun p => f (K.edge p.1 p.2.1 p.2.2)) f (fun _ => rfl)]
  rw [Fintype.sum_prod_type, Fin.sum_univ_two]
  simp only [Fintype.sum_prod_type]

/-- A sum over all slots whose terms vanish on the padding slots is the sum over the edges. -/
private theorem sum_real_slots {M : Type*} [AddCommMonoid M] (g : Fin 262144 → M)
    (h0 : ∀ e : Fin 262144, 261657 ≤ e.val → g e = 0) :
    (∑ e : Fin 262144, g e) = ∑ e : Fin 261657, g (pe e) := by
  symm
  refine Fintype.sum_of_injective pe ?_ (fun e => g (pe e)) g ?_ (fun _ => rfl)
  · intro a a' h
    exact Fin.ext (by simpa [pe] using congrArg Fin.val h)
  · intro e he
    apply h0
    by_contra hlt
    exact he ⟨⟨e.val, by omega⟩, Fin.ext rfl⟩

private theorem lo128_eq (d : Fin 128) : lo128 d = hk 0 d := Fin.ext (by simp [lo128, hk])
private theorem hi128_eq (d : Fin 128) : hi128 d = hk 1 d := Fin.ext (by simp [hi128, hk])
private theorem colHead_hk (hd : Fin 2) (d : Fin 128) : colHead (hk hd d) = hd := by
  apply Fin.ext
  have h1 := hd.isLt; have h2 := d.isLt
  simp only [colHead, hk]
  omega

/-- The two halves' block sums together run over every slot once. -/
theorem agg_halves (n : Fin 8192) (col : Fin 256) :
    K.agg x W b A1 A2 sP dP 0 n col + K.agg x W b A1 A2 sP dP 1 n col
      = ∑ e : Fin 262144, K.oh (sP e) n * K.msg x W b A1 A2 sP dP e col := by
  -- each half is the double sum, over its blocks and their positions, of the slot's term
  exact sum_halves (fun e => K.oh (sP e) n * K.msg x W b A1 A2 sP dP e col)

/-- Given equal weights and the gathered rows, the sum over all slots is the reference's sum over the node's edges. -/
theorem slots_eq (hS : Pads sN sP)
    (hatt : ∀ (e : Fin 261657) (hd : Fin 2), K.att x W b A1 A2 sP dP (pe e) hd = R.att x W b A1 A2 sN dN e hd)
    (hgh : ∀ (e : Fin 261657) (k : Fin 256), K.gh x W b dP (pe e) k = hv x W b (dN e) k)
    (n : Fin 8192) (hd : Fin 2) (d : Fin 128) :
    (∑ e : Fin 262144, K.oh (sP e) n * K.msg x W b A1 A2 sP dP e (hk hd d)) = R.agg x W b A1 A2 sN dN n hd d := by
  -- a padding slot's node number 8192 matches no node: its 0/1 entry is 0 and so is its term
  have hpad : ∀ e : Fin 262144, 261657 ≤ e.val →
      K.oh (sP e) n * K.msg x W b A1 A2 sP dP e (hk hd d) = 0 := by
    intro e he
    have hs : sP e = 8192 := by
      rw [hS e, dif_neg (by omega)]
    have hn := n.isLt
    have : K.oh (sP e) n = 0 := by
      rw [hs]
      unfold K.oh
      exact if_neg (by omega)
    rw [this, zero_mul]
  rw [sum_real_slots _ hpad]
  -- a real slot carries the edge's weight for the column's head times the destination's feature,
  -- kept when the edge's source is the node
  have hterm : ∀ e : Fin 261657,
      K.oh (sP (pe e)) n * K.msg x W b A1 A2 sP dP (pe e) (hk hd d)
        = if sN e = n then R.att x W b A1 A2 sN dN e hd * hv x W b (dN e) (hk hd d) else 0 := by
    intro e
    have hs : sP (pe e) = (sN e).val := by
      rw [hS (pe e)]
      exact dif_pos e.isLt
    have hm : K.msg x W b A1 A2 sP dP (pe e) (hk hd d)
        = R.att x W b A1 A2 sN dN e hd * hv x W b (dN e) (hk hd d) := by
      unfold K.msg K.msgT
      rw [colHead_hk, hatt e hd, hgh e (hk hd d)]
    rw [hs, hm]
    unfold K.oh
    by_cases h : sN e = n
    · rw [if_pos h, if_pos (congrArg Fin.val h), one_mul]
    · rw [if_neg h, if_neg (fun hv' => h (Fin.ext hv')), zero_mul]
  rw [Finset.sum_congr rfl (fun e _ => hterm e)]
  unfold R.agg R.aggT R.h3
  exact (Finset.sum_filter _ _).symm

/-- So the averaged result is the same in both spellings. -/
theorem out_eq_of (hS : Pads sN sP)
    (hatt : ∀ (e : Fin 261657) (hd : Fin 2), K.att x W b A1 A2 sP dP (pe e) hd = R.att x W b A1 A2 sN dN e hd)
    (hgh : ∀ (e : Fin 261657) (k : Fin 256), K.gh x W b dP (pe e) k = hv x W b (dN e) k)
    (n : Fin 8192) (d : Fin 128) :
    K.out x W b A1 A2 sP dP n d = R.out x W b A1 A2 sN dN n d := by
  unfold K.out K.outT R.out R.outT
  -- the reference's sum over heads is of its two per-head sums over the node's edges
  change _ = Ideal.div (∑ hd : Fin 2, R.agg x W b A1 A2 sN dN n hd d) two
  -- the low 128 columns are head 0's, the high 128 head 1's; each pair of halves is that head's sum over the edges
  rw [lo128_eq, hi128_eq, agg_halves, agg_halves,
    slots_eq x W b A1 A2 sN dN sP dP hS hatt hgh n 0 d, slots_eq x W b A1 A2 sN dN sP dP hS hatt hgh n 1 d,
    Fin.sum_univ_two]

end Cert.Spec

end
-- ==== Proof.Bridge.lean ====
/-
  The two spellings of the edge-attention layer are one function of the inputs and the edge list.
-/
import proofs.«401063_j42442866819268_2_alg».proof.Proof.Spec
import proofs.«401063_j42442866819268_2_alg».proof.Proof.BridgeScore
import proofs.«401063_j42442866819268_2_alg».proof.Proof.BridgeSoftmax
import proofs.«401063_j42442866819268_2_alg».proof.Proof.BridgeScatter

noncomputable section

open scoped BigOperators

namespace Cert.Spec

open Idealize.ShloMosaic Idealize.ShloMosaic.ValueIdx

variable (x : (⟨2, ![8192, 128]⟩ : Shape).Idx → EReal) (W : (⟨2, ![128, 256]⟩ : Shape).Idx → EReal)
  (b : (⟨1, ![256]⟩ : Shape).Idx → EReal) (A1 : (⟨2, ![256, 64]⟩ : Shape).Idx → EReal)
  (A2 : (⟨2, ![64, 1]⟩ : Shape).Idx → EReal)
variable (sN dN : Fin 261657 → Fin 8192) (sP dP : Fin 262144 → ℕ)

/-- The kernel's spelling over the padded edge list equals the reference's over the edge list. -/
theorem out_eq (hS : Pads sN sP) (hD : Pads dN dP) (n : Fin 8192) (d : Fin 128) :
    K.out x W b A1 A2 sP dP n d = R.out x W b A1 A2 sN dN n d :=
  out_eq_of x W b A1 A2 sN dN sP dP hS
    (att_eq x W b A1 A2 sN dN sP dP (score_eq x W b A1 A2 sN dN sP dP hS hD))
    (gh_real x W b dN dP hD) n d

/-- The same, for two copies of the inputs that agree and an edge list whose words all name nodes: the reference's
    spelling over one copy is the kernel's over the other. -/
theorem out_agree (x' : (⟨2, ![8192, 128]⟩ : Shape).Idx → EReal) (W' : (⟨2, ![128, 256]⟩ : Shape).Idx → EReal)
    (b' : (⟨1, ![256]⟩ : Shape).Idx → EReal) (A1' : (⟨2, ![256, 64]⟩ : Shape).Idx → EReal)
    (A2' : (⟨2, ![64, 1]⟩ : Shape).Idx → EReal) (ei ei' : (⟨2, ![2, 261657]⟩ : Shape).Idx → BitVec 32)
    (hx : x' = x) (hW : W' = W) (hb : b' = b) (hA1 : A1' = A1) (hA2 : A2' = A2) (he : ei' = ei)
    (hr : ∀ i, (ei i).toNat < 8192) (hr' : ∀ i, (ei' i).toNat < 8192) (n : Fin 8192) (d : Fin 128) :
    R.out x' W' b' A1' A2' (nodeOf ei' hr' 0) (nodeOf ei' hr' 1) n d
      = K.out x W b A1 A2 (padN ei 0) (padN ei 1) n d := by
  subst hx hW hb hA1 hA2 he
  exact (out_eq _ _ _ _ _ _ _ _ _ (pads_nodeOf _ hr 0) (pads_nodeOf _ hr 1) n d).symm

end Cert.Spec

end
-- ==== Proof.PreDecode.lean ====
/-
  What the precondition says of the edge list: it is the conjunction of "every float input is finite" and, for the
  integer edge list, "every entry is at least 0" and "every entry is below 8192" (two signed word comparisons, each
  reduced by `and` over the whole array). From its value 1 the last two conjuncts give every entry, read as a natural
  number, below 8192.
-/
import proofs.«401063_j42442866819268_2_alg».proof.Pre_finite_inputs
import Idealize.ShloMosaic.Lib.ReduceAll
import Idealize.ShloMosaic.Lib.StableHlo.Predicate
import Idealize.ShloMosaic.Lib.ValueIdx

noncomputable section

namespace Cert.Pre_finite_inputs

open Idealize.ShloMosaic Idealize.ShloMosaic.ValueIdx

variable [Facts] {F : FTy → Type} [FloatOps F]

/-- A word that tests at least 0 and below 8192 as a signed number is below 8192 as a natural number: a signed reading
    that is nonnegative is the unsigned reading. -/
private theorem toNat_lt_of_signed {w : BitVec 32} (h0 : (0#32 : BitVec 32).toInt ≤ w.toInt)
    (h1 : w.toInt < (8192#32 : BitVec 32).toInt) : w.toNat < 8192 := by
  have e0 : (0#32 : BitVec 32).toInt = 0 := by decide
  have e1 : (8192#32 : BitVec 32).toInt = 8192 := by decide
  rw [e0] at h0
  rw [e1] at h1
  have hc : 2 * w.toNat < 2 ^ 32 := BitVec.toInt_pos_iff.1 h0
  rw [BitVec.toInt_eq_toNat_of_lt hc] at h1
  omega

/-- Under the precondition every entry of the edge list names a node: read unsigned it is below 8192. -/
theorem range_of_fn (a0 : FVec F S8192x128 .f32) (a1 : FVec F S8192x8192 .f32) (a2 : FVec F S128x256 .f32)
    (a3 : FVec F S256 .f32) (a4 : FVec F S256x64 .f32) (a5 : FVec F S64x1 .f32) (a6 : IVec S2x261657 32)
    (h : fn (F := F) a0 a1 a2 a3 a4 a5 a6 = fun _ => 1#1) : ∀ i, (a6 i).toNat < 8192 := by
  intro i
  haveI : Subsingleton S_.Idx := ⟨fun a b => funext fun d => d.elim0⟩
  have h0 := congrFun h ValueIdx.ix0
  dsimp only [fn, fn_part1, fn_part2] at h0
  -- the value is a conjunction whose last two conjuncts are the two comparisons, each reduced by `and` over all entries
  obtain ⟨h1, hlt⟩ := IntOp.andi_eq_one.1 h0
  obtain ⟨-, hge⟩ := IntOp.andi_eq_one.1 h1
  have ege := Host.reduce_andi_all _ _ _ _ _ hge i
  have elt := Host.reduce_andi_all _ _ _ _ _ hlt i
  -- at an entry, each comparison is of the entry with the broadcast scalar
  have bge : broadcastInDim S2x261657 ![] Facts.bcast_S_S2x261657 (constantI S_ 32 0#32) i = 0#32 :=
    StableHlo.Predicate.bcast_scalar _ Facts.h_S_ _ i
  have blt : broadcastInDim S2x261657 ![] Facts.bcast_S_S2x261657 (constantI S_ 32 8192#32) i = 8192#32 :=
    StableHlo.Predicate.bcast_scalar _ Facts.h_S_ _ i
  have sge : IntOp.cmpi .sge (a6 i) 0#32 = 1#1 := by rw [← bge]; exact ege
  have slt : IntOp.cmpi .slt (a6 i) 8192#32 = 1#1 := by rw [← blt]; exact elt
  exact toNat_lt_of_signed (IntOp.cmpi_sge.1 sge) (IntOp.cmpi_slt.1 slt)

end Cert.Pre_finite_inputs

end
-- ==== Proof.lean ====
/-
  The certificate's five claims for the edge-attention layer (a graph of 8192 nodes and 261657 edges: node projections,
  per-edge scores by head, a softmax over all edges, weighted messages scattered onto the source nodes, the mean over
  two heads).

  The three frames: the kernel's two programs by their generated frame certificates; the reference by its run as a
  straight line of host operations, no operation writing an argument. The idealization rewrote nothing.

  The equivalence at the ideal instance, under the precondition that every entry of the edge list names a node (it is at
  least 0 and below 8192): the kernel program's result buffer is the kernel's spelling of the layer over its arguments
  (the three launches and the host stretches between them read as values), the reference's result buffer is the
  reference's spelling over its arguments (its three stretches read as values), and the two spellings are one function
  of arguments that agree: a 0/1 row times a table reads the table's row, padded edge slots name no node and score -∞,
  and a sum over all slots of 0/1-weighted messages is the sum over the edges whose source is the node.
-/
import proofs.«401063_j42442866819268_2_alg».proof.Defs
import proofs.«401063_j42442866819268_2_alg».proof.Proof.Gen.Kernel
import proofs.«401063_j42442866819268_2_alg».proof.Proof.Gen.Kernel.Skeleton
import proofs.«401063_j42442866819268_2_alg».proof.Proof.Gen.Kernel.Launch
import proofs.«401063_j42442866819268_2_alg».proof.Proof.Gen.Kernel.Points
import proofs.«401063_j42442866819268_2_alg».proof.Proof.Gen.Kernel.Frame
import proofs.«401063_j42442866819268_2_alg».proof.Proof.Gen.KernelIdeal
import proofs.«401063_j42442866819268_2_alg».proof.Proof.Gen.KernelIdeal.Skeleton
import proofs.«401063_j42442866819268_2_alg».proof.Proof.Gen.KernelIdeal.Launch
import proofs.«401063_j42442866819268_2_alg».proof.Proof.Gen.KernelIdeal.Points
import proofs.«401063_j42442866819268_2_alg».proof.Proof.Gen.KernelIdeal.Frame
import proofs.«401063_j42442866819268_2_alg».proof.Proof.Gen.ReferenceIdeal
import proofs.«401063_j42442866819268_2_alg».proof.Proof.Gen.Pre_finite_inputs
import proofs.«401063_j42442866819268_2_alg».proof.Proof.KRun
import proofs.«401063_j42442866819268_2_alg».proof.Proof.KValue
import proofs.«401063_j42442866819268_2_alg».proof.Proof.RRun
import proofs.«401063_j42442866819268_2_alg».proof.Proof.RValue
import proofs.«401063_j42442866819268_2_alg».proof.Proof.Bridge
import proofs.«401063_j42442866819268_2_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ

/-- The reference's run with the results dropped: every argument's buffer ends as launched. -/
theorem frame_ri : Cert.frame_ReferenceIdeal := fun m ρ _ =>
  (θ_run Cert.ReferenceIdeal.defs _ _).mono (fun r h c =>
    ⟨(h c _).trans (Cert.ReferenceIdeal.Val.kept m c _ (Or.inl rfl)),
     (h c _).trans (Cert.ReferenceIdeal.Val.kept m c _ (Or.inr (Or.inl rfl))),
     (h c _).trans (Cert.ReferenceIdeal.Val.kept m c _ (Or.inr (Or.inr (Or.inl rfl)))),
     (h c _).trans (Cert.ReferenceIdeal.Val.kept m c _ (Or.inr (Or.inr (Or.inr (Or.inl rfl))))),
     (h c _).trans (Cert.ReferenceIdeal.Val.kept m c _ (Or.inr (Or.inr (Or.inr (Or.inr (Or.inl rfl)))))),
     (h c _).trans (Cert.ReferenceIdeal.Val.kept m c _ (Or.inr (Or.inr (Or.inr (Or.inr (Or.inr (Or.inl rfl))))))),
     (h c _).trans (Cert.ReferenceIdeal.Val.kept m c _ (Or.inr (Or.inr (Or.inr (Or.inr (Or.inr (Or.inr rfl)))))))⟩)
    (Cert.ReferenceIdeal.Val.run (F := Ideal) m ρ)

theorem preserves : Cert.preserves_Kernel_KernelIdeal := trivial

/-- At the ideal instance both programs end with the layer's value of the arguments: the kernel's spelling on one side,
    the reference's on the other, equal because every word of the edge list names a node. -/
theorem algebraic : Cert.algebraic_KernelIdeal_ReferenceIdeal := by
  intro m ρ m' ρ' hpre hagree
  have hr : ∀ (c : Dev Cert.KernelIdeal.nD) i,
      (m ((c.tc : Thread Cert.KernelIdeal.nD Cert.KernelIdeal.τ).loc Cert.KernelIdeal.main_arg6) i).toNat < 8192 :=
    fun c => Cert.Pre_finite_inputs.range_of_fn _ _ _ _ _ _ _ (hpre c)
  refine ⟨fun c => fun i => Cert.Spec.K.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (Cert.Spec.padN (m ((c.tc : Thread Cert.KernelIdeal.nD Cert.KernelIdeal.τ).loc Cert.KernelIdeal.main_arg6)) 0)
      (Cert.Spec.padN (m ((c.tc : Thread Cert.KernelIdeal.nD Cert.KernelIdeal.τ).loc Cert.KernelIdeal.main_arg6)) 1)
      (i 0) (i 1), ?_, ?_⟩
  · exact (θ_run Cert.KernelIdeal.defs _ _).mono
      (fun r h c => ⟨(h c).1.trans (Cert.KernelIdeal.Val.value_v49 m ρ c), (h c).2⟩)
      (Cert.KernelIdeal.Gen.run_v49 (F := Ideal) m ρ)
  · refine (θ_run Cert.ReferenceIdeal.defs _ _).mono (fun r h c => ?_) (Cert.ReferenceIdeal.Val.run (F := Ideal) m' ρ')
    obtain ⟨a0, a1, a2, a3, a4, a5, a6⟩ := hagree c
    have hr' : ∀ i, (m' ((c.tc : Thread Cert.ReferenceIdeal.nD Cert.ReferenceIdeal.τ).loc Cert.ReferenceIdeal.main_arg6) i).toNat < 8192 := by
      intro i; rw [a6]; exact hr c i
    refine ⟨(h c _).trans ((Cert.ReferenceIdeal.Val.value_v62 m' c hr').trans (funext fun i => ?_)),
      (h c _).trans (Cert.ReferenceIdeal.Val.kept m' c _ (Or.inl rfl)),
      (h c _).trans (Cert.ReferenceIdeal.Val.kept m' c _ (Or.inr (Or.inl rfl))),
      (h c _).trans (Cert.ReferenceIdeal.Val.kept m' c _ (Or.inr (Or.inr (Or.inl rfl)))),
      (h c _).trans (Cert.ReferenceIdeal.Val.kept m' c _ (Or.inr (Or.inr (Or.inr (Or.inl rfl))))),
      (h c _).trans (Cert.ReferenceIdeal.Val.kept m' c _ (Or.inr (Or.inr (Or.inr (Or.inr (Or.inl rfl)))))),
      (h c _).trans (Cert.ReferenceIdeal.Val.kept m' c _ (Or.inr (Or.inr (Or.inr (Or.inr (Or.inr (Or.inl rfl))))))),
      (h c _).trans (Cert.ReferenceIdeal.Val.kept m' c _ (Or.inr (Or.inr (Or.inr (Or.inr (Or.inr (Or.inr rfl)))))))⟩
    exact Cert.Spec.out_agree _ _ _ _ _ _ _ _ _ _ _ _ a0 a2 a3 a4 a5 a6 (hr c) hr' (i 0) (i 1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
